-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x64 : Shape := ⟨2, ![30000, 64]⟩
abbrev S500000x64 : Shape := ⟨2, ![500000, 64]⟩
abbrev S1000000x5 : Shape := ⟨2, ![1000000, 5]⟩
abbrev S5x64 : Shape := ⟨2, ![5, 64]⟩
abbrev S_ : Shape := ⟨0, ![]⟩

class Facts : Prop where
  bcast_S_S30000x64 : S_.BroadcastsInDim S30000x64 (![] : Fin 0 → Fin S30000x64.rank)
  reducesTo_S30000x64_S_d0_1 : S30000x64.ReducesTo [0, 1] S_
  h_S_ : 0 < S_.numel
  bcast_S_S500000x64 : S_.BroadcastsInDim S500000x64 (![] : Fin 0 → Fin S500000x64.rank)
  reducesTo_S500000x64_S_d0_1 : S500000x64.ReducesTo [0, 1] S_
  bcast_S_S5x64 : S_.BroadcastsInDim S5x64 (![] : Fin 0 → Fin S5x64.rank)
  reducesTo_S5x64_S_d0_1 : S5x64.ReducesTo [0, 1] S_

variable [Facts]

def fn {F : FTy → Type} [FloatOps F] (main_arg0 : FVec F S30000x64 .f32) (main_arg1 : FVec F S500000x64 .f32) (main_arg2 : IVec S1000000x5 32) (main_arg3 : FVec F S5x64 .f32) : IVec S_ 1 :=
  let main_v0 : FVec F S30000x64 .f32 := Host.absf main_arg0
  let main_cst : FVec F S_ .f32 := constant S_ .f32 0x7F800000#32
  let main_v1 : FVec F S30000x64 .f32 := broadcastInDim S30000x64 ![] bcast_S_S30000x64 main_cst
  let main_v2 : IVec S30000x64 1 := cmpf .olt main_v0 main_v1
  let main_c : IVec S_ 1 := constantI S_ 1 1#1
  let main_v3 : IVec S_ 1 := (fun x v => Host.reduce IntOp.andi x v reducesTo_S30000x64_S_d0_1 h_S_) main_v2 main_c
  let main_v4 : FVec F S500000x64 .f32 := Host.absf main_arg1
  let main_cst_0 : FVec F S_ .f32 := constant S_ .f32 0x7F800000#32
  let main_v5 : FVec F S500000x64 .f32 := broadcastInDim S500000x64 ![] bcast_S_S500000x64 main_cst_0
  let main_v6 : IVec S500000x64 1 := cmpf .olt main_v4 main_v5
  let main_c_1 : IVec S_ 1 := constantI S_ 1 1#1
  let main_v7 : IVec S_ 1 := (fun x v => Host.reduce IntOp.andi x v reducesTo_S500000x64_S_d0_1 h_S_) main_v6 main_c_1
  let main_v8 : IVec S_ 1 := andi main_v3 main_v7
  let main_v9 : FVec F S5x64 .f32 := Host.absf main_arg3
  let main_cst_2 : FVec F S_ .f32 := constant S_ .f32 0x7F800000#32
  let main_v10 : FVec F S5x64 .f32 := broadcastInDim S5x64 ![] bcast_S_S5x64 main_cst_2
  let main_v11 : IVec S5x64 1 := cmpf .olt main_v9 main_v10
  let main_c_3 : IVec S_ 1 := constantI S_ 1 1#1
  let main_v12 : IVec S_ 1 := (fun x v => Host.reduce IntOp.andi x v reducesTo_S5x64_S_d0_1 h_S_) main_v11 main_c_3
  let main_v13 : IVec S_ 1 := andi main_v8 main_v12
  main_v13
-- ==== Kernel.lean ====
abbrev S30000x64 : Shape := ⟨2, ![30000, 64]⟩
abbrev S500000x64 : Shape := ⟨2, ![500000, 64]⟩
abbrev S1000000x5 : Shape := ⟨2, ![1000000, 5]⟩
abbrev S5x64 : Shape := ⟨2, ![5, 64]⟩
abbrev S5x500000 : Shape := ⟨2, ![5, 500000]⟩
abbrev S32768x64 : Shape := ⟨2, ![32768, 64]⟩
abbrev S5x32768 : Shape := ⟨2, ![5, 32768]⟩
abbrev S5x1000000 : Shape := ⟨2, ![5, 1000000]⟩
abbrev S_ : Shape := ⟨0, ![]⟩
abbrev S5x1000000x1 : Shape := ⟨3, ![5, 1000000, 1]⟩
abbrev S1x1000000 : Shape := ⟨2, ![1, 1000000]⟩
abbrev S5x65536 : Shape := ⟨2, ![5, 65536]⟩
abbrev S1x65536 : Shape := ⟨2, ![1, 65536]⟩
abbrev S65536 : Shape := ⟨1, ![65536]⟩
abbrev S1000000 : Shape := ⟨1, ![1000000]⟩

abbrev nBuf : Space → Nat
  | .hbm => 24
  | .vmem => 11
  | .smem => 0
  | _ => 0

abbrev bufTy : (tb : Table) → Fin (tcTables nBuf tb) → BufTy
  | .hbm, ⟨0, _⟩ => ⟨S30000x64, .f32⟩
  | .hbm, ⟨1, _⟩ => ⟨S500000x64, .f32⟩
  | .hbm, ⟨2, _⟩ => ⟨S1000000x5, .i32⟩
  | .hbm, ⟨3, _⟩ => ⟨S5x64, .f32⟩
  | .hbm, ⟨4, _⟩ => ⟨S5x500000, .f32⟩
  | .hbm, ⟨5, _⟩ => ⟨S5x1000000, .i32⟩
  | .hbm, ⟨6, _⟩ => ⟨S_, .i32⟩
  | .hbm, ⟨7, _⟩ => ⟨S5x1000000, .i32⟩
  | .hbm, ⟨8, _⟩ => ⟨S5x1000000, .i1⟩
  | .hbm, ⟨9, _⟩ => ⟨S_, .i32⟩
  | .hbm, ⟨10, _⟩ => ⟨S_, .i32⟩
  | .hbm, ⟨11, _⟩ => ⟨S5x1000000, .i32⟩
  | .hbm, ⟨12, _⟩ => ⟨S5x1000000, .i32⟩
  | .hbm, ⟨13, _⟩ => ⟨S_, .i32⟩
  | .hbm, ⟨14, _⟩ => ⟨S5x1000000, .i32⟩
  | .hbm, ⟨15, _⟩ => ⟨S5x1000000, .i1⟩
  | .hbm, ⟨16, _⟩ => ⟨S_, .i32⟩
  | .hbm, ⟨17, _⟩ => ⟨S5x1000000, .i32⟩
  | .hbm, ⟨18, _⟩ => ⟨S5x1000000, .i32⟩
  | .hbm, ⟨19, _⟩ => ⟨S5x1000000, .i32⟩
  | .hbm, ⟨20, _⟩ => ⟨S5x1000000x1, .i32⟩
  | .hbm, ⟨21, _⟩ => ⟨S5x1000000, .f32⟩
  | .hbm, ⟨22, _⟩ => ⟨S1x1000000, .f32⟩
  | .hbm, ⟨23, _⟩ => ⟨S1000000, .f32⟩
  | .local _ .vmem, ⟨0, _⟩ => ⟨S5x64, .f32⟩
  | .local _ .vmem, ⟨1, _⟩ => ⟨S32768x64, .f32⟩
  | .local _ .vmem, ⟨2, _⟩ => ⟨S32768x64, .f32⟩
  | .local _ .vmem, ⟨3, _⟩ => ⟨S5x32768, .f32⟩
  | .local _ .vmem, ⟨4, _⟩ => ⟨S5x32768, .f32⟩
  | .local _ .vmem, ⟨5, _⟩ => ⟨S5x65536, .f32⟩
  | .local _ .vmem, ⟨6, _⟩ => ⟨S5x65536, .f32⟩
  | .local _ .vmem, ⟨7, _⟩ => ⟨S5x65536, .i32⟩
  | .local _ .vmem, ⟨8, _⟩ => ⟨S5x65536, .i32⟩
  | .local _ .vmem, ⟨9, _⟩ => ⟨S1x65536, .f32⟩
  | .local _ .vmem, ⟨10, _⟩ => ⟨S1x65536, .f32⟩
  | _, _ => ⟨S30000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_call1_c : Ref sig .tc := ⟨.hbm, 13, rfl⟩
abbrev main_call1_v0 : Ref sig .tc := ⟨.hbm, 14, rfl⟩
abbrev main_call1_v1 : Ref sig .tc := ⟨.hbm, 15, rfl⟩
abbrev main_call1_c_0 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S5x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32768x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S5x65536 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5x65536 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x65536 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5x64_S5x64_0_0 : ∀ a, (![0, 0] : Fin 2 → Nat) a + S5x64.size a ≤ S5x64.size a
  h_S5x64 : 0 < S5x64.numel
  inb_S32768x64_S32768x64_0_0 : ∀ a, (![0, 0] : Fin 2 → Nat) a + S32768x64.size a ≤ S32768x64.size a
  h_S32768x64 : 0 < S32768x64.numel
  inb_S5x32768_S5x32768_0_0 : ∀ a, (![0, 0] : Fin 2 → Nat) a + S5x32768.size a ≤ S5x32768.size a
  h_S5x32768 : 0 < S5x32768.numel
  transposes_S1000000x5_S5x1000000_1_0 : S1000000x5.Transposes [1, 0] S5x1000000
  bcast_S_S5x1000000 : S_.BroadcastsInDim S5x1000000 (![] : Fin 0 → Fin S5x1000000.rank)
  shapeCasts_S5x1000000_S5x1000000x1 : S5x1000000.ShapeCasts S5x1000000x1
  inb_S5x65536_S5x65536_0_0 : ∀ a, (![0, 0] : Fin 2 → Nat) a + S5x65536.size a ≤ S5x65536.size a
  h_S5x65536 : 0 < S5x65536.numel
  shapeCasts_S5x65536_S5x65536 : S5x65536.ShapeCasts S5x65536
  natLt_1_32 : 1 < 32
  reduces_S5x65536_S65536 : S5x65536.Reduces [0] S65536
  shapeCasts_S65536_S1x65536 : S65536.ShapeCasts S1x65536
  inb_S1x65536_S1x65536_0_0 : ∀ a, (![0, 0] : Fin 2 → Nat) a + S1x65536.size a ≤ S1x65536.size a
  h_S1x65536 : 0 < S1x65536.numel
  shapeCasts_S1x1000000_S1000000 : S1x1000000.ShapeCasts S1000000
  dot_S5x64_S32768x64_S5x32768_1_1_0_0_n_n_wf : DotDims.WF S5x64 S32768x64 S5x32768 [1] [1] [0] [0] [] []
  gather_S5x500000_S5x1000000x1_S5x1000000_n_1_0_0_1_2_11_wf : GatherDims.WF S5x500000 S5x1000000x1 S5x1000000 [] [1] [0] [1] [0] 2 ![1, 1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S5x64.size a ≤ S5x64.size a
  hwx0_0 : ∀ i : grid0.Coords, EltTy.bits .f32 = 32 ∨ (Rect.block (s := S5x64) S5x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S32768x64.size a < S500000x64.size a
  hwx0_1 : ∀ i : grid0.Coords, EltTy.bits .f32 = 32 ∨ (Rect.unit (s := S500000x64) (fun a => cc0_transform_1 i a * S32768x64.size a) (fun a => (Pipeline.Clip.of (cc0_transform_1 i a) (S32768x64.size a) (S500000x64.size a)).extent (S32768x64.size a)) fun a => Pipeline.Clip.inb (Pipeline.Clip.ok_of (hstart0_1 i a))).WholeWords (EltTy.packing .f32)
  hwxs0_1 : ∀ i : grid0.Coords, EltTy.bits .f32 = 32 ∨ (Rect.unit (s := S32768x64) (fun _ => 0) (fun a => (Pipeline.Clip.of (cc0_transform_1 i a) (S32768x64.size a) (S500000x64.size a)).extent (S32768x64.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S5x32768.size a < S5x500000.size a
  hwx0_2 : ∀ i : grid0.Coords, EltTy.bits .f32 = 32 ∨ (Rect.unit (s := S5x500000) (fun a => cc0_transform_2 i a * S5x32768.size a) (fun a => (Pipeline.Clip.of (cc0_transform_2 i a) (S5x32768.size a) (S5x500000.size a)).extent (S5x32768.size a)) fun a => Pipeline.Clip.inb (Pipeline.Clip.ok_of (hstart0_2 i a))).WholeWords (EltTy.packing .f32)
  hwxs0_2 : ∀ i : grid0.Coords, EltTy.bits .f32 = 32 ∨ (Rect.unit (s := S5x32768) (fun _ => 0) (fun a => (Pipeline.Clip.of (cc0_transform_2 i a) (S5x32768.size a) (S5x500000.size a)).extent (S5x32768.size a)) fun a => (Nat.zero_add _).trans_le (Pipeline.Clip.extent_le (Pipeline.Clip.ok_of (hstart0_2 i a)))).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S5x65536.size a < S5x1000000.size a
  hwx1_0 : ∀ i : grid1.Coords, EltTy.bits .f32 = 32 ∨ (Rect.unit (s := S5x1000000) (fun a => cc1_transform_0 i a * S5x65536.size a) (fun a => (Pipeline.Clip.of (cc1_transform_0 i a) (S5x65536.size a) (S5x1000000.size a)).extent (S5x65536.size a)) fun a => Pipeline.Clip.inb (Pipeline.Clip.ok_of (hstart1_0 i a))).WholeWords (EltTy.packing .f32)
  hwxs1_0 : ∀ i : grid1.Coords, EltTy.bits .f32 = 32 ∨ (Rect.unit (s := S5x65536) (fun _ => 0) (fun a => (Pipeline.Clip.of (cc1_transform_0 i a) (S5x65536.size a) (S5x1000000.size a)).extent (S5x65536.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S5x65536.size a < S5x1000000.size a
  hwx1_1 : ∀ i : grid1.Coords, EltTy.bits .i32 = 32 ∨ (Rect.unit (s := S5x1000000) (fun a => cc1_transform_1 i a * S5x65536.size a) (fun a => (Pipeline.Clip.of (cc1_transform_1 i a) (S5x65536.size a) (S5x1000000.size a)).extent (S5x65536.size a)) fun a => Pipeline.Clip.inb (Pipeline.Clip.ok_of (hstart1_1 i a))).WholeWords (EltTy.packing .i32)
  hwxs1_1 : ∀ i : grid1.Coords, EltTy.bits .i32 = 32 ∨ (Rect.unit (s := S5x65536) (fun _ => 0) (fun a => (Pipeline.Clip.of (cc1_transform_1 i a) (S5x65536.size a) (S5x1000000.size a)).extent (S5x65536.size a)) fun a => (Nat.zero_add _).trans_le (Pipeline.Clip.extent_le (Pipeline.Clip.ok_of (hstart1_1 i a)))).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1x65536.size a < S1x1000000.size a
  hwx1_2 : ∀ i : grid1.Coords, EltTy.bits .f32 = 32 ∨ (Rect.unit (s := S1x1000000) (fun a => cc1_transform_2 i a * S1x65536.size a) (fun a => (Pipeline.Clip.of (cc1_transform_2 i a) (S1x65536.size a) (S1x1000000.size a)).extent (S1x65536.size a)) fun a => Pipeline.Clip.inb (Pipeline.Clip.ok_of (hstart1_2 i a))).WholeWords (EltTy.packing .f32)
  hwxs1_2 : ∀ i : grid1.Coords, EltTy.bits .f32 = 32 ∨ (Rect.unit (s := S1x65536) (fun _ => 0) (fun a => (Pipeline.Clip.of (cc1_transform_2 i a) (S1x65536.size a) (S1x1000000.size a)).extent (S1x65536.size a)) fun a => (Nat.zero_add _).trans_le (Pipeline.Clip.extent_le (Pipeline.Clip.ok_of (hstart1_2 i a)))).WholeWords (EltTy.packing .f32)

variable [Facts₀]

def dot_S5x64_S32768x64_S5x32768_1_1_0_0_n_n : DotDims S5x64 S32768x64 S5x32768 where
  lhsContracting := [1]
  rhsContracting := [1]
  lhsNonContracting := [0]
  rhsNonContracting := [0]
  lhsBatch := []
  rhsBatch := []
  wf := dot_S5x64_S32768x64_S5x32768_1_1_0_0_n_n_wf
def gather_S5x500000_S5x1000000x1_S5x1000000_n_1_0_0_1_2_11 : GatherDims S5x500000 S5x1000000x1 S5x1000000 where
  offsetDims := []
  collapsedSliceDims := [1]
  operandBatchingDims := [0]
  startIndicesBatchingDims := [0]
  startIndexMap := [1]
  indexVectorDim := 2
  sliceSizes := ![1, 1]
  wf := gather_S5x500000_S5x1000000x1_S5x1000000_n_1_0_0_1_2_11_wf

abbrev win0_0 : Pipeline.Window sig grid0 :=
  Pipeline.Window.ofSpec (Memref.whole main_arg3) S5x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S32768x64.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S5x32768.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpecClip (Memref.whole main_v5) S5x65536.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v1) S5x65536.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v6) S1x65536.size cc1_transform_2 reads1_2 true false 2 stage1_2 sem1_2
    hrank1 hreads1_2 hstart1_2 nbuf1_2 (Memref.isWhole_whole _) hwx1_2 hwxs1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S30000x64 : Shape := ⟨2, ![30000, 64]⟩
abbrev S500000x64 : Shape := ⟨2, ![500000, 64]⟩
abbrev S1000000x5 : Shape := ⟨2, ![1000000, 5]⟩
abbrev S5x64 : Shape := ⟨2, ![5, 64]⟩
abbrev S_ : Shape := ⟨0, ![]⟩
abbrev S1000000 : Shape := ⟨1, ![1000000]⟩
abbrev S64x5 : Shape := ⟨2, ![64, 5]⟩
abbrev S500000x5 : Shape := ⟨2, ![500000, 5]⟩
abbrev S5 : Shape := ⟨1, ![5]⟩
abbrev S1x5 : Shape := ⟨2, ![1, 5]⟩
abbrev S1000000x5x1 : Shape := ⟨3, ![1000000, 5, 1]⟩
abbrev S1000000x5x2 : Shape := ⟨3, ![1000000, 5, 2]⟩

abbrev nBuf : Space → Nat
  | .hbm => 50
  | .vmem => 0
  | .smem => 0
  | _ => 0

abbrev bufTy : (tb : Table) → Fin (tcTables nBuf tb) → BufTy
  | .hbm, ⟨0, _⟩ => ⟨S30000x64, .f32⟩
  | .hbm, ⟨1, _⟩ => ⟨S500000x64, .f32⟩
  | .hbm, ⟨2, _⟩ => ⟨S1000000x5, .i32⟩
  | .hbm, ⟨3, _⟩ => ⟨S5x64, .f32⟩
  | .hbm, ⟨4, _⟩ => ⟨S_, .i32⟩
  | .hbm, ⟨5, _⟩ => ⟨S1000000x5, .i32⟩
  | .hbm, ⟨6, _⟩ => ⟨S1000000x5, .i1⟩
  | .hbm, ⟨7, _⟩ => ⟨S1000000x5, .i32⟩
  | .hbm, ⟨8, _⟩ => ⟨S_, .i32⟩
  | .hbm, ⟨9, _⟩ => ⟨S1000000, .i32⟩
  | .hbm, ⟨10, _⟩ => ⟨S_, .i32⟩
  | .hbm, ⟨11, _⟩ => ⟨S_, .i32⟩
  | .hbm, ⟨12, _⟩ => ⟨S1000000x5, .i32⟩
  | .hbm, ⟨13, _⟩ => ⟨S1000000x5, .i32⟩
  | .hbm, ⟨14, _⟩ => ⟨S64x5, .f32⟩
  | .hbm, ⟨15, _⟩ => ⟨S500000x5, .f32⟩
  | .hbm, ⟨16, _⟩ => ⟨S5, .i32⟩
  | .hbm, ⟨17, _⟩ => ⟨S1x5, .i32⟩
  | .hbm, ⟨18, _⟩ => ⟨S_, .i32⟩
  | .hbm, ⟨19, _⟩ => ⟨S1000000x5, .i32⟩
  | .hbm, ⟨20, _⟩ => ⟨S1000000x5, .i1⟩
  | .hbm, ⟨21, _⟩ => ⟨S_, .i32⟩
  | .hbm, ⟨22, _⟩ => ⟨S1000000x5, .i32⟩
  | .hbm, ⟨23, _⟩ => ⟨S1000000x5, .i32⟩
  | .hbm, ⟨24, _⟩ => ⟨S1000000x5, .i32⟩
  | .hbm, ⟨25, _⟩ => ⟨S_, .i32⟩
  | .hbm, ⟨26, _⟩ => ⟨S1x5, .i32⟩
  | .hbm, ⟨27, _⟩ => ⟨S1x5, .i1⟩
  | .hbm, ⟨28, _⟩ => ⟨S_, .i32⟩
  | .hbm, ⟨29, _⟩ => ⟨S1x5, .i32⟩
  | .hbm, ⟨30, _⟩ => ⟨S1x5, .i32⟩
  | .hbm, ⟨31, _⟩ => ⟨S1x5, .i32⟩
  | .hbm, ⟨32, _⟩ => ⟨S1000000x5, .i32⟩
  | .hbm, ⟨33, _⟩ => ⟨S1000000x5x1, .i32⟩
  | .hbm, ⟨34, _⟩ => ⟨S1000000x5x1, .i32⟩
  | .hbm, ⟨35, _⟩ => ⟨S1000000x5x2, .i32⟩
  | .hbm, ⟨36, _⟩ => ⟨S1000000x5, .f32⟩
  | .hbm, ⟨37, _⟩ => ⟨S1000000x5, .f32⟩
  | .hbm, ⟨38, _⟩ => ⟨S1000000x5, .f32⟩
  | .hbm, ⟨39, _⟩ => ⟨S_, .f32⟩
  | .hbm, ⟨40, _⟩ => ⟨S1000000, .f32⟩
  | .hbm, ⟨41, _⟩ => ⟨S_, .i32⟩
  | .hbm, ⟨42, _⟩ => ⟨S1000000, .i32⟩
  | .hbm, ⟨43, _⟩ => ⟨S1000000, .i32⟩
  | .hbm, ⟨44, _⟩ => ⟨S1000000, .f32⟩
  | .hbm, ⟨45, _⟩ => ⟨S_, .i32⟩
  | .hbm, ⟨46, _⟩ => ⟨S1000000, .i32⟩
  | .hbm, ⟨47, _⟩ => ⟨S1000000, .i1⟩
  | .hbm, ⟨48, _⟩ => ⟨S1000000, .f32⟩
  | .hbm, ⟨49, _⟩ => ⟨S1000000, .f32⟩
  | _, _ => ⟨S30000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_c_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_v15 : Ref sig .tc := ⟨.hbm, 27, rfl⟩
abbrev main_c_5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]

class Facts₀ : Prop where
  bcast_S_S1000000x5 : S_.BroadcastsInDim S1000000x5 (![] : Fin 0 → Fin S1000000x5.rank)
  natLt_1_32 : 1 < 32
  reducesTo_S1000000x5_S1000000_d1 : S1000000x5.ReducesTo [1] S1000000
  h_S_ : 0 < S_.numel
  transposes_S5x64_S64x5_1_0 : S5x64.Transposes [1, 0] S64x5
  bcast_S5_S1x5_1 : S5.BroadcastsInDim S1x5 (![1] : Fin 1 → Fin S1x5.rank)
  bcast_S_S1x5 : S_.BroadcastsInDim S1x5 (![] : Fin 0 → Fin S1x5.rank)
  bcast_S1x5_S1000000x5_0_1 : S1x5.BroadcastsInDim S1000000x5 (![0, 1] : Fin 2 → Fin S1000000x5.rank)
  bcast_S1000000x5_S1000000x5x1_0_1 : S1000000x5.BroadcastsInDim S1000000x5x1 (![0, 1] : Fin 2 → Fin S1000000x5x1.rank)
  concatenates_S1000000x5x1_S1000000x5x1_S1000000x5x2_d2 : Shape.Concatenates [S1000000x5x1, S1000000x5x1] S1000000x5x2 2
  bcast_S_S1000000 : S_.BroadcastsInDim S1000000 (![] : Fin 0 → Fin S1000000.rank)
  dot_S500000x64_S64x5_S500000x5_1_0_0_1_n_n_wf : DotDims.WF S500000x64 S64x5 S500000x5 [1] [0] [0] [1] [] []
  gather_S500000x5_S1000000x5x2_S1000000x5_n_01_n_n_01_2_11_wf : GatherDims.WF S500000x5 S1000000x5x2 S1000000x5 [] [0, 1] [] [0, 1] [] 2 ![1, 1]

variable [Facts₀]

def dot_S500000x64_S64x5_S500000x5_1_0_0_1_n_n : DotDims S500000x64 S64x5 S500000x5 where
  lhsContracting := [1]
  rhsContracting := [0]
  lhsNonContracting := [0]
  rhsNonContracting := [1]
  lhsBatch := []
  rhsBatch := []
  wf := dot_S500000x64_S64x5_S500000x5_1_0_0_1_n_n_wf
def gather_S500000x5_S1000000x5x2_S1000000x5_n_01_n_n_01_2_11 : GatherDims S500000x5 S1000000x5x2 S1000000x5 where
  offsetDims := []
  collapsedSliceDims := [0, 1]
  operandBatchingDims := []
  startIndicesBatchingDims := []
  startIndexMap := [0, 1]
  indexVectorDim := 2
  sliceSizes := ![1, 1]
  wf := gather_S500000x5_S1000000x5x2_S1000000x5_n_01_n_n_01_2_11_wf

class Facts : Prop extends Facts₀ where

variable [Facts]
-- ==== Proof.KBody.lean ====
/-
  The two kernel bodies as Hoare triples, for any float family and any user algebra.

  Each body reads its two input buffers whole, computes a pure payload of the values read, and stores it
  through the rectangle of the output buffer's own sizes at zero offsets. Such a rectangle holds every index
  of the buffer, so a load through it reads the contents and one store through it leaves its payload,
  whatever the buffer held before (the dead load of the output before the store reads nothing that matters).
-/
import proofs.«410757_j8796093022645_3_alg».proof.Proof.Gen.Kernel.Launch
import proofs.«410757_j8796093022645_3_alg».proof.Proof.Gen.Kernel.Skeleton
import proofs.«410757_j8796093022645_3_alg».proof.Proof.Gen.Kernel.Points
import Idealize.ShloMosaic.Lib.Pipeline.FrameBody
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {U : Type} [URA U]

local notation "𝕄" => MT nD τ sig Unit (Elt F) ℕ U ℕ

/-- The pair of zero offsets is the constant-zero offset function. -/
private theorem off00 : (![0, 0] : Fin 2 → ℕ) = fun _ => 0 := by
  funext a; fin_cases a <;> rfl

/-- One store through the rectangle of the buffer's own sizes at zero offsets covers every index, so whatever
    the buffer held before, it reads back as the stored payload. -/
private theorem read_writes_unit_zero {Val : EltTy → Type} [∀ e, Nonempty (Val e)] {sg : RefSig} {κ : Kind} {sp : Space}
    {S : Shape} {e : EltTy} (v : View sg κ sp S e) (f : v.ty.Contents Val) {off : Fin S.rank → ℕ}
    (h : off = fun _ => 0) (inb : ∀ a, off a + S.size a ≤ S.size a) (w : S.Idx → Val e) :
    v.read Val (v.writes Val f [(⟨Rect.unit off S.size inb, w⟩ : View.Piece Val S e)]) = w :=
  (View.read_writes_eq_canon v f [(⟨Rect.unit off S.size inb, w⟩ : View.Piece Val S e)]
    (fun y => ⟨(⟨Rect.unit off S.size inb, w⟩ : View.Piece Val S e), List.mem_singleton_self _,
      View.mem_set_unit_zero h inb y⟩)).trans (View.canon_unit_zero h inb w)

set_option maxHeartbeats 1000000 in
/-- The first kernel body on whole staging memrefs: it loads its two inputs whole, stores the payload of the
    values read over the whole output buffer, and returns. The inputs' buffers are left as they were read and
    the output's buffer, whatever it held, ends holding exactly the payload. -/
theorem sound_kernel0 (c : Dev nD) (E : Set ℕ) (i : grid0.Coords)
    (arg1 : Memref sig .tc .vmem S5x64 .f32) (harg1 : arg1.IsWhole) (arg2 : Memref sig .tc .vmem S32768x64 .f32) (harg2 : arg2.IsWhole)
    (arg3 : Memref sig .tc .vmem S5x32768 .f32) (harg3 : arg3.IsWhole)
    (x0 : Vec F S5x64 .f32) (x1 : Vec F S32768x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k0_pay1 x0 x1)) -∗ K ⟨⟩))
      ⊢ wp frame (wpE (defs₀ (F := F)) Variants.none c none) E (cc0__matmul_kernel_T i arg1 harg1 arg2 harg2 arg3 harg3) K := by
  simp only [cc0__matmul_kernel_T_eq_skeleton]; unfold cc0__matmul_kernel_T_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (read_writes_unit_zero _ _ off00 _ _).trans ?_
  exact congrArg₂ k0_pay1 (View.ld_unit_zero off00 _ _) (View.ld_unit_zero off00 _ _)

set_option maxHeartbeats 1000000 in
/-- The second kernel body on whole staging memrefs: two whole-buffer loads, one whole-buffer store of the
    payload over the values read; the output's buffer ends holding exactly the payload. -/
theorem sound_kernel1 (c : Dev nD) (E : Set ℕ) (i : grid1.Coords)
    (arg1 : Memref sig .tc .vmem S5x65536 .f32) (harg1 : arg1.IsWhole) (arg2 : Memref sig .tc .vmem S5x65536 .i32) (harg2 : arg2.IsWhole)
    (arg3 : Memref sig .tc .vmem S1x65536 .f32) (harg3 : arg3.IsWhole)
    (x0 : Vec F S5x65536 .f32) (x1 : Vec F S5x65536 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k1_pay1 x0 x1)) -∗ K ⟨⟩))
      ⊢ wp frame (wpE (defs₀ (F := F)) Variants.none c none) E (cc1__reduce_kernel_T i arg1 harg1 arg2 harg2 arg3 harg3) K := by
  simp only [cc1__reduce_kernel_T_eq_skeleton]; unfold cc1__reduce_kernel_T_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (read_writes_unit_zero _ _ off00 _ _).trans ?_
  exact congrArg₂ k1_pay1 (View.ld_unit_zero off00 _ _) (View.ld_unit_zero off00 _ _)

end Cert.Kernel.Hand

end
-- ==== Proof.KRel.lean ====
/-
  Relational proof data for the two pipelines, and their body obligations.

  At bit patterns a body's result is an opaque function of whole operands, and a staging buffer may hold words
  past its array's end that nothing names; so what a body leaves in a buffer is not written as a function of
  the launch memory. Each window's relation between the contents a body is handed and the contents it leaves
  is the one that holds of any two contents. The body obligation then asks only that the body runs from
  whatever the buffers hold and hands every buffer back at some contents: that is the bodies' Hoare triples,
  read at the handed contents, with the relation's facts trivial.
-/
import proofs.«410757_j8796093022645_3_alg».proof.Proof.KBody
import proofs.«410757_j8796093022645_3_alg».proof.Proof.Gen.Kernel.Launch
import proofs.«410757_j8796093022645_3_alg».proof.Proof.Gen.Kernel.Skeleton
import proofs.«410757_j8796093022645_3_alg».proof.Proof.Gen.Kernel.Points
import Idealize.ShloMosaic.Lib.Pipeline.Frame
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {U : Type} [URA U]

local notation "𝕄" => MT nD τ sig Unit (Elt F) ℕ U ℕ

-- the TensorCore's buffer contents when a pipeline is entered
variable (V : (c : Dev nD) → (b : Ref sig .tc) → Buf (Elt F) ((c : Thread nD τ).loc b))

/-! ## Pipeline 0 -/

/-- Pipeline 0's relational proof data on core `c`: the arrays at the contents the pipeline finds them at; of
    what the body leaves in a window's buffer nothing is asked; the invariant is the scoped rest and the
    generator register, passed through untouched; nothing owed; full shares. -/
def rdat0 (c : Dev nD) : Pipeline.RDat τ (Elt F) Unit ℕ U ℕ cfg0 c where
  A w := V c (Pipeline.arrRef spec0 w)
  after _ _ _ _ := True
  Φ _ := Pipeline.ΦA spec0 c
  q _ := fullShare
  owed _ := 0

/-- The body obligation of pipeline 0: at any point, from whatever contents the three current staging buffers
    hold, the body runs and hands them back, the inputs' as they were and the output's at the payload of the
    inputs'; each is SOME contents, which is all the relation asks. The invariant and what the core owes are
    the same before and after the point and pass through unread. -/
theorem rbody0 (c : Dev nD) : (rdat0 (F := F) (U := U) V c).BodyObligation (defs₀ (F := F)) Variants.none () Set.univ := fun t Y _ => by
  rw [bigSep_W0, bigSep_W0]
  rw [show (rdat0 (F := F) (U := U) V c).Φ t.succ = (rdat0 (F := F) (U := U) V c).Φ t.castSucc from rfl,
    show (rdat0 (F := F) (U := U) V c).owesAt () t.succ = (rdat0 (F := F) (U := U) V c).owesAt () t.castSucc from rfl]
  iintro ⟨HΦ, Ho, H0, H1, H2⟩
  iapply (sound_kernel0 (F := F) (U := U) c Set.univ (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (Y 0) (Y 1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  iexists (k0_pay1 (Y 0) (Y 1)); isplitr; · ipureintro; trivial
  iexact H2

/-! ## Pipeline 1 -/

/-- Pipeline 1's relational proof data on core `c`: the arrays at the contents the pipeline finds them at; of
    what the body leaves in a window's buffer nothing is asked; the invariant is the scoped rest and the
    generator register, passed through untouched; nothing owed; full shares. -/
def rdat1 (c : Dev nD) : Pipeline.RDat τ (Elt F) Unit ℕ U ℕ cfg1 c where
  A w := V c (Pipeline.arrRef spec1 w)
  after _ _ _ _ := True
  Φ _ := Pipeline.ΦA spec1 c
  q _ := fullShare
  owed _ := 0

/-- The body obligation of pipeline 1: at any point, from whatever contents the three current staging buffers
    hold, the body runs and hands them back, the inputs' as they were and the output's at the payload of the
    inputs'; each is SOME contents, which is all the relation asks. The invariant and what the core owes are
    the same before and after the point and pass through unread. -/
theorem rbody1 (c : Dev nD) : (rdat1 (F := F) (U := U) V c).BodyObligation (defs₀ (F := F)) Variants.none () Set.univ := fun t Y _ => by
  rw [bigSep_W1, bigSep_W1]
  rw [show (rdat1 (F := F) (U := U) V c).Φ t.succ = (rdat1 (F := F) (U := U) V c).Φ t.castSucc from rfl,
    show (rdat1 (F := F) (U := U) V c).owesAt () t.succ = (rdat1 (F := F) (U := U) V c).owesAt () t.castSucc from rfl]
  iintro ⟨HΦ, Ho, H0, H1, H2⟩
  iapply (sound_kernel1 (F := F) (U := U) c Set.univ (grid1.coords t) (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (Y 0) (Y 1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  iexists (k1_pay1 (Y 0) (Y 1)); isplitr; · ipureintro; trivial
  iexact H2

end Cert.Kernel.Hand

end
-- ==== Proof.KBase.lean ====
/-
  The word-level program's frame.

  At bit patterns the matrix product is an opaque function of its whole operands, and the last grid point's block of
  edge_embedding overhangs the array: the rows past the array's end hold words the machine picks at the fetch. So what
  region 0 leaves in the score table cannot be named in advance, and neither can anything computed from it. The frame
  claim needs no values: between two items of @main every unscoped buffer is held at SOME contents of the shape the
  generated valuations have, and each region's proof data constrain nothing of what its body leaves. Region 1's proof
  data must name the contents its arrays hold at entry, which are only known once region 0 has run; its entry is
  therefore funded from a second copy of the pipeline library's algebra, carried in the thread state, and stated for
  whatever contents are found.
-/
import proofs.«410757_j8796093022645_3_alg».proof.Proof.KRel
import proofs.«410757_j8796093022645_3_alg».proof.Proof.Gen.Kernel.Regions
import Idealize.ShloMosaic.Lib.Pipeline.RegionsLoop
import Idealize.ShloMosaic.Lib.Pipeline.FrameSuffix
import Idealize.ShloMosaic.Lib.Pipeline.Kit

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.Pipeline (HostSeg)

variable {F : FTy → Type} [FloatOps F]

/-- Two copies of the pipeline library's algebra: the launch theorem's, and the one region 1's entry is funded from. -/
abbrev U2 : Type := UR sig nD τ × UR sig nD τ

local notation "𝕄" => MT nD τ sig Unit (Elt F) ℕ U2 ℕ

abbrev 𝒱₀ : Variants := Variants.none
abbrev L : GSem nD τ sig → Finset Unit := fun _ => ∅
abbrev lv : GSem nD τ sig → Unit → ℕ := fun _ _ => 0
abbrev EPa : Emb (UR sig nD τ) (MT nD τ sig Unit (Elt F) ℕ U2 ℕ) := embL
abbrev EPb : Emb (UR sig nD τ) (MT nD τ sig Unit (Elt F) ℕ U2 ℕ) := embR

variable (m : (ℓ : Loc nD τ sig) → Buf (Elt F) ℓ) (ρ : Dev nD → PrngReg)

/-- What rides beside the buffers: the generator register at some state, and the core owing nothing. -/
abbrev R (c : Dev nD) : sProp 𝕄 := iprop((∃ r, prngReg c r) ∗ ∃ W, owes (c : Thread nD τ) (0 : CellTallies nD τ sig Unit) W)

/-- Pipeline 1's share of the second copy's launch state: what its region's entry is funded from. -/
abbrev gh1 (c : Dev nD) : sProp 𝕄 :=
  iprop(Pipeline.cellsGhost (Pipeline.pin (pcfgs (F := F)) Gen.adm) (EPb (F := F)) 1 c ∗ Pipeline.toksInit (Pipeline.pin (pcfgs (F := F)) Gen.adm) (EPb (F := F)) 1 c)

/-- The rest of the thread state: before region 1 it carries pipeline 1's funding, after it only the register and the debt. -/
def E : Fin 3 → Dev nD → sProp 𝕄 := fun j c => match j with
  | ⟨0, _⟩ => iprop(R c ∗ gh1 c)
  | ⟨1, _⟩ => iprop(R c ∗ gh1 c)
  | ⟨2, _⟩ => R c

/-- A family of host segments with one program, as one segment between the states "some member's". -/
def exSeg {J : Type} (H : J → HostSeg (Ix := Unit) (Name := ℕ) (U := U2) (Lvl := ℕ) (pcfgs (F := F)) defs₀ 𝒱₀ L lv)
    (prog : Prog (TpuEff nD τ sig (Elt F) (Pipeline.Sig Λ₀ (Fin 2) fun p => (pcfgs (F := F) p).Adm) .tc) PUnit)
    (hprog : ∀ j, (H j).prog = prog) : HostSeg (Ix := Unit) (Name := ℕ) (U := U2) (Lvl := ℕ) (pcfgs (F := F)) defs₀ 𝒱₀ L lv where
  prog := prog
  pre c := iprop(∃ j, (H j).pre c)
  post c := iprop(∃ j, (H j).post c)
  run c {β} k K := by
    iintro ⟨Hk, Hbd, ⟨%j, Hpre⟩, Hla⟩
    have h := (H j).run c k K
    rw [hprog j] at h
    iapply h
    isplitl [Hk]
    · iintro ⟨Hbd, Hpost⟩
      iapply Hk
      isplitl [Hbd]; · iexact Hbd
      iexists j; iexact Hpost
    isplitl [Hbd]; · iexact Hbd
    isplitl [Hpre]; · iexact Hpre
    iexact Hla

/-- The host stretches, each from whatever contents the regions before it left. -/
def hseg1 : HostSeg (Ix := Unit) (Name := ℕ) (U := U2) (Lvl := ℕ) (pcfgs (F := F)) defs₀ 𝒱₀ L lv :=
  exSeg (fun outs : Gen.Outs (F := F) => Gen.seg1 m outs 𝒱₀ L lv E) (StableHlo.seq Gen.hostOps1) fun _ => rfl
def hseg2 : HostSeg (Ix := Unit) (Name := ℕ) (U := U2) (Lvl := ℕ) (pcfgs (F := F)) defs₀ 𝒱₀ L lv :=
  exSeg (fun outs : Gen.Outs (F := F) => Gen.seg2 m outs 𝒱₀ L lv E) (StableHlo.seq Gen.hostOps1_1) fun _ => rfl
def hseg3 : HostSeg (Ix := Unit) (Name := ℕ) (U := U2) (Lvl := ℕ) (pcfgs (F := F)) defs₀ 𝒱₀ L lv :=
  exSeg (fun outs : Gen.Outs (F := F) => Gen.seg3 m outs 𝒱₀ L lv E) (StableHlo.seq Gen.hostOps1_2) fun _ => rfl
def hseg5 : HostSeg (Ix := Unit) (Name := ℕ) (U := U2) (Lvl := ℕ) (pcfgs (F := F)) defs₀ 𝒱₀ L lv :=
  exSeg (fun outs : Gen.Outs (F := F) => Gen.seg5 m outs 𝒱₀ L lv E) (StableHlo.seq Gen.hostOps2) fun _ => rfl

/-! ## The proof data -/

/-- The launch contents read at the TensorCore's references: what region 0 is entered with. -/
abbrev Vin0 : (c : Dev nD) → (b : Ref sig .tc) → Buf (Elt F) ((c : Thread nD τ).loc b) := fun c b => Gen.V0 m c b

/-- What region 1 is entered with, when the regions before it left `outs`. -/
abbrev Vin4 (outs : Gen.Outs (F := F)) : (c : Dev nD) → (b : Ref sig .tc) → Buf (Elt F) ((c : Thread nD τ).loc b) := fun c b => Gen.V4 m outs c b

/-- The launch theorem's proof data: region 0's at the launch contents (pipeline 1 is not entered through it). -/
def rdats : (p : Fin 2) → (c : Dev nD) → Pipeline.RDat τ (Elt F) Unit ℕ U2 ℕ (Pipeline.pin (pcfgs (F := F)) Gen.adm p) c
  | ⟨0, _⟩ => fun c => rdat0 (Vin0 m) c
  | ⟨1, _⟩ => fun c => rdat1 (Vin0 m) c

/-- Region 1's proof data at the contents found at its entry. -/
def rdatsAt (outs : Gen.Outs (F := F)) : (p : Fin 2) → (c : Dev nD) → Pipeline.RDat τ (Elt F) Unit ℕ U2 ℕ (Pipeline.pin (pcfgs (F := F)) Gen.adm p) c
  | ⟨0, _⟩ => fun c => rdat0 (Vin0 m) c
  | ⟨1, _⟩ => fun c => rdat1 (Vin4 m outs) c

/-! ## Recording what a region left -/

open Classical in
/-- `outs` with the contents of `r₀` after item `j₀` on core `c₀` set to `o`. -/
def setOut (outs : Gen.Outs (F := F)) (j₀ : ℕ) (r₀ : Ref sig .tc) (c₀ : Dev nD) (o : Buf (Elt F) ((c₀ : Thread nD τ).loc r₀)) :
    Gen.Outs (F := F) :=
  fun j r c => if h : j = j₀ ∧ r = r₀ ∧ c = c₀ then cast (by obtain ⟨-, rfl, rfl⟩ := h; rfl) o else outs j r c

theorem setOut_same (outs : Gen.Outs (F := F)) (j₀ : ℕ) (r₀ : Ref sig .tc) (c₀ : Dev nD) (o : Buf (Elt F) ((c₀ : Thread nD τ).loc r₀)) :
    setOut outs j₀ r₀ c₀ o j₀ r₀ c₀ = o := by
  unfold setOut; rw [dif_pos ⟨rfl, rfl, rfl⟩]; rfl

theorem setOut_of_ne (outs : Gen.Outs (F := F)) (j₀ : ℕ) (r₀ : Ref sig .tc) (c₀ : Dev nD) (o : Buf (Elt F) ((c₀ : Thread nD τ).loc r₀))
    {j : ℕ} (r : Ref sig .tc) (c : Dev nD) (h : j ≠ j₀) : setOut outs j₀ r₀ c₀ o j r c = outs j r c := by
  unfold setOut; rw [dif_neg fun h' => h h'.1]

end Cert.Kernel.Hand

end
-- ==== Proof.KReg0.lean ====
/-
  Region 0 of the word-level program as a segment of @main, over relational proof data.

  The region is entered with every unscoped buffer at its launch contents. Its three arrays are taken out of them
  for the pipeline and put back when it is left. No point writes an input window back, so edge_vector and
  edge_embedding are left as found; the score table is left at contents nothing names, and the state after the
  region is stated for SOME such contents: the launch contents with the table's buffer replaced by whatever the
  write-backs left there. The generator register goes into the pipeline's invariant and comes out of it; the
  funding of pipeline 1 passes by the region untouched; the core owes nothing before or after.
-/
import proofs.«410757_j8796093022645_3_alg».proof.Proof.KBase
import Idealize.ShloMosaic.Lib.Pipeline.RegionsLoop
import Idealize.ShloMosaic.Lib.Pipeline.FrameSuffix
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.Pipeline (HostSeg)

variable {F : FTy → Type} [FloatOps F]

local notation "𝕄" => MT nD τ sig Unit (Elt F) ℕ U2 ℕ

variable (m : (ℓ : Loc nD τ sig) → Buf (Elt F) ℓ)

/-! ## A region's arrays back among the unscoped buffers, for relational proof data -/

/-- Pipeline p's arrays at contents Fw and the unscoped rest at V are the core's unscoped buffers at any valuation
    V' that has the arrays at Fw and agrees with V off them. -/
theorem unscopedBufs_of_rarrays {p : Fin 2} (hw : Pipeline.WinFacts (Pipeline.pin (pcfgs (F := F)) Gen.adm p).spec)
    (harr : ∀ w, ((Pipeline.pin (pcfgs (F := F)) Gen.adm p).spec w).arr.IsWhole) (c : Dev nD)
    (rds : (p : Fin 2) → (c : Dev nD) → Pipeline.RDat τ (Elt F) Unit ℕ U2 ℕ (Pipeline.pin (pcfgs (F := F)) Gen.adm p) c)
    (hshare : ∀ w, (rds p c).share w = fullShare)
    (V V' : (b : Ref sig .tc) → Buf (Elt F) ((c : Thread nD τ).loc b))
    (Fw : (w : Fin (Pipeline.pin (pcfgs (F := F)) Gen.adm p).W) → Buf (Elt F) (((Pipeline.pin (pcfgs (F := F)) Gen.adm p).spec w).arr.view.loc (c : Thread nD τ)))
    (hF : ∀ w, Fw w = V' (Pipeline.arrRef (Pipeline.pin (pcfgs (F := F)) Gen.adm p).spec w))
    (hrest : ∀ b, b ∉ Finset.univ.image (Pipeline.arrRef (Pipeline.pin (pcfgs (F := F)) Gen.adm p).spec) → V' b = V b) :
    iprop((rds p c).arrays Fw ∗ Pipeline.unscopedRest (Ix := Unit) (Name := ℕ) (U := U2) (Lvl := ℕ) (Pipeline.pin (pcfgs (F := F)) Gen.adm p).spec c V)
      ⊢ (unscopedBufs c V' : sProp 𝕄) := by
  rw [Pipeline.unscopedBufs_split (Pipeline.pin (pcfgs (F := F)) Gen.adm) p hw.arr_unscoped hw.arr_inj c V',
    Pipeline.RDat.arrays_eq (pcfgs (F := F)) Gen.adm rds p c harr hshare]
  refine sep_mono (Entails.of_eq (bigSep_congr fun w _ => by rw [hF])) (Entails.of_eq ?_)
  unfold Pipeline.unscopedRest
  exact bigSep_congr fun b hb => by rw [hrest b (Finset.mem_sdiff.mp hb).2]

/-! ## Region 0's arrays after its last write-back -/

/-- What region 0's three arrays hold when it is left: edge_vector and edge_embedding what they held at entry (no
    point writes an input back), the score table anything. -/
def Fexit0 (c : Dev nD) (F2 : Buf (Elt F) ((c : Thread nD τ).loc main_v0)) :
    (w : Fin cfg0.W) → Buf (Elt F) ((cfg0.win w).arr.view.loc (c : Thread nD τ)) := fun w => match w with
  | ⟨0, _⟩ => Vin0 m c main_arg3
  | ⟨1, _⟩ => Vin0 m c main_arg1
  | ⟨2, _⟩ => F2

theorem arraysAt0_exit (c : Dev nD) :
    ((rdat0 (F := F) (U := U2) (Vin0 m) c).arraysAt cfg0.N : sProp 𝕄)
      ⊢ iprop(∃ F2 : Buf (Elt F) ((c : Thread nD τ).loc main_v0), (rdat0 (F := F) (U := U2) (Vin0 m) c).arrays (Fexit0 m c F2)) := by
  unfold Pipeline.RDat.arraysAt Pipeline.RDat.arrays
  rw [bigSep_W0]
  iintro ⟨⟨%F0, %h0, H0⟩, ⟨%F1, %h1, H1⟩, ⟨%F2, %h2, H2⟩⟩
  rw [(rdat0 (F := F) (U := U2) (Vin0 m) c).ArrAt_in 0 rfl] at h0
  rw [(rdat0 (F := F) (U := U2) (Vin0 m) c).ArrAt_in 1 rfl] at h1
  subst h0 h1
  iexists F2
  rw [bigSep_W0]
  isplitl [H0]; · iexact H0
  isplitl [H1]; · iexact H1
  iexact H2

/-! ## Region 0 as a segment -/

/-- The valuation region 0 is left at when it leaves F2 in the score table: the launch contents with the table's
    buffer replaced, recorded as what item 0 left. -/
abbrev outs0 (c : Dev nD) (F2 : Buf (Elt F) ((c : Thread nD τ).loc main_v0)) : Gen.Outs (F := F) :=
  setOut (fun _ r c' => Gen.V0 m c' r) 1 main_v0 c F2

theorem hF0 (c : Dev nD) (F2 : Buf (Elt F) ((c : Thread nD τ).loc main_v0)) (w : Fin cfg0.W) :
    Fexit0 m c F2 w = Gen.V1 m (outs0 m c F2) c (Pipeline.arrRef spec0 w) := by
  match w with
  | ⟨0, _⟩ => exact (Gen.V1_of m (outs0 m c F2) c main_arg3 (by decide)).symm
  | ⟨1, _⟩ => exact (Gen.V1_of m (outs0 m c F2) c main_arg1 (by decide)).symm
  | ⟨2, _⟩ =>
    show F2 = Function.update (Gen.V0 m c) main_v0 (outs0 m c F2 1 main_v0 c) main_v0
    rw [Function.update_self]
    exact (setOut_same _ 1 main_v0 c F2).symm

theorem hrest0 (c : Dev nD) (F2 : Buf (Elt F) ((c : Thread nD τ).loc main_v0)) :
    ∀ b, b ∉ Finset.univ.image (Pipeline.arrRef spec0) → Gen.V1 m (outs0 m c F2) c b = Vin0 m c b := fun b hb =>
  Gen.V1_of m (outs0 m c F2) c b fun h => hb (by
    rw [List.mem_singleton] at h; subst h
    exact Finset.mem_image.mpr ⟨2, Finset.mem_univ _, rfl⟩)

set_option backward.isDefEq.respectTransparency.types false in
/-- Region 0 over the thread state: entered from every unscoped buffer at the launch contents, left at the launch
    contents with the score table's buffer at SOME contents. Its arrays are split out of the unscoped buffers and
    put back; the generator register goes into the invariant and comes out; pipeline 1's funding bypasses the
    region; nothing is owed; the kernel has no semaphore of its own. -/
def reg0 : Pipeline.RDat.RegionSeg (pcfgs (F := F)) Gen.adm (rdats m) () defs₀ 𝒱₀ L lv 0 where
  win := launch0.win.to₀
  block_pos := launch0.block_pos
  stage_whole := launch0.stage_whole
  K := PEmpty
  osem k := k.elim
  ho := Pipeline.OwnSemFacts.none _
  hbody c := rbody0 (Vin0 m) c
  hwaits := Pipeline.RDat.hwaits_of_owed_zero _ _ _ _ L lv 0 fun _ _ => rfl
  pre c := iprop(StableHlo.held (c : Thread nD τ) (Pipeline.ucRefs τ sig) (Gen.V0 m c) ∗ E 0 c)
  post c := iprop(∃ outs : Gen.Outs (F := F), StableHlo.held (c : Thread nD τ) (Pipeline.ucRefs τ sig) (Gen.V1 m outs c) ∗ E 1 c)
  X c := iprop(∃ r, prngReg c r)
  Y c := iprop(∃ r, prngReg c r)
  Z c := iprop(Pipeline.unscopedRest (Ix := Unit) (Name := ℕ) (U := U2) (Lvl := ℕ) spec0 c (Vin0 m c) ∗ gh1 c)
  hentry c := by
    rw [Pipeline.ownSems0_none]
    have hsplit := Pipeline.RDat.arrays_of_unscopedBufs (p := 0) (pcfgs (F := F)) Gen.adm (rdats m) launch0.win launch0.arr_whole c
      ((rdats m 0 c).share_full fun _ => rfl) (Vin0 m c) fun _ => rfl
    rw [Pipeline.unscopedBufs_held] at hsplit
    show iprop((StableHlo.held (c : Thread nD τ) (Pipeline.ucRefs τ sig) (Gen.V0 m c) ∗ (R c ∗ gh1 c)) ∗ _ ∗ _) ⊢ _
    iintro ⟨⟨Hub, ⟨Hp, HO⟩, Hg⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    isplitl [Hrest]; · iexact Hrest
    iexact Hg
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hopen : ((rdats m 0 c).arraysAt (Pipeline.pin (pcfgs (F := F)) Gen.adm 0).N : sProp 𝕄)
        ⊢ iprop(∃ F2 : Buf (Elt F) ((c : Thread nD τ).loc main_v0), (rdats m 0 c).arrays (Fexit0 m c F2)) := arraysAt0_exit m c
    have hjoin := fun F2 => unscopedBufs_of_rarrays (p := 0) launch0.win launch0.arr_whole c (rdats m)
      ((rdats m 0 c).share_full fun _ => rfl) (Vin0 m c) (fun b => Gen.V1 m (outs0 m c F2) c b) (Fexit0 m c F2)
      (hF0 m c F2) (hrest0 m c F2)
    simp only [Pipeline.unscopedBufs_held] at hjoin
    show iprop(_ ∗ _ ∗ _ ∗ (_ ∗ gh1 c)) ⊢ |={Set.univ}=> iprop(∃ outs : Gen.Outs (F := F), _ ∗ (R c ∗ gh1 c))
    iintro ⟨Ha, HO, HY, Hrest, Hg⟩
    ihave Ha' := hopen $$ Ha
    icases Ha' with ⟨%F2, Ha⟩
    imodintro
    iexists outs0 m c F2
    isplitl [Ha Hrest]
    · iapply (hjoin F2); isplitl [Ha] <;> iassumption
    isplitl [HY HO]
    · isplitl [HY]; · iexact HY
      unfold Pipeline.RDat.owesAt Pipeline.owesWithin
      icases HO with ⟨%W, -, HO⟩; iexists W; iexact HO
    iexact Hg

theorem reg0_pre (c : Dev nD) :
    (reg0 m).pre c = iprop(StableHlo.held (c : Thread nD τ) (Pipeline.ucRefs τ sig) (Gen.V0 m c) ∗ E 0 c) := rfl
theorem reg0_post (c : Dev nD) :
    (reg0 m).post c = iprop(∃ outs : Gen.Outs (F := F), StableHlo.held (c : Thread nD τ) (Pipeline.ucRefs τ sig) (Gen.V1 m outs c) ∗ E 1 c) := rfl

end Cert.Kernel.Hand

end
-- ==== Proof.KReg1.lean ====
/-
  Region 1 of the word-level program, at whatever contents its entry finds.

  Region 1's proof data name the contents its arrays hold at entry. Those are known only once region 0 has run, so
  the region's record is stated for any contents `outs` the items before it may have left, and its exit says only
  that SOME such contents are left: the two input arrays are never written and end as they were entered; of what
  the output array ends holding nothing is known, and it is recorded as what item 4 leaves. Recording it changes
  none of the valuations before item 4, since those read only what item 0 left. As a segment of the launch the region
  is entered from the thread state "some contents found", beside pipeline 1's share of the second copy of the
  pipeline library's algebra, from which its entry is funded.
-/
import proofs.«410757_j8796093022645_3_alg».proof.Proof.KBase
import Idealize.ShloMosaic.Lib.Pipeline.RegionsLoop
import Idealize.ShloMosaic.Lib.Pipeline.FrameSuffix
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.Pipeline (HostSeg)

variable {F : FTy → Type} [FloatOps F]

local notation "𝕄" => MT nD τ sig Unit (Elt F) ℕ U2 ℕ

variable (m : (ℓ : Loc nD τ sig) → Buf (Elt F) ℓ)

/-! ## Recording what item 4 leaves changes nothing before it -/

/-- The valuation region 1 is entered at reads, of the unknowns, only what item 0 left in its output: setting what
    item 4 leaves does not change it. -/
theorem V4_setOut5 (outs : Gen.Outs (F := F)) (r₀ : Ref sig .tc) (c₀ : Dev nD) (o : Buf (Elt F) ((c₀ : Thread nD τ).loc r₀)) (c : Dev nD) :
    Gen.V4 m (setOut outs 5 r₀ c₀ o) c = Gen.V4 m outs c := by
  have h1 : setOut outs 5 r₀ c₀ o 1 main_v0 c = outs 1 main_v0 c := setOut_of_ne outs 5 r₀ c₀ o main_v0 c (by decide)
  simp only [Gen.V4, Gen.V3, Gen.V2, Gen.V1, h1]

/-! ## The arrays back among the unscoped buffers -/

set_option backward.isDefEq.respectTransparency.types false in
/-- Pipeline 1's arrays at contents `Fw` and the unscoped rest at `V` are the core's unscoped buffers at any
    valuation `V'` that has the arrays at `Fw` and agrees with `V` off them: both sides are the same separating
    conjunction over the unscoped references, split at the arrays. -/
theorem unscopedBufs_of_arrays1
    (rds : (p : Fin 2) → (c : Dev nD) → Pipeline.RDat τ (Elt F) Unit ℕ U2 ℕ (Pipeline.pin (pcfgs (F := F)) Gen.adm p) c)
    (c : Dev nD) (hshare : ∀ w, (rds 1 c).share w = fullShare)
    (V V' : (b : Ref sig .tc) → Buf (Elt F) ((c : Thread nD τ).loc b))
    (Fw : (w : Fin (Pipeline.pin (pcfgs (F := F)) Gen.adm 1).W) → Buf (Elt F) (((Pipeline.pin (pcfgs (F := F)) Gen.adm 1).spec w).arr.view.loc (c : Thread nD τ)))
    (hF : ∀ w, Fw w = V' (Pipeline.arrRef (Pipeline.pin (pcfgs (F := F)) Gen.adm 1).spec w))
    (hrest : ∀ b, b ∉ Finset.univ.image (Pipeline.arrRef (Pipeline.pin (pcfgs (F := F)) Gen.adm 1).spec) → V' b = V b) :
    iprop((rds 1 c).arrays Fw ∗ Pipeline.unscopedRest (Ix := Unit) (Name := ℕ) (U := U2) (Lvl := ℕ) (Pipeline.pin (pcfgs (F := F)) Gen.adm 1).spec c V)
      ⊢ (unscopedBufs (Ix := Unit) (Name := ℕ) (U := U2) (Lvl := ℕ) c V' : sProp 𝕄) := by
  rw [Pipeline.unscopedBufs_split (Pipeline.pin (pcfgs (F := F)) Gen.adm) 1 launch1.win.arr_unscoped launch1.win.arr_inj c V',
    Pipeline.RDat.arrays_eq (pcfgs (F := F)) Gen.adm rds 1 c launch1.arr_whole hshare]
  refine sep_mono (Entails.of_eq (bigSep_congr fun w _ => by rw [hF])) (Entails.of_eq ?_)
  unfold Pipeline.unscopedRest
  exact bigSep_congr fun b hb => by rw [hrest b (Finset.mem_sdiff.mp hb).2]

/-! ## Region 1's record at found contents -/

set_option backward.isDefEq.respectTransparency.types false in
/-- REGION 1 over the thread state, at the contents `outs` the items before it left: entered from every unscoped
    buffer at the valuation before item 4, left at the valuation after item 4 for SOME contents of the output array.
    Its arrays are split out of the unscoped buffers at entry and put back at exit; the generator register goes into
    the class invariant and comes out; nothing is owed; the kernel has no semaphore of its own. -/
def reg1At (outs : Gen.Outs (F := F)) : Pipeline.RDat.RegionSeg (pcfgs (F := F)) Gen.adm (rdatsAt m outs) () defs₀ 𝒱₀ L lv 1 where
  win := launch1.win.to₀
  block_pos := launch1.block_pos
  stage_whole := launch1.stage_whole
  K := PEmpty
  osem k := k.elim
  ho := Pipeline.OwnSemFacts.none _
  hbody c := rbody1 (Vin4 m outs) c
  hwaits := Pipeline.RDat.hwaits_of_owed_zero _ _ _ _ L lv 1 fun _ _ => rfl
  pre c := iprop(StableHlo.held (c : Thread nD τ) (Pipeline.ucRefs τ sig) (Gen.V4 m outs c) ∗ R c)
  post c := iprop(∃ outs' : Gen.Outs (F := F), StableHlo.held (c : Thread nD τ) (Pipeline.ucRefs τ sig) (Gen.V5 m outs' c) ∗ R c)
  X c := iprop(∃ r, prngReg c r)
  Y c := iprop(∃ r, prngReg c r)
  Z c := Pipeline.unscopedRest (Ix := Unit) (Name := ℕ) (U := U2) (Lvl := ℕ) spec1 c (Vin4 m outs c)
  hentry c := by
    rw [Pipeline.ownSems0_none]
    have hsplit := Pipeline.RDat.arrays_of_unscopedBufs (p := 1) (pcfgs (F := F)) Gen.adm (rdatsAt m outs) launch1.win launch1.arr_whole c
      ((rdatsAt m outs 1 c).share_full fun _ => rfl) (Vin4 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdatsAt m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (rdatsAt m outs 1 c).Φ (Fin.last _) = Pipeline.ΦA spec1 c from rfl]; unfold Pipeline.ΦA
    iintro ⟨Hr, Hp⟩
    isplitl [Hp]; · iexact Hp
    isplitr; · iempintro
    iexact Hr
  hexit c := by
    -- an input window's array is never written back: after every point it is as at entry
    have hin0 := (rdatsAt m outs 1 c).ArrAt_in 0 rfl (Pipeline.pin (pcfgs (F := F)) Gen.adm 1).N
    have hin1 := (rdatsAt m outs 1 c).ArrAt_in 1 rfl (Pipeline.pin (pcfgs (F := F)) Gen.adm 1).N
    unfold Pipeline.RDat.arraysAt
    rw [bigSep_W1]
    iintro ⟨⟨⟨%F0, %h0, A0⟩, ⟨%F1, %h1, A1⟩, %F2, -, A2⟩, HO, HY, Hrest⟩
    rw [hin0] at h0; rw [hin1] at h1
    subst h0; subst h1
    imodintro
    -- the output array ends at contents nothing names: record them as what item 4 leaves
    iexists (setOut outs 5 main_v6 c F2)
    have hV4 := V4_setOut5 m outs main_v6 c F2 c
    have h0 : Gen.V5 m (setOut outs 5 main_v6 c F2) c main_v5 = Gen.V4 m outs c main_v5 :=
      (Gen.V5_of m (setOut outs 5 main_v6 c F2) c main_v5 (by decide)).trans (congrFun hV4 _)
    have h1 : Gen.V5 m (setOut outs 5 main_v6 c F2) c main_v1 = Gen.V4 m outs c main_v1 :=
      (Gen.V5_of m (setOut outs 5 main_v6 c F2) c main_v1 (by decide)).trans (congrFun hV4 _)
    have h2 : Gen.V5 m (setOut outs 5 main_v6 c F2) c main_v6 = F2 := by
      simp only [Gen.V5, Function.update_self]
      exact setOut_same outs 5 main_v6 c F2
    have hjoin := unscopedBufs_of_arrays1 (rdatsAt m outs) c ((rdatsAt m outs 1 c).share_full fun _ => rfl)
      (Vin4 m outs c) (fun b => Gen.V5 m (setOut outs 5 main_v6 c F2) c b)
      (fun w => match w with
        | ⟨0, _⟩ => (rdatsAt m outs 1 c).A 0
        | ⟨1, _⟩ => (rdatsAt m outs 1 c).A 1
        | ⟨2, _⟩ => F2)
      (fun w => match w with
        | ⟨0, _⟩ => h0.symm
        | ⟨1, _⟩ => h1.symm
        | ⟨2, _⟩ => h2.symm)
      (fun b hb => (Gen.V5_of m (setOut outs 5 main_v6 c F2) c b (fun h => hb (by
          rw [List.mem_singleton.mp h]; exact Finset.mem_image.mpr ⟨2, Finset.mem_univ _, rfl⟩))).trans (congrFun hV4 _))
    rw [Pipeline.unscopedBufs_held] at hjoin
    isplitl [A0 A1 A2 Hrest]
    · iapply hjoin
      isplitr [Hrest]
      · unfold Pipeline.RDat.arrays; rw [bigSep_W1]
        isplitl [A0]; · iexact A0
        isplitl [A1]; · iexact A1
        iexact A2
      iexact Hrest
    isplitl [HY]; · iexact HY
    unfold Pipeline.RDat.owesAt Pipeline.owesWithin
    icases HO with ⟨%W, -, HO⟩; iexists W; iexact HO

/-! ## Region 1 as a segment of the launch -/

set_option backward.isDefEq.respectTransparency.types false in
/-- REGION 1 as a host segment: entered from whatever contents the items before it left, beside pipeline 1's share of
    the second copy's launch state, which funds the region's entry; left at whatever contents item 4 leaves, that share
    spent. Once the contents found are named, it is the region's rule at their record. -/
def hreg1 : HostSeg (Ix := Unit) (Name := ℕ) (U := U2) (Lvl := ℕ) (pcfgs (F := F)) defs₀ 𝒱₀ L lv where
  prog := Prog.lift (.customCall (Pipeline.entry 1) ())
  pre c := iprop(∃ outs : Gen.Outs (F := F), StableHlo.held (c : Thread nD τ) (Pipeline.ucRefs τ sig) (Gen.V4 m outs c) ∗ E 1 c)
  post c := iprop(∃ outs : Gen.Outs (F := F), StableHlo.held (c : Thread nD τ) (Pipeline.ucRefs τ sig) (Gen.V5 m outs c) ∗ E 2 c)
  run c {β} k K := by
    rw [show E (F := F) 1 c = iprop(R c ∗ gh1 c) from rfl, show E (F := F) 2 c = R c from rfl]
    iintro ⟨Hk, Hbd, ⟨%outs, Hheld, HR, Hg, Ht⟩, Hla⟩
    have hwp := Pipeline.RDat.RegionSeg.wp (pcfgs (F := F)) Gen.adm (rdatsAt m outs) () cellOf_inj (EPb (F := F)) defs₀ 𝒱₀ L lv
      (reg1At m outs) c none (fun u h => nomatch h) k K
    rw [show (reg1At m outs).pre c
          = iprop(StableHlo.held (c : Thread nD τ) (Pipeline.ucRefs τ sig) (Gen.V4 m outs c) ∗ R c) from rfl,
      show (reg1At m outs).post c
          = iprop(∃ outs' : Gen.Outs (F := F), StableHlo.held (c : Thread nD τ) (Pipeline.ucRefs τ sig) (Gen.V5 m outs' c) ∗ R c) from rfl] at hwp
    simp only [Prog.lift, Prog.bind_op, Prog.bind_ret]
    iapply hwp
    isplitl [Hk]
    · iintro ⟨Hbd, ⟨%outs', Hh, HR⟩⟩
      iapply Hk
      isplitl [Hbd]; · iexact Hbd
      iexists outs'
      isplitl [Hh]; · iexact Hh
      iexact HR
    isplitl [Hbd]; · iexact Hbd
    isplitl [Hheld HR]
    · isplitl [Hheld]; · iexact Hheld
      iexact HR
    isplitl [Hla]; · iexact Hla
    isplitl [Hg]; · iexact Hg
    iexact Ht

end Cert.Kernel.Hand

end
-- ==== Proof.KLaunch.lean ====
/-
  The word-level program's frame, assembled: @main as the launch theorem's segments — region 0, the three host
  stretches, region 1 entered as a host segment from whatever the stretches left, the closing reshape —, each between
  thread states that hold every unscoped buffer at SOME contents of the generated valuations' shape. The arguments
  are read back off the last valuation, which has them as launched whatever the regions left.
-/
import proofs.«410757_j8796093022645_3_alg».proof.Proof.KReg0
import proofs.«410757_j8796093022645_3_alg».proof.Proof.KReg1
import Idealize.ShloMosaic.Lib.Pipeline.RegionsLoop
import Idealize.ShloMosaic.Lib.Pipeline.FrameSuffix

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.Pipeline (HostSeg)

variable {F : FTy → Type} [FloatOps F]

local notation "𝕄" => MT nD τ sig Unit (Elt F) ℕ U2 ℕ

variable (m : (ℓ : Loc nD τ sig) → Buf (Elt F) ℓ) (ρ : Dev nD → PrngReg)

/-- @main's six items as segments. -/
abbrev segs : List (Pipeline.RDat.Seg (pcfgs (F := F)) Gen.adm (rdats m) () defs₀ 𝒱₀ L lv) :=
  [.region (reg0 m), .host (hseg1 m), .host (hseg2 m), .host (hseg3 m), .host (hreg1 m), .host (hseg5 m)]

/-- The launch element: the pipeline library's, twice. -/
abbrev u₀ : U2 :=
  (initOf (Pipeline.cells cfgs cellOf_inj) (Pipeline.launchToks cfgs cellOf_inj), initOf (Pipeline.cells cfgs cellOf_inj) (Pipeline.launchToks cfgs cellOf_inj))

set_option backward.isDefEq.respectTransparency.types false in
/-- At any float family: every weakly fair execution of @main terminates, nothing faulting, and every final memory holds
    each argument as launched. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.RDat.θ_run_regions_kit_dev (pcfgs (F := F)) Gen.adm (rdats m) () cellOf_inj (EPa (F := F)) defs₀ 𝒱₀ L lv m ρ main
    (fun _ => segs m)
    (fun c Q => by
      rewrite [Gen.main_chain c, Pipeline.RDat.Seg.run_eq_chain,
        show (segs m).map Pipeline.RDat.Seg.prog = [
          Prog.lift (.customCall (Pipeline.entry 0) ()),
          StableHlo.seq Gen.hostOps1,
          StableHlo.seq Gen.hostOps1_1,
          StableHlo.seq Gen.hostOps1_2,
          Prog.lift (.customCall (Pipeline.entry 1) ()),
          StableHlo.seq Gen.hostOps2 ] from rfl]
      exact .rfl)
    (fun c => by simp only [segs, Pipeline.RDat.Seg.pipes_host, Pipeline.RDat.Seg.pipes_region, Pipeline.RDat.Seg.pipes_nil]; decide)
    (O₀ := 0) (hL := fun _ _ => rfl) (G := fun c => gh1 c) (u₀ := u₀) (hu₀ := ?hu)
    (T₀ := fun c => iprop(StableHlo.held (c : Thread nD τ) (Pipeline.ucRefs τ sig) (Gen.V0 m c) ∗ E 0 c))
    (Tₙ := fun c => iprop(∃ outs : Gen.Outs (F := F), StableHlo.held (c : Thread nD τ) (Pipeline.ucRefs τ sig) (Gen.V6 m outs c) ∗ ∃ r, prngReg c r))
    (hch := fun c => ?hch) (hinit := ?hinit)
    (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?hfin) (hQ := fun _ h => h)
  case hu =>
    -- the first copy is the launch theorem's; the second is funded at once and its share for pipeline 1 kept per core
    have hpick : ∀ (Φ : Fin 2 → Dev nD → sProp 𝕄), (bigSep Finset.univ fun c : Dev nD => bigSep Finset.univ fun p => Φ p c)
        ⊢ bigSep Finset.univ fun c : Dev nD => Φ 1 c := fun Φ =>
      bigSep_mono fun c _ => BI.bigSep_elim (Finset.mem_univ (1 : Fin 2))
    iintro Hu
    ihave H := (ownU_pair _ _) $$ Hu
    icases H with ⟨Ha, Hb⟩
    imod (Pipeline.fund_ghost (Pipeline.pin (pcfgs (F := F)) Gen.adm) (EPb (F := F)) cellOf_inj) $$ Hb with ⟨Hg, Ht⟩
    imodintro
    isplitl [Ha]; · iexact Ha
    rw [bigSep_sep']
    isplitl [Hg]
    · iapply (hpick fun p c => Pipeline.cellsGhost (Pipeline.pin (pcfgs (F := F)) Gen.adm) (EPb (F := F)) p c); iexact Hg
    · iapply (hpick fun p c => Pipeline.toksInit (Pipeline.pin (pcfgs (F := F)) Gen.adm) (EPb (F := F)) p c); iexact Ht
  case hch =>
    refine ⟨.rfl, .rfl, .rfl, .rfl, .rfl, .rfl, ?_⟩
    show iprop(∃ outs : Gen.Outs (F := F), StableHlo.held (c : Thread nD τ) (Pipeline.ucRefs τ sig) (Gen.V6 m outs c) ∗ R c) ⊢ _
    iintro ⟨%outs, Hh, Hp, HO⟩
    isplitr [HO]
    · iexists outs
      isplitl [Hh]; · iexact Hh
      iexact Hp
    · iexact HO
  case hinit =>
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    show _ ⊢ (|={Set.univ}=> iprop(StableHlo.held (c : Thread nD τ) (Pipeline.ucRefs τ sig) (Gen.V0 m c) ∗ R c ∗ gh1 c) : sProp 𝕄)
    iintro ⟨⟨Hh, -, HO, -, Hp, HG⟩, -⟩
    imodintro
    isplitl [Hh]; · iexact Hh
    isplitr [HG]
    · isplitl [Hp]; · iexists _; iexact Hp
      iexists ∅; iexact HO
    · iexact HG
  case hfin =>
    iintro ⟨⟨%outs, Hh, -⟩, HSI⟩
    unfold StableHlo.held
    ihave Hr := (pointsTo_read_all (Pipeline.ucRefs τ sig) (fun b => ((c : Thread nD τ).1, b)) (Gen.V6 m outs c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (Gen.V6_main_arg0 m outs c),
        (h (Proc.devRef .tc main_arg1) (Finset.mem_filter.mpr ⟨StableHlo.devRef_mem_tcRefs main_arg1, by decide⟩)).trans (Gen.V6_main_arg1 m outs c),
        (h (Proc.devRef .tc main_arg2) (Finset.mem_filter.mpr ⟨StableHlo.devRef_mem_tcRefs main_arg2, by decide⟩)).trans (Gen.V6_main_arg2 m outs c),
        (h (Proc.devRef .tc main_arg3) (Finset.mem_filter.mpr ⟨StableHlo.devRef_mem_tcRefs main_arg3, by decide⟩)).trans (Gen.V6_main_arg3 m outs c)⟩
    · iexact HSI

end Cert.Kernel.Hand

end
-- ==== Proof.KiDat.lean ====
/-
  The proof data of the two pipelines at the ideal instance, each stated at the contents V the TensorCore's buffers
  hold when its region is entered.

  Region 0 computes the score table transposed, 32768 table rows per grid point: point t stages edge_vector whole
  (window 0), rows 32768 t .. of edge_embedding (window 1) and writes back columns 32768 t .. of the table (window 2).
  The last point's block overhangs both arrays: the fetch brings only the rows inside edge_embedding, and only the
  columns inside the table are written back. What the staging buffers hold after the body is named with the rows past
  the array's end read as zero; on the part the transfers move this is what every run leaves, because a column of
  the product depends on one row of edge_embedding only.

  Region 1 reduces the gathered scores, 65536 paths per point: windows 0 and 1 stage the gathered scores and the
  path words (5 x 65536 each), window 2 the encodings (1 x 65536); the last point's blocks overhang alike, and an
  encoding depends on its own column only.
-/
import proofs.«410757_j8796093022645_3_alg».proof.Proof.Gen.KernelIdeal.Launch
import proofs.«410757_j8796093022645_3_alg».proof.Proof.Gen.KernelIdeal.Skeleton
import proofs.«410757_j8796093022645_3_alg».proof.Proof.Gen.KernelIdeal.Points
import Idealize.ShloMosaic.Lib.Pipeline.FrameBody
import Idealize.ShloMosaic.Lib.Pipeline.Regions
import Idealize.ShloMosaic.Lib.Pipeline.Frame
import Idealize.ShloMosaic.PureOps.Ideal

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (V : (c : Dev nD) → (b : Ref sig .tc) → Buf (Elt Ideal) ((c : Thread nD τ).loc b))

/-! ## Region 0 -/

/-- Window w's block at point t, read off its array as the region finds it: the part inside the array. -/
def iblk0 (c : Dev nD) (w : Fin cfg0.W) (t : Fin cfg0.N) : ((cfg0.win w).xblock (cfg0.grid.coords t)).Idx → Elt Ideal (cfg0.win w).elt :=
  ((cfg0.win w).blk t).view.read (Elt Ideal) (V c (Pipeline.arrRef spec0 w))

/-- edge_vector, whole, at every point. -/
def evblk (c : Dev nD) (t : Fin cfg0.N) : Vec Ideal S5x64 .f32 := iblk0 V c 0 t
/-- The rows of edge_embedding point t stages, zero past the array's end. -/
def eeblk (c : Dev nD) (t : Fin cfg0.N) : Vec Ideal S32768x64 .f32 :=
  win0_1.fill (grid0.coords t) (fun _ => (0 : EReal)) (iblk0 V c 1 t)
/-- The columns of the transposed score table point t computes from them. -/
def scblk (c : Dev nD) (t : Fin cfg0.N) : Vec Ideal S5x32768 .f32 := k0_pay1 (F := Ideal) (evblk V c t) (eeblk V c t)

/-- Region 0's proof data on core c. -/
def dat0 (c : Dev nD) : Dat τ (Elt Ideal) Unit ℕ (UR sig nD τ) ℕ cfg0 c where
  A w := V c (Pipeline.arrRef spec0 w)
  after w t := match w with
    | ⟨0, _⟩ => evblk V c t
    | ⟨1, _⟩ => eeblk V c t
    | ⟨2, _⟩ => scblk V c t
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = evblk V c t := by dsimp only [dat0]
theorem after0_1 (c : Dev nD) (t : Fin cfg0.N) : (dat0 V c).after 1 t = eeblk V c t := by dsimp only [dat0]
theorem after0_2 (c : Dev nD) (t : Fin cfg0.N) : (dat0 V c).after 2 t = scblk V c t := by dsimp only [dat0]

/-! ## Region 1 -/

def iblk1 (c : Dev nD) (w : Fin cfg1.W) (t : Fin cfg1.N) : ((cfg1.win w).xblock (cfg1.grid.coords t)).Idx → Elt Ideal (cfg1.win w).elt :=
  ((cfg1.win w).blk t).view.read (Elt Ideal) (V c (Pipeline.arrRef spec1 w))

/-- The gathered scores point t stages, zero past the array's end. -/
def gblk (c : Dev nD) (t : Fin cfg1.N) : Vec Ideal S5x65536 .f32 :=
  win1_0.fill (grid1.coords t) (fun _ => (0 : EReal)) (iblk1 V c 0 t)
/-- The path words point t stages, the zero word past the array's end. -/
def pblk (c : Dev nD) (t : Fin cfg1.N) : Vec Ideal S5x65536 .i32 :=
  win1_1.fill (grid1.coords t) (fun _ => (0#32 : BitVec 32)) (iblk1 V c 1 t)
/-- The encodings point t computes from them. -/
def encblk (c : Dev nD) (t : Fin cfg1.N) : Vec Ideal S1x65536 .f32 := k1_pay1 (F := Ideal) (gblk V c t) (pblk V c t)

/-- Region 1's proof data on core c. -/
def dat1 (c : Dev nD) : Dat τ (Elt Ideal) Unit ℕ (UR sig nD τ) ℕ cfg1 c where
  A w := V c (Pipeline.arrRef spec1 w)
  after w t := match w with
    | ⟨0, _⟩ => gblk V c t
    | ⟨1, _⟩ => pblk V c t
    | ⟨2, _⟩ => encblk V c t
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = gblk V c t := by dsimp only [dat1]
theorem after1_1 (c : Dev nD) (t : Fin cfg1.N) : (dat1 V c).after 1 t = pblk V c t := by dsimp only [dat1]
theorem after1_2 (c : Dev nD) (t : Fin cfg1.N) : (dat1 V c).after 2 t = encblk V c t := by dsimp only [dat1]

end Cert.KernelIdeal.Hand

end
-- ==== Proof.KiBody.lean ====
/-
  The two kernel bodies as Hoare triples, for any float family and any user algebra.

  Each body reads its two input buffers whole, computes a pure payload of the values read, and stores it
  through the rectangle of the output buffer's own sizes at zero offsets. Such a rectangle holds every index
  of the buffer, so a load through it reads the contents and one store through it leaves its payload,
  whatever the buffer held before (the dead load of the output before the store reads nothing that matters).
-/
import proofs.«410757_j8796093022645_3_alg».proof.Proof.Gen.KernelIdeal.Launch
import proofs.«410757_j8796093022645_3_alg».proof.Proof.Gen.KernelIdeal.Skeleton
import proofs.«410757_j8796093022645_3_alg».proof.Proof.Gen.KernelIdeal.Points
import Idealize.ShloMosaic.Lib.Pipeline.FrameBody
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {U : Type} [URA U]

local notation "𝕄" => MT nD τ sig Unit (Elt F) ℕ U ℕ

/-- The pair of zero offsets is the constant-zero offset function. -/
private theorem off00 : (![0, 0] : Fin 2 → ℕ) = fun _ => 0 := by
  funext a; fin_cases a <;> rfl

/-- One store through the rectangle of the buffer's own sizes at zero offsets covers every index, so whatever
    the buffer held before, it reads back as the stored payload. -/
private theorem read_writes_unit_zero {Val : EltTy → Type} [∀ e, Nonempty (Val e)] {sg : RefSig} {κ : Kind} {sp : Space}
    {S : Shape} {e : EltTy} (v : View sg κ sp S e) (f : v.ty.Contents Val) {off : Fin S.rank → ℕ}
    (h : off = fun _ => 0) (inb : ∀ a, off a + S.size a ≤ S.size a) (w : S.Idx → Val e) :
    v.read Val (v.writes Val f [(⟨Rect.unit off S.size inb, w⟩ : View.Piece Val S e)]) = w :=
  (View.read_writes_eq_canon v f [(⟨Rect.unit off S.size inb, w⟩ : View.Piece Val S e)]
    (fun y => ⟨(⟨Rect.unit off S.size inb, w⟩ : View.Piece Val S e), List.mem_singleton_self _,
      View.mem_set_unit_zero h inb y⟩)).trans (View.canon_unit_zero h inb w)

set_option maxHeartbeats 1000000 in
/-- The first kernel body on whole staging memrefs: it loads its two inputs whole, stores the payload of the
    values read over the whole output buffer, and returns. The inputs' buffers are left as they were read and
    the output's buffer, whatever it held, ends holding exactly the payload. -/
theorem sound_kernel0 (c : Dev nD) (E : Set ℕ) (i : grid0.Coords)
    (arg1 : Memref sig .tc .vmem S5x64 .f32) (harg1 : arg1.IsWhole) (arg2 : Memref sig .tc .vmem S32768x64 .f32) (harg2 : arg2.IsWhole)
    (arg3 : Memref sig .tc .vmem S5x32768 .f32) (harg3 : arg3.IsWhole)
    (x0 : Vec F S5x64 .f32) (x1 : Vec F S32768x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k0_pay1 x0 x1)) -∗ K ⟨⟩))
      ⊢ wp frame (wpE (defs₀ (F := F)) Variants.none c none) E (cc0__matmul_kernel_T i arg1 harg1 arg2 harg2 arg3 harg3) K := by
  simp only [cc0__matmul_kernel_T_eq_skeleton]; unfold cc0__matmul_kernel_T_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (read_writes_unit_zero _ _ off00 _ _).trans ?_
  exact congrArg₂ k0_pay1 (View.ld_unit_zero off00 _ _) (View.ld_unit_zero off00 _ _)

set_option maxHeartbeats 1000000 in
/-- The second kernel body on whole staging memrefs: two whole-buffer loads, one whole-buffer store of the
    payload over the values read; the output's buffer ends holding exactly the payload. -/
theorem sound_kernel1 (c : Dev nD) (E : Set ℕ) (i : grid1.Coords)
    (arg1 : Memref sig .tc .vmem S5x65536 .f32) (harg1 : arg1.IsWhole) (arg2 : Memref sig .tc .vmem S5x65536 .i32) (harg2 : arg2.IsWhole)
    (arg3 : Memref sig .tc .vmem S1x65536 .f32) (harg3 : arg3.IsWhole)
    (x0 : Vec F S5x65536 .f32) (x1 : Vec F S5x65536 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k1_pay1 x0 x1)) -∗ K ⟨⟩))
      ⊢ wp frame (wpE (defs₀ (F := F)) Variants.none c none) E (cc1__reduce_kernel_T i arg1 harg1 arg2 harg2 arg3 harg3) K := by
  simp only [cc1__reduce_kernel_T_eq_skeleton]; unfold cc1__reduce_kernel_T_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (read_writes_unit_zero _ _ off00 _ _).trans ?_
  exact congrArg₂ k1_pay1 (View.ld_unit_zero off00 _ _) (View.ld_unit_zero off00 _ _)

end Cert.KernelIdeal.Hand

end
-- ==== Proof.Spec.lean ====
/-
  The mathematics both programs compute, stated once over plain index types.

  A path is five words. The word -1 marks a missing hop. Every other word w names a row of the score
  table: a negative word counts from the table's end (w + 500000), and the row is clamped to the table
  (rows 0 .. 499999). The score of row e at hop d is the inner product of edge_vector's row d with
  edge_embedding's row e. A path's encoding is the sum of the scores at its present hops, divided by
  the number of present hops when there is one.
-/
import Idealize.ShloMosaic.PureOps.Ideal

noncomputable section

namespace Cert.Spec

open Idealize.ShloMosaic

/-- The word that marks a missing hop: -1. -/
def pad : BitVec 32 := 4294967295#32

/-- A missing hop reads row 0 (its score is then dropped from the sum). -/
def safeW (w : BitVec 32) : BitVec 32 := if w = pad then 0#32 else w

/-- A negative word counts rows from the table's end. -/
def normW (w : BitVec 32) : BitVec 32 := if w.slt 0#32 then w + 500000#32 else w

/-- The row of the score table a path word reads: the signed value of the normalised word, clamped to the table. -/
def rowOf (w : BitVec 32) : Fin 500000 :=
  ⟨min (normW (safeW w)).toInt.toNat 499999, by omega⟩

/-- The score of table row e at hop d. -/
def score (ev : Fin 5 → Fin 64 → EReal) (ee : Fin 500000 → Fin 64 → EReal) (d : Fin 5) (e : Fin 500000) : EReal :=
  ∑ k : Fin 64, ev d k * ee e k

/-- How many hops of a path are present. -/
def hops (p : Fin 5 → BitVec 32) : ℕ := (Finset.univ.filter fun d => p d ≠ pad).card

/-- The sum of a path's scores over its present hops. -/
def total (g : Fin 5 → EReal) (p : Fin 5 → BitVec 32) : EReal := ∑ d : Fin 5, if p d ≠ pad then g d else 0

/-- A path's encoding: the total, divided by the number of present hops when there is one. -/
def enc (g : Fin 5 → EReal) (p : Fin 5 → BitVec 32) : EReal :=
  if hops p = 0 then total g p else total g p / (((hops p : ℕ) : ℝ) : EReal)

/-- The whole result at path q, from the three arrays that matter. -/
def result (ev : Fin 5 → Fin 64 → EReal) (ee : Fin 500000 → Fin 64 → EReal) (paths : Fin 1000000 → Fin 5 → BitVec 32)
    (q : Fin 1000000) : EReal :=
  enc (fun d => score ev ee d (rowOf (paths q d))) (fun d => paths q d)

end Cert.Spec

end
-- ==== Proof.KiPay.lean ====
/-
  The two kernel payloads read at one index, at the ideal instance (floats are extended reals, every
  operation exact).

  The first payload is a matrix product into a zero accumulator, contracting the second axis of both
  operands: its element (d, e) is the inner product over k of x0 (d, k) and x1 (e, k).

  The second payload works column by column. At column j it turns each of the five path words into
  the float 1 (the word is not -1) or 0 (it is -1), sums the five scores weighted by these, sums the
  five weights, and divides the first sum by the second when the second is not zero. A product with
  the weight 0 is 0 and with the weight 1 is the score itself, for every extended real, so the first
  sum is the total over the present hops; the second sum is their number; and the maximum of a
  positive whole number with 1 is the number itself, so the quotient is the total over the number of
  present hops.
-/
import proofs.«410757_j8796093022645_3_alg».proof.Proof.Gen.KernelIdeal.Skeleton
import proofs.«410757_j8796093022645_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

/-! ## The matrix product at an index -/

/-- The left operand's row is the result's row. -/
theorem k0_lhs_0 (i : S5x32768.Idx) (q : dot_S5x64_S32768x64_S5x32768_1_1_0_0_n_n.contr.Idx) :
    (dot_S5x64_S32768x64_S5x32768_1_1_0_0_n_n.lhsIdx i q 0).val = (i 0).val := by
  unfold DotDims.lhsIdx
  rw [dif_neg (show ¬(0 : Fin S5x64.rank) ∈ dot_S5x64_S32768x64_S5x32768_1_1_0_0_n_n.lhsBatch by decide),
    dif_pos (show (0 : Fin S5x64.rank) ∈ dot_S5x64_S32768x64_S5x32768_1_1_0_0_n_n.lhsNonContracting by decide)]
  rfl

/-- The left operand's column is the contraction position. -/
theorem k0_lhs_1 (i : S5x32768.Idx) (q : dot_S5x64_S32768x64_S5x32768_1_1_0_0_n_n.contr.Idx) :
    (dot_S5x64_S32768x64_S5x32768_1_1_0_0_n_n.lhsIdx i q 1).val = (q ⟨0, by decide⟩).val :=
  dot_S5x64_S32768x64_S5x32768_1_1_0_0_n_n.lhsIdx_val_of_single rfl i q

/-- The right operand's row is the result's column. -/
theorem k0_rhs_0 (i : S5x32768.Idx) (q : dot_S5x64_S32768x64_S5x32768_1_1_0_0_n_n.contr.Idx) :
    (dot_S5x64_S32768x64_S5x32768_1_1_0_0_n_n.rhsIdx i q 0).val = (i 1).val := by
  unfold DotDims.rhsIdx
  rw [dif_neg (show ¬(0 : Fin S32768x64.rank) ∈ dot_S5x64_S32768x64_S5x32768_1_1_0_0_n_n.rhsBatch by decide),
    dif_pos (show (0 : Fin S32768x64.rank) ∈ dot_S5x64_S32768x64_S5x32768_1_1_0_0_n_n.rhsNonContracting by decide)]
  rfl

/-- The right operand's column is the contraction position. -/
theorem k0_rhs_1 (i : S5x32768.Idx) (q : dot_S5x64_S32768x64_S5x32768_1_1_0_0_n_n.contr.Idx) :
    (dot_S5x64_S32768x64_S5x32768_1_1_0_0_n_n.rhsIdx i q 1).val = (q ⟨0, by decide⟩).val :=
  dot_S5x64_S32768x64_S5x32768_1_1_0_0_n_n.rhsIdx_val_of_single rfl i q

/-- Element (d, e) of the product is the inner product of row d of the left operand with row e of the right one. -/
theorem k0_apply (x0 : Vec Ideal S5x64 .f32) (x1 : Vec Ideal S32768x64 .f32) (d : Fin 5) (e : Fin 32768) :
    k0_pay1 (F := Ideal) x0 x1 (ValueIdx.ix2 d e) = ∑ k : Fin 64, x0 (ValueIdx.ix2 d k) * x1 (ValueIdx.ix2 e k) := by
  unfold k0_pay1
  refine (Ideal.matmul_constant_zero_apply dot_S5x64_S32768x64_S5x32768_1_1_0_0_n_n (some .fp32) x0 x1 (ValueIdx.ix2 d e)).trans ?_
  rw [← Equiv.sum_comp (contrEquiv1 dot_S5x64_S32768x64_S5x32768_1_1_0_0_n_n 64 rfl rfl).symm]
  refine Finset.sum_congr rfl fun k _ => ?_
  have hk := contrEquiv1_symm_val dot_S5x64_S32768x64_S5x32768_1_1_0_0_n_n 64 rfl rfl k
  have el : dot_S5x64_S32768x64_S5x32768_1_1_0_0_n_n.lhsIdx (ValueIdx.ix2 d e)
      ((contrEquiv1 dot_S5x64_S32768x64_S5x32768_1_1_0_0_n_n 64 rfl rfl).symm k) = ValueIdx.ix2 d k :=
    funext fun a => Fin.ext (by
      match a with
      | ⟨0, _⟩ => exact k0_lhs_0 _ _
      | ⟨1, _⟩ => exact (k0_lhs_1 _ _).trans hk)
  have er : dot_S5x64_S32768x64_S5x32768_1_1_0_0_n_n.rhsIdx (ValueIdx.ix2 d e)
      ((contrEquiv1 dot_S5x64_S32768x64_S5x32768_1_1_0_0_n_n 64 rfl rfl).symm k) = ValueIdx.ix2 e k :=
    funext fun a => Fin.ext (by
      match a with
      | ⟨0, _⟩ => exact k0_rhs_0 _ _
      | ⟨1, _⟩ => exact (k0_rhs_1 _ _).trans hk)
  rw [el, er]

/-! ## The reduction over the hops at a column -/

/-- The weight of a path word: 1 when the hop is present (the word is not -1), 0 when it is missing. -/
def k1_wt (w : BitVec 32) : EReal := if w ≠ Cert.Spec.pad then 1 else 0

/-- The comparison with -1, widened to a word and converted to a float, is the weight. -/
theorem k1_mask_eq (w : BitVec 32) :
    FloatOps.sitofp (F := Ideal) .f32 ((IntOp.cmpi .ne w 4294967295#32).setWidth 32) = k1_wt w := by
  unfold k1_wt Cert.Spec.pad
  by_cases h : w = 4294967295#32
  · subst h
    rw [if_neg (by simp)]
    show (((((IntOp.cmpi .ne (4294967295#32 : BitVec 32) 4294967295#32).setWidth 32).toInt : ℝ)) : EReal) = 0
    have h0 : ((IntOp.cmpi .ne (4294967295#32 : BitVec 32) 4294967295#32).setWidth 32).toInt = 0 := by decide
    rw [h0]; simp
  · rw [if_pos h]
    have hb : (w != 4294967295#32) = true := by simpa [bne_iff_ne] using h
    have hc : IntOp.cmpi .ne w 4294967295#32 = 1#1 := by
      show BitVec.ofBool (w != 4294967295#32) = 1#1
      rw [hb]; rfl
    rw [hc]
    show ((((1#1 : BitVec 1).setWidth 32).toInt : ℝ) : EReal) = 1
    have h1 : ((1#1 : BitVec 1).setWidth 32).toInt = 1 := by decide
    rw [h1]; simp

/-- The source index of the sum over the hop axis, at column j and hop d, is (d, j). -/
theorem k1_lift_eq (j : Fin 65536) (d : Fin 5) :
    reduces_S5x65536_S65536.lift (ix1 j) d = ix2 d j :=
  funext fun a => Fin.ext (by
    match a with
    | ⟨0, _⟩ => rfl
    | ⟨1, _⟩ => rfl)

/-- A sum over the hop axis, stored as a one-row block, read at column j: the sum of the five entries of column j. -/
theorem k1_colsum_apply (v : FVec Ideal S5x65536 .f32) (j : Fin 65536) :
    shapeCast S1x65536 (multiReduction (F := Ideal) .add [0] S65536 v 0x00000000#32 reduces_S5x65536_S65536 (.inl rfl) rfl)
        shapeCasts_S65536_S1x65536 (ix2 (0 : Fin 1) j)
      = ∑ d : Fin 5, v (ix2 d j) := by
  refine (shapeCast_addUnit_apply ![65536] _ shapeCasts_S65536_S1x65536 (ix2 (0 : Fin 1) j)).trans ?_
  have hj : (fun a : Fin 1 => (ix2 (0 : Fin 1) j) a.succ) = ix1 j :=
    funext fun a => by
      match a with
      | ⟨0, _⟩ => rfl
  refine (congrArg _ hj).trans ?_
  refine (Ideal.multiReduction_add_single v _ reduces_S5x65536_S65536 (.inl rfl) rfl (ix1 j)).trans ?_
  exact Finset.sum_congr rfl fun d _ => congrArg v (k1_lift_eq j d)

/-- The five weights of a path sum to the number of its present hops. -/
theorem k1_sum_wt (P : Fin 5 → BitVec 32) : ∑ d : Fin 5, k1_wt (P d) = (((Cert.Spec.hops P : ℕ) : ℝ) : EReal) := by
  rw [EReal.coe_natCast]
  unfold Cert.Spec.hops k1_wt
  rw [Finset.card_filter, Nat.cast_sum]
  refine Finset.sum_congr rfl fun d _ => ?_
  by_cases h : P d ≠ Cert.Spec.pad
  · rw [if_pos h, if_pos h, Nat.cast_one]
  · rw [if_neg h, if_neg h, Nat.cast_zero]

/-- The scores weighted by the weights sum to the total over the present hops: a product with the weight 1 is the
    score and with the weight 0 is 0, for every extended real. -/
theorem k1_sum_mul_wt (G : Fin 5 → EReal) (P : Fin 5 → BitVec 32) : ∑ d : Fin 5, G d * k1_wt (P d) = Cert.Spec.total G P := by
  unfold Cert.Spec.total k1_wt
  refine Finset.sum_congr rfl fun d _ => ?_
  by_cases h : P d ≠ Cert.Spec.pad
  · rw [if_pos h, if_pos h, mul_one]
  · rw [if_neg h, if_neg h, mul_zero]

/-- The reduced block at column j is the path's encoding: the total over the present hops, divided by their number
    when there is one. -/
theorem k1_apply (g : Vec Ideal S5x65536 .f32) (p : Vec Ideal S5x65536 .i32) (j : Fin 65536) :
    k1_pay1 (F := Ideal) g p (ValueIdx.ix2 (0 : Fin 1) j) = Cert.Spec.enc (fun d => g (ValueIdx.ix2 d j)) (fun d => p (ValueIdx.ix2 d j)) := by
  unfold k1_pay1
  simp only [shapeCast_self]
  rw [select_apply, cmpf_apply, divf_apply, maximumf_apply, k1_colsum_apply, k1_colsum_apply]
  have hlen : (∑ d : Fin 5, sitofp (F := Ideal) .f32 (extui 32 (cmpi .ne p (broadcast S5x65536 4294967295#32)) natLt_1_32) (ix2 d j))
      = (((Cert.Spec.hops (fun d => p (ix2 d j)) : ℕ) : ℝ) : EReal) :=
    (Finset.sum_congr rfl fun d _ => k1_mask_eq (p (ix2 d j))).trans (k1_sum_wt _)
  have hs : (∑ d : Fin 5, mulf g (sitofp (F := Ideal) .f32 (extui 32 (cmpi .ne p (broadcast S5x65536 4294967295#32)) natLt_1_32)) (ix2 d j))
      = Cert.Spec.total (fun d => g (ix2 d j)) (fun d => p (ix2 d j)) :=
    (Finset.sum_congr rfl fun d _ => congrArg (g (ix2 d j) * ·) (k1_mask_eq (p (ix2 d j)))).trans (k1_sum_mul_wt _ _)
  have h0 : broadcast S1x65536 (FloatOps.ofBits (F := Ideal) .f32 0x00000000#32) (ix2 (0 : Fin 1) j) = (0 : EReal) := Ideal.ofBits_zero_f32
  have h1 : broadcast S1x65536 (FloatOps.ofBits (F := Ideal) .f32 0x3F800000#32) (ix2 (0 : Fin 1) j) = (1 : EReal) :=
    IdealRules.sign_bit.ideal_onePat .f32
  rw [hlen, hs, h0, h1]
  unfold Cert.Spec.enc
  by_cases hn : Cert.Spec.hops (fun d => p (ix2 d j)) = 0
  · rw [if_pos hn, hn]
    have hc : FloatOps.cmpf (F := Ideal) (φ := .f32) .one (((0 : ℕ) : ℝ) : EReal) 0 = 0#1 := by
      show BitVec.ofBool (decide ((((0 : ℕ) : ℝ) : EReal) ≠ 0)) = 0#1
      rw [decide_eq_false (by simp)]; rfl
    rw [hc, select_zero]
  · rw [if_neg hn]
    have hne : (((Cert.Spec.hops (fun d => p (ix2 d j)) : ℕ) : ℝ) : EReal) ≠ 0 := by exact_mod_cast hn
    have hc : FloatOps.cmpf (F := Ideal) (φ := .f32) .one (((Cert.Spec.hops (fun d => p (ix2 d j)) : ℕ) : ℝ) : EReal) 0 = 1#1 := by
      show BitVec.ofBool (decide ((((Cert.Spec.hops (fun d => p (ix2 d j)) : ℕ) : ℝ) : EReal) ≠ 0)) = 1#1
      rw [decide_eq_true hne]; rfl
    have hmax : max (((Cert.Spec.hops (fun d => p (ix2 d j)) : ℕ) : ℝ) : EReal) 1 = (((Cert.Spec.hops (fun d => p (ix2 d j)) : ℕ) : ℝ) : EReal) :=
      max_eq_left (by exact_mod_cast Nat.one_le_iff_ne_zero.mpr hn)
    rw [hc, select_one, hmax, Ideal.div, if_neg hne, div_eq_mul_inv]

end Cert.KernelIdeal.Hand

end
-- ==== Proof.KiObl.lean ====
/-
  The two pipelines' body obligations at the ideal instance.

  Every window of region 1, and windows 1 and 2 of region 0, have a last block that overhangs its array: the fetch
  brings only the part of the block inside the array and leaves anything in the rest of the staging buffer, and
  the write-back moves only the part inside the array. So the body is handed its input buffers at the block filled
  out with arbitrary contents, and what it leaves need only be right on the part the transfers move.

  Region 0: column e of the product ev · eeᵀ is Σ_k ev(d,k) · ee(e,k), which reads row e of edge_embedding's block
  only; column e of the table's block is written back exactly when row e of edge_embedding's block was fetched
  (the two blocks are cut at the same place, decided over the grid). Hence on the columns written back the product
  computed from the buffer as found is the product computed from the zero-filled block, whatever lay past the end.

  Region 1: the encoding of path j reads column j of the gathered scores and of the path words only, and the three
  blocks are cut on their columns at the same place: the same argument.
-/
import proofs.«410757_j8796093022645_3_alg».proof.Proof.KiDat
import proofs.«410757_j8796093022645_3_alg».proof.Proof.KiBody
import proofs.«410757_j8796093022645_3_alg».proof.Proof.KiPay
import Idealize.ShloMosaic.Lib.Tactic
import Idealize.ShloMosaic.Lib.ValueIdx

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (V : (c : Dev nD) → (b : Ref sig .tc) → Buf (Elt Ideal) ((c : Thread nD τ).loc b))

/-! ## The transfers' cuts, decided over the grids -/

/-- Region 0: the table's block is cut on its columns exactly where edge_embedding's is cut on its rows; neither
    is cut on the other axis. -/
theorem xs0 : ∀ t : Fin grid0.N, win0_2.xsize (grid0.coords t) 1 = win0_1.xsize (grid0.coords t) 0
    ∧ win0_1.xsize (grid0.coords t) 1 = 64 ∧ win0_2.xsize (grid0.coords t) 0 = 5 := by decide +kernel

/-- Region 1: the three blocks are cut alike on their columns and not at all on their rows. -/
theorem xs1 : ∀ t : Fin grid1.N, win1_2.xsize (grid1.coords t) 1 = win1_0.xsize (grid1.coords t) 1
    ∧ win1_2.xsize (grid1.coords t) 1 = win1_1.xsize (grid1.coords t) 1
    ∧ win1_0.xsize (grid1.coords t) 0 = 5 ∧ win1_1.xsize (grid1.coords t) 0 = 5 ∧ win1_2.xsize (grid1.coords t) 0 = 1 := by decide +kernel

/-! ## The payloads on the moved parts -/

/-- Column e of the product reads row e of the second factor only: second factors that agree on the rows inside
    edge_embedding give products that agree on the columns inside the table. -/
theorem cut_k0 (t : Fin grid0.N) (x0 : Vec Ideal S5x64 .f32) (X Y : Vec Ideal S32768x64 .f32)
    (h : win0_1.cut (grid0.coords t) X = win0_1.cut (grid0.coords t) Y) :
    win0_2.cut (grid0.coords t) (k0_pay1 (F := Ideal) x0 X) = win0_2.cut (grid0.coords t) (k0_pay1 (F := Ideal) x0 Y) := by
  obtain ⟨e1, e2, e3⟩ := xs0 t
  funext j
  have hp : (j 0).val < 5 := Nat.lt_of_lt_of_eq (j 0).isLt e3
  have hq : (j 1).val < 32768 := Nat.lt_of_lt_of_le (j 1).isLt (win0_2.xsize_le _ 1)
  have hj : win0_2.xinj (grid0.coords t) j = ValueIdx.ix2 (⟨(j 0).val, hp⟩ : Fin 5) (⟨(j 1).val, hq⟩ : Fin 32768) := by
    funext a; match a with | ⟨0, _⟩ => rfl | ⟨1, _⟩ => rfl
  show k0_pay1 (F := Ideal) x0 X (win0_2.xinj (grid0.coords t) j) = k0_pay1 (F := Ideal) x0 Y (win0_2.xinj (grid0.coords t) j)
  rw [hj, k0_apply, k0_apply]
  refine Finset.sum_congr rfl fun k _ => ?_
  have hq' : (j 1).val < win0_1.xsize (grid0.coords t) 0 := Nat.lt_of_lt_of_eq (j 1).isLt e1
  have hk' : k.val < win0_1.xsize (grid0.coords t) 1 := Nat.lt_of_lt_of_eq k.isLt e2.symm
  have := congrFun h (fun a => match a with | ⟨0, _⟩ => ⟨(j 1).val, hq'⟩ | ⟨1, _⟩ => ⟨k.val, hk'⟩)
  have hi : win0_1.xinj (grid0.coords t) (fun a => match a with | ⟨0, _⟩ => ⟨(j 1).val, hq'⟩ | ⟨1, _⟩ => ⟨k.val, hk'⟩)
      = ValueIdx.ix2 (⟨(j 1).val, hq⟩ : Fin 32768) k := by
    funext a; match a with | ⟨0, _⟩ => rfl | ⟨1, _⟩ => rfl
  change X (win0_1.xinj (grid0.coords t) _) = Y (win0_1.xinj (grid0.coords t) _) at this
  rw [hi] at this
  rw [this]

/-- An encoding reads its own column of the gathered scores and of the path words only: inputs that agree on the
    columns inside their arrays give encodings that agree on the columns inside theirs. -/
theorem cut_k1 (t : Fin grid1.N) (G G' : Vec Ideal S5x65536 .f32) (P P' : Vec Ideal S5x65536 .i32)
    (hG : win1_0.cut (grid1.coords t) G = win1_0.cut (grid1.coords t) G')
    (hP : win1_1.cut (grid1.coords t) P = win1_1.cut (grid1.coords t) P') :
    win1_2.cut (grid1.coords t) (k1_pay1 (F := Ideal) G P) = win1_2.cut (grid1.coords t) (k1_pay1 (F := Ideal) G' P') := by
  obtain ⟨e1, e2, e3, e4, e5⟩ := xs1 t
  funext j
  have hp : (j 0).val < 1 := Nat.lt_of_lt_of_eq (j 0).isLt e5
  have hq : (j 1).val < 65536 := Nat.lt_of_lt_of_le (j 1).isLt (win1_2.xsize_le _ 1)
  have hj : win1_2.xinj (grid1.coords t) j = ValueIdx.ix2 (0 : Fin 1) (⟨(j 1).val, hq⟩ : Fin 65536) := by
    funext a; match a with | ⟨0, _⟩ => exact Fin.ext (Nat.lt_one_iff.mp hp) | ⟨1, _⟩ => rfl
  show k1_pay1 (F := Ideal) G P (win1_2.xinj (grid1.coords t) j) = k1_pay1 (F := Ideal) G' P' (win1_2.xinj (grid1.coords t) j)
  rw [hj, k1_apply, k1_apply]
  have hq0 : (j 1).val < win1_0.xsize (grid1.coords t) 1 := Nat.lt_of_lt_of_eq (j 1).isLt e1
  have hq1 : (j 1).val < win1_1.xsize (grid1.coords t) 1 := Nat.lt_of_lt_of_eq (j 1).isLt e2
  have hg : (fun d : Fin 5 => G (ValueIdx.ix2 d (⟨(j 1).val, hq⟩ : Fin 65536))) = fun d => G' (ValueIdx.ix2 d ⟨(j 1).val, hq⟩) := by
    funext d
    have hd : d.val < win1_0.xsize (grid1.coords t) 0 := Nat.lt_of_lt_of_eq d.isLt e3.symm
    have := congrFun hG (fun a => match a with | ⟨0, _⟩ => ⟨d.val, hd⟩ | ⟨1, _⟩ => ⟨(j 1).val, hq0⟩)
    have hi : win1_0.xinj (grid1.coords t) (fun a => match a with | ⟨0, _⟩ => ⟨d.val, hd⟩ | ⟨1, _⟩ => ⟨(j 1).val, hq0⟩)
        = ValueIdx.ix2 d (⟨(j 1).val, hq⟩ : Fin 65536) := by
      funext a; match a with | ⟨0, _⟩ => rfl | ⟨1, _⟩ => rfl
    change G (win1_0.xinj (grid1.coords t) _) = G' (win1_0.xinj (grid1.coords t) _) at this
    rw [hi] at this
    exact this
  have hp' : (fun d : Fin 5 => P (ValueIdx.ix2 d (⟨(j 1).val, hq⟩ : Fin 65536))) = fun d => P' (ValueIdx.ix2 d ⟨(j 1).val, hq⟩) := by
    funext d
    have hd : d.val < win1_1.xsize (grid1.coords t) 0 := Nat.lt_of_lt_of_eq d.isLt e4.symm
    have := congrFun hP (fun a => match a with | ⟨0, _⟩ => ⟨d.val, hd⟩ | ⟨1, _⟩ => ⟨(j 1).val, hq1⟩)
    have hi : win1_1.xinj (grid1.coords t) (fun a => match a with | ⟨0, _⟩ => ⟨d.val, hd⟩ | ⟨1, _⟩ => ⟨(j 1).val, hq1⟩)
        = ValueIdx.ix2 d (⟨(j 1).val, hq⟩ : Fin 65536) := by
      funext a; match a with | ⟨0, _⟩ => rfl | ⟨1, _⟩ => rfl
    change P (win1_1.xinj (grid1.coords t) _) = P' (win1_1.xinj (grid1.coords t) _) at this
    rw [hi] at this
    exact this
  rw [hg, hp']

/-! ## Region 0: what the body finds -/

/-- edge_vector's buffer holds edge_vector at every point: fetched at the first, left in place since. -/
theorem before0_0 (c : Dev nD) (t : Fin cfg0.N) (d) : (dat0 V c).before 0 t d = evblk V c t :=
  ((dat0 V c).before_in_eq_fetched 0 rfl (fun _ => rfl) (fun _ _ _ => rfl)
    (fun t => by rw [after0_0]; unfold Dat.blockOf evblk iblk0; rw [A_eq0]; try rfl) t d).trans
    (by unfold Dat.fetched Dat.blockOf evblk iblk0; rw [A_eq0]; try rfl)

/-- edge_embedding's buffer was just fetched: the rows inside the array, anything past its end. -/
theorem before0_1 (c : Dev nD) (t : Fin cfg0.N) (d) :
    (dat0 V c).before 1 t d = win0_1.fill (grid0.coords t) d (iblk0 V c 1 t) := by
  rw [(dat0 V c).before_fetched 1 t (fetch0_1 t)]; unfold Dat.fetched Dat.blockOf iblk0; rw [A_eq0]

/-- The table's buffer holds anything: the first point, or the point before wrote it back. -/
theorem before0_2 (c : Dev nD) (t : Fin cfg0.N) (d) : (dat0 V c).before 2 t d = d := by
  refine (dat0 V c).before_out_reset 2 rfl t ?_ d
  by_cases h0 : t.val = 0
  · exact .inl h0
  · exact .inr ⟨h0, flush0_2 _⟩

/-! ## Region 0: the body's obligation -/

theorem body_obligation0 (c : Dev nD) : BodyObligationLoose (dat0 V c) (defs₀ (F := Ideal)) Variants.none () Set.univ := fun t => by
  rw [bigSep_W0, bigSep_W0]
  simp only
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩⟩
  rw [before0_0 V c t d0, before0_1 V c t d1, before0_2 V c t d2]
  iapply (sound_kernel0 (F := Ideal) (U := UR sig nD τ) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (evblk V c t) (win0_1.fill (grid0.coords t) d1 (iblk0 V c 1 t)) _)
  isplitl [H0]; · iexact H0
  isplitl [H1]; · iexact H1
  isplitl [H2]; · iexists d2; iexact H2
  iintro ⟨H0, H1, H2⟩
  isplitl [HΦ]; · iexact HΦ
  isplitl [Ho]; · iexact Ho
  -- the inputs' buffers are as found; on the rows inside edge_embedding its buffer holds what the zero-filled
  -- block holds, and on the columns inside the table the product computed from either is the same
  have h1 : win0_1.cut (grid0.coords t) (eeblk V c t) = iblk0 V c 1 t := win0_1.cut_fill _ _ _
  have h2 : win0_2.cut (grid0.coords t) (k0_pay1 (F := Ideal) (evblk V c t) (win0_1.fill (grid0.coords t) d1 (iblk0 V c 1 t)))
      = win0_2.cut (grid0.coords t) (scblk V c t) :=
    cut_k0 t _ _ _ ((win0_1.cut_fill _ _ _).trans h1.symm)
  isplitl [H0]
  · rw [after0_0]; iexact H0
  isplitl [H1]
  · iexists d1
    rw [after0_1]
    change _ ⊢ owns (c : Thread nD τ) (stage0_1 (cfg0.slots t 1)) fullShare (win0_1.fill (grid0.coords t) d1 (win0_1.cut (grid0.coords t) (eeblk V c t)))
    rw [h1]
  · iexists k0_pay1 (F := Ideal) (evblk V c t) (win0_1.fill (grid0.coords t) d1 (iblk0 V c 1 t))
    rw [after0_2]
    change _ ⊢ owns (c : Thread nD τ) (stage0_2 (cfg0.slots t 2)) fullShare (win0_2.fill (grid0.coords t) _ (win0_2.cut (grid0.coords t) (scblk V c t)))
    rw [win0_2.fill_congr_cut (grid0.coords t) h2]

/-! ## Region 1: what the body finds -/

/-- The gathered scores' buffer was just fetched: the columns inside the array, anything past its end. -/
theorem before1_0 (c : Dev nD) (t : Fin cfg1.N) (d) :
    (dat1 V c).before 0 t d = win1_0.fill (grid1.coords t) d (iblk1 V c 0 t) := by
  rw [(dat1 V c).before_fetched 0 t (fetch1_0 t)]; unfold Dat.fetched Dat.blockOf iblk1; rw [A_eq1]

/-- The path words' buffer likewise. -/
theorem before1_1 (c : Dev nD) (t : Fin cfg1.N) (d) :
    (dat1 V c).before 1 t d = win1_1.fill (grid1.coords t) d (iblk1 V c 1 t) := by
  rw [(dat1 V c).before_fetched 1 t (fetch1_1 t)]; unfold Dat.fetched Dat.blockOf iblk1; rw [A_eq1]

/-- The encodings' buffer holds anything: the first point, or the point before wrote it back. -/
theorem before1_2 (c : Dev nD) (t : Fin cfg1.N) (d) : (dat1 V c).before 2 t d = d := by
  refine (dat1 V c).before_out_reset 2 rfl t ?_ d
  by_cases h0 : t.val = 0
  · exact .inl h0
  · exact .inr ⟨h0, flush1_2 _⟩

/-! ## Region 1: the body's obligation -/

theorem body_obligation1 (c : Dev nD) : BodyObligationLoose (dat1 V c) (defs₀ (F := Ideal)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩⟩
  rw [before1_0 V c t d0, before1_1 V c t d1, before1_2 V c t d2]
  iapply (sound_kernel1 (F := Ideal) (U := UR sig nD τ) c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_0.fill (grid1.coords t) d0 (iblk1 V c 0 t)) (win1_1.fill (grid1.coords t) d1 (iblk1 V c 1 t)) _)
  isplitl [H0]; · iexact H0
  isplitl [H1]; · iexact H1
  isplitl [H2]; · iexists d2; iexact H2
  iintro ⟨H0, H1, H2⟩
  isplitl [HΦ]; · iexact HΦ
  isplitl [Ho]; · iexact Ho
  -- the inputs' buffers are as found; on the columns inside their arrays they hold what the zero-filled blocks
  -- hold, and on the columns inside the result the encodings computed from either are the same
  have h0 : win1_0.cut (grid1.coords t) (gblk V c t) = iblk1 V c 0 t := win1_0.cut_fill _ _ _
  have h1 : win1_1.cut (grid1.coords t) (pblk V c t) = iblk1 V c 1 t := win1_1.cut_fill _ _ _
  have h2 : win1_2.cut (grid1.coords t) (k1_pay1 (F := Ideal) (win1_0.fill (grid1.coords t) d0 (iblk1 V c 0 t))
        (win1_1.fill (grid1.coords t) d1 (iblk1 V c 1 t)))
      = win1_2.cut (grid1.coords t) (encblk V c t) :=
    cut_k1 t _ _ _ _ ((win1_0.cut_fill _ _ _).trans h0.symm) ((win1_1.cut_fill _ _ _).trans h1.symm)
  isplitl [H0]
  · iexists d0
    rw [after1_0]
    change _ ⊢ owns (c : Thread nD τ) (stage1_0 (cfg1.slots t 0)) fullShare (win1_0.fill (grid1.coords t) d0 (win1_0.cut (grid1.coords t) (gblk V c t)))
    rw [h0]
  isplitl [H1]
  · iexists d1
    rw [after1_1]
    change _ ⊢ owns (c : Thread nD τ) (stage1_1 (cfg1.slots t 1)) fullShare (win1_1.fill (grid1.coords t) d1 (win1_1.cut (grid1.coords t) (pblk V c t)))
    rw [h1]
  · iexists k1_pay1 (F := Ideal) (win1_0.fill (grid1.coords t) d0 (iblk1 V c 0 t)) (win1_1.fill (grid1.coords t) d1 (iblk1 V c 1 t))
    rw [after1_2]
    change _ ⊢ owns (c : Thread nD τ) (stage1_2 (cfg1.slots t 2)) fullShare (win1_2.fill (grid1.coords t) _ (win1_2.cut (grid1.coords t) (encblk V c t)))
    rw [win1_2.fill_congr_cut (grid1.coords t) h2]

end Cert.KernelIdeal.Hand

end
-- ==== Proof.KiRun.lean ====
/-
  The idealized kernel's run with its result named.

  @main is: region 0 (the transposed score table into main_v0), three stretches of host operations (the transposed
  path words, the safe indices, the gathered scores main_v5), region 1 (the encodings into main_v6), one reshape.
  Between two items every unscoped buffer is held at a valuation: the launch memory, then each stretch's operations
  applied, then each region's result array replaced by what its write-backs leave (the fold of the flushed blocks,
  computed from the region's proof data at the contents the region is entered with).
-/
import proofs.«410757_j8796093022645_3_alg».proof.Proof.KiDat
import proofs.«410757_j8796093022645_3_alg».proof.Proof.KiObl
import proofs.«410757_j8796093022645_3_alg».proof.Proof.Gen.KernelIdeal.Regions
import Idealize.ShloMosaic.Lib.Pipeline.RegionsLoop
import Idealize.ShloMosaic.Lib.Pipeline.FrameSuffix

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## What the regions leave -/

/-- The launch contents, read at the TensorCore's references: what region 0 is entered with. -/
abbrev Vin0 : (c : Dev nD) → (b : Ref sig .tc) → Buf (Elt Ideal) ((c : Thread nD τ).loc b) := fun c b => Gen.V0 m c b

/-- Region 0's arrays after its write-backs, every other buffer as launched. -/
def outsA : Gen.Outs (F := Ideal) := fun _ r c =>
  Pipeline.withArrays spec0 c (Gen.V0 m c) (fun w => (dat0 (Vin0 m) c).arrAt w cfg0.N) (Proc.devRef .tc r)

/-- What region 1 is entered with: the host stretches applied to that. -/
abbrev Vin4 : (c : Dev nD) → (b : Ref sig .tc) → Buf (Elt Ideal) ((c : Thread nD τ).loc b) := fun c b => Gen.V4 m (outsA m) c b

/-- The contents the two regions leave in the buffers they may change. -/
def outs : Gen.Outs (F := Ideal) := fun j r c =>
  if j = 5 then Pipeline.withArrays spec1 c (Gen.V4 m (outsA m) c) (fun w => (dat1 (Vin4 m) c).arrAt w cfg1.N) (Proc.devRef .tc r)
  else outsA m j r c

theorem outs_1 (c : Dev nD) : outs m 1 main_v0 c = (dat0 (Vin0 m) c).arrAt 2 cfg0.N := by
  unfold outs
  rw [if_neg (by decide)]
  unfold outsA
  exact Pipeline.withArrays_arr spec0 launch0.win.arr_inj c _ _ (2 : Fin 3)

theorem V4_outs (c : Dev nD) : Gen.V4 m (outs m) c = Gen.V4 m (outsA m) c := by
  have h : outs m 1 main_v0 c = outsA m 1 main_v0 c := by
    unfold outs
    rw [if_neg (by decide)]
  show StableHlo.after hostOps1_2 (StableHlo.after hostOps1_1 (StableHlo.after hostOps1
      (Function.update (Gen.V0 m c) main_v0 (outs m 1 main_v0 c)))) = _
  rw [h]

theorem outs_5 (c : Dev nD) : outs m 5 main_v6 c = (dat1 (fun c b => Gen.V4 m (outs m) c b) c).arrAt 2 cfg1.N := by
  have hV : (fun (c : Dev nD) (b : Ref sig .tc) => Gen.V4 m (outs m) c b) = Vin4 m :=
    funext fun c' => funext fun b => congrFun (V4_outs m c') b
  rw [hV]
  unfold outs
  rw [if_pos rfl]
  exact Pipeline.withArrays_arr spec1 launch1.win.arr_inj c _ _ (2 : Fin 3)

/-! ## What rides beside the buffers -/

/-- No core owes another anything: no pair has a level. -/
abbrev Lf : GSem nD τ sig → Finset Unit := fun _ => ∅
abbrev lvf : GSem nD τ sig → Unit → ℕ := fun _ _ => 0

/-- Beside its unscoped buffers a core keeps, between any two items, its generator register at some state and the
    fact that it owes nothing. -/
abbrev R (c : Dev nD) : sProp 𝕄 :=
  iprop((∃ r, prngReg c r) ∗ ∃ W, owes (c : Thread nD τ) (0 : CellTallies nD τ sig Unit) W)

/-- The same rest at every boundary. -/
abbrev Ef : Fin 3 → Dev nD → sProp 𝕄 := fun _ c => R c

/-- The proof data of the two pipelines, each at the contents its region is entered with. -/
def pdats : (p : Fin 2) → (c : Dev nD) → Dat τ (Elt Ideal) Unit ℕ (UR sig nD τ) ℕ (Pipeline.pin (pcfgs (F := Ideal)) Gen.adm p) c
  | ⟨0, _⟩ => fun c => dat0 (Vin0 m) c
  | ⟨1, _⟩ => fun c => dat1 (fun c b => Gen.V4 m (outs m) c b) c

section Owes

variable {cfg : Cfg sig Λ₀} {c : Dev nD} (dat : Dat τ (Elt Ideal) Unit ℕ (UR sig nD τ) ℕ cfg c)

/-- A core that owes nothing owes the proof data's tallies before a point where these are none, when the data put no
    bound on the pairs recorded so far. -/
theorem owesAt_of_owes (t : Fin (cfg.N + 1)) (h0 : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin
  rw [h0]
  iintro ⟨%W, HO⟩
  iexists W
  isplitr
  · ipureintro
    intro x _
    exact Or.inl (hr ▸ trivial)
  · iexact HO

/-- And back: the tallies before a point where they are none say the core owes nothing. -/
theorem owes_of_owesAt (t : Fin (cfg.N + 1)) (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, HO⟩
  iexists W
  iexact HO

end Owes

/-! ## The contents at the regions' exits -/

/-- Region 0's arrays at its exit are the next valuation's: the two inputs as launched (no write-back touches an input
    and they are not the result), the result by `outs_1`. -/
theorem hF0 (c : Dev nD) : ∀ w : Fin 3, (pdats m 0 c).arrAt w cfg0.N = Gen.V1 m (outs m) c (Pipeline.arrRef spec0 w)
  | 0 => ((dat0 (Vin0 m) c).arrAt_in 0 rfl _).trans (Gen.V1_of m (outs m) c main_arg3 (by decide)).symm
  | 1 => ((dat0 (Vin0 m) c).arrAt_in 1 rfl _).trans (Gen.V1_of m (outs m) c main_arg1 (by decide)).symm
  | 2 => (outs_1 m c).symm.trans
      (Function.update_self (Proc.devRef .tc main_v0 : DevRef τ sig) (outs m 1 main_v0 c) (Gen.V0 m c)).symm
  | ⟨_ + 3, h⟩ => absurd h (Nat.not_lt.2 (Nat.le_add_left _ _))

/-- Off region 0's arrays nothing changes. -/
theorem hrest0 (c : Dev nD) (b : Ref sig .tc) (hb : b ∉ Finset.univ.image (Pipeline.arrRef spec0)) :
    Gen.V1 m (outs m) c b = Vin0 m c b :=
  Gen.V1_of m (outs m) c b fun h =>
    hb (Finset.mem_image.mpr ⟨(2 : Fin 3), Finset.mem_univ _, (List.mem_singleton.mp h).symm⟩)

/-- Region 1's arrays at its exit: the gathered scores and the path words as entered, the encodings by `outs_5`. -/
theorem hF1 (c : Dev nD) : ∀ w : Fin 3, (pdats m 1 c).arrAt w cfg1.N = Gen.V5 m (outs m) c (Pipeline.arrRef spec1 w)
  | 0 => ((dat1 (fun c b => Gen.V4 m (outs m) c b) c).arrAt_in 0 rfl _).trans (Gen.V5_of m (outs m) c main_v5 (by decide)).symm
  | 1 => ((dat1 (fun c b => Gen.V4 m (outs m) c b) c).arrAt_in 1 rfl _).trans (Gen.V5_of m (outs m) c main_v1 (by decide)).symm
  | 2 => (outs_5 m c).symm.trans
      (Function.update_self (Proc.devRef .tc main_v6 : DevRef τ sig) (outs m 5 main_v6 c) (Gen.V4 m (outs m) c)).symm
  | ⟨_ + 3, h⟩ => absurd h (Nat.not_lt.2 (Nat.le_add_left _ _))

/-- Off region 1's arrays nothing changes. -/
theorem hrest1 (c : Dev nD) (b : Ref sig .tc) (hb : b ∉ Finset.univ.image (Pipeline.arrRef spec1)) :
    Gen.V5 m (outs m) c b = Gen.V4 m (outs m) c b :=
  Gen.V5_of m (outs m) c b fun h =>
    hb (Finset.mem_image.mpr ⟨(2 : Fin 3), Finset.mem_univ _, (List.mem_singleton.mp h).symm⟩)

/-! ## The regions as segments -/

/-- A valuation held over the TensorCore's unscoped references is the core's unscoped buffers at it. -/
theorem held_eq_unscopedBufs (c : Dev nD) (Wv : Valuation τ sig (Elt Ideal)) :
    (StableHlo.held (c : Thread nD τ) (Pipeline.ucRefs τ sig) Wv : sProp 𝕄)
      = unscopedBufs (Ix := Unit) (Name := ℕ) (U := UR sig nD τ) (Lvl := ℕ) c (fun b => Wv b) :=
  (Pipeline.unscopedBufs_held c Wv).symm

/-- A pipeline without prefetched tables holds none. -/
theorem prefHeld_none (p : Fin 2) (c : Dev nD) :
    (BI.emp : sProp 𝕄) ⊢ Pipeline.prefHeld (pcfgs (F := Ideal) p).pre c (fun _ => fullShare) (Gen.adm p).1 := by
  unfold Pipeline.prefHeld
  match p with
  | ⟨0, _⟩ => rw [show (Finset.univ : Finset (Fin 0)) = ∅ from rfl, BI.bigSep_empty]
  | ⟨1, _⟩ => rw [show (Finset.univ : Finset (Fin 0)) = ∅ from rfl, BI.bigSep_empty]

set_option backward.isDefEq.respectTransparency.types false in
/-- Region 0 between the launch valuation and the next: at its entry the three arrays are split off the unscoped buffers,
    the generator register goes into the invariant, the rest bypasses; at its exit the arrays come back at the
    valuation updated at the result. -/
def reg0 : Pipeline.RegionSeg (pcfgs (F := Ideal)) Gen.adm (pdats m) () defs₀ Variants.none Lf lvf 0 where
  win := launch0.win.to₀
  block_pos := launch0.block_pos
  stage_whole := launch0.stage_whole
  K := PEmpty
  osem k := k.elim
  ho := Pipeline.OwnSemFacts.none _
  hbody c := body_obligation0 (Vin0 m) c
  hwaits := Pipeline.hwaits_of_owed_zero _ _ _ _ Lf lvf 0 fun _ _ => rfl
  pre c := iprop(StableHlo.held (c : Thread nD τ) (Pipeline.ucRefs τ sig) (Gen.V0 m c) ∗ R c)
  post c := iprop(StableHlo.held (c : Thread nD τ) (Pipeline.ucRefs τ sig) (Gen.V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    have hsplit := Pipeline.arrays_of_unscopedBufs (p := 0) (pcfgs (F := Ideal)) Gen.adm (pdats m) launch0.win launch0.arr_whole c
      ((pdats m 0 c).share_full fun _ => rfl) (Vin0 m c) fun _ => rfl
    rw [held_eq_unscopedBufs c (Gen.V0 m c)]
    iintro ⟨⟨Hbufs, Hgen, Howes⟩, -, -⟩
    imodintro
    ihave Hsp := hsplit $$ Hbufs
    icases Hsp with ⟨Harr, Hby⟩
    isplitl [Harr]; · iexact Harr
    isplitr; · iapply (prefHeld_none 0 c); iempintro
    isplitl [Howes]; · iapply (owesAt_of_owes (pdats m 0 c) 0 rfl rfl); iexact Howes
    isplitl [Hgen]; · iexact Hgen
    iexact Hby
  hin c := by
    rw [show (pdats m 0 c).Φ 0 = Pipeline.ΦA spec0 c from rfl]
    unfold Pipeline.ΦA
    iintro ⟨Hgen, -, Hsc⟩
    isplitl [Hsc]; · iexact Hsc
    iexact Hgen
  hout c := by
    rw [Pipeline.ownSems0_none, show (pdats m 0 c).Φ (Fin.last _) = Pipeline.ΦA spec0 c from rfl]
    unfold Pipeline.ΦA
    iintro ⟨Hsc, Hgen⟩
    isplitl [Hgen]; · iexact Hgen
    isplitr; · iempintro
    iexact Hsc
  hexit c := by
    have hjoin := Pipeline.unscopedBufs_of_arrays (p := 0) (pcfgs (F := Ideal)) Gen.adm (Ix := Unit) (Name := ℕ) (U := UR sig nD τ) (Lvl := ℕ)
      launch0.win launch0.arr_whole c (pdats m) ((pdats m 0 c).share_full fun _ => rfl)
      (Vin0 m c) (fun b => Gen.V1 m (outs m) c b) ((pdats m 0 c).arrAt · cfg0.N) (hF0 m c) (hrest0 m c)
    rw [held_eq_unscopedBufs c (Gen.V1 m (outs m) c)]
    iintro ⟨Harr, Howes, Hgen, Hby⟩
    imodintro
    isplitl [Harr Hby]
    · iapply hjoin; isplitl [Harr]; · iexact Harr
      iexact Hby
    isplitl [Hgen]; · iexact Hgen
    iapply (owes_of_owesAt (pdats m 0 c) (Fin.last _) rfl); iexact Howes

set_option backward.isDefEq.respectTransparency.types false in
/-- Region 1 between the valuation after the three host stretches and the next: the same protocol over its own three
    arrays (the gathered scores, the path words, the encodings). -/
def reg1 : Pipeline.RegionSeg (pcfgs (F := Ideal)) Gen.adm (pdats m) () defs₀ Variants.none Lf lvf 1 where
  win := launch1.win.to₀
  block_pos := launch1.block_pos
  stage_whole := launch1.stage_whole
  K := PEmpty
  osem k := k.elim
  ho := Pipeline.OwnSemFacts.none _
  hbody c := body_obligation1 (fun c b => Gen.V4 m (outs m) c b) c
  hwaits := Pipeline.hwaits_of_owed_zero _ _ _ _ Lf lvf 1 fun _ _ => rfl
  pre c := iprop(StableHlo.held (c : Thread nD τ) (Pipeline.ucRefs τ sig) (Gen.V4 m (outs m) c) ∗ R c)
  post c := iprop(StableHlo.held (c : Thread nD τ) (Pipeline.ucRefs τ sig) (Gen.V5 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => Gen.V4 m (outs m) c b)
  hentry c := by
    have hsplit := Pipeline.arrays_of_unscopedBufs (p := 1) (pcfgs (F := Ideal)) Gen.adm (pdats m) launch1.win launch1.arr_whole c
      ((pdats m 1 c).share_full fun _ => rfl) (fun b => Gen.V4 m (outs m) c b) fun _ => rfl
    rw [held_eq_unscopedBufs c (Gen.V4 m (outs m) c)]
    iintro ⟨⟨Hbufs, Hgen, Howes⟩, -, -⟩
    imodintro
    ihave Hsp := hsplit $$ Hbufs
    icases Hsp with ⟨Harr, Hby⟩
    isplitl [Harr]; · iexact Harr
    isplitr; · iapply (prefHeld_none 1 c); iempintro
    isplitl [Howes]; · iapply (owesAt_of_owes (pdats m 1 c) 0 rfl rfl); iexact Howes
    isplitl [Hgen]; · iexact Hgen
    iexact Hby
  hin c := by
    rw [show (pdats m 1 c).Φ 0 = Pipeline.ΦA spec1 c from rfl]
    unfold Pipeline.ΦA
    iintro ⟨Hgen, -, Hsc⟩
    isplitl [Hsc]; · iexact Hsc
    iexact Hgen
  hout c := by
    rw [Pipeline.ownSems0_none, show (pdats m 1 c).Φ (Fin.last _) = Pipeline.ΦA spec1 c from rfl]
    unfold Pipeline.ΦA
    iintro ⟨Hsc, Hgen⟩
    isplitl [Hgen]; · iexact Hgen
    isplitr; · iempintro
    iexact Hsc
  hexit c := by
    have hjoin := Pipeline.unscopedBufs_of_arrays (p := 1) (pcfgs (F := Ideal)) Gen.adm (Ix := Unit) (Name := ℕ) (U := UR sig nD τ) (Lvl := ℕ)
      launch1.win launch1.arr_whole c (pdats m) ((pdats m 1 c).share_full fun _ => rfl)
      (fun b => Gen.V4 m (outs m) c b) (fun b => Gen.V5 m (outs m) c b) ((pdats m 1 c).arrAt · cfg1.N) (hF1 m c) (hrest1 m c)
    rw [held_eq_unscopedBufs c (Gen.V5 m (outs m) c)]
    iintro ⟨Harr, Howes, Hgen, Hby⟩
    imodintro
    isplitl [Harr Hby]
    · iapply hjoin; isplitl [Harr]; · iexact Harr
      iexact Hby
    isplitl [Hgen]; · iexact Hgen
    iapply (owes_of_owesAt (pdats m 1 c) (Fin.last _) rfl); iexact Howes

/-- The rest gives up the generator register and says the core owes nothing. -/
theorem R_owes (c : Dev nD) :
    R c ⊢ (iprop(∃ W, owes (c : Thread nD τ) (0 : CellTallies nD τ sig Unit) W) : sProp 𝕄) := by
  iintro ⟨-, Howes⟩
  iexact Howes

/-- An unscoped reference of the TensorCore is among those the thread state holds. -/
theorem mem_ucRefs (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

set_option backward.isDefEq.respectTransparency.types false in
/-- The run: every weakly fair execution terminates, the result buffer holds the last valuation's contents and the arguments
    are as launched. -/
theorem run_value : θ_run defs (onTc (τ := τ) (main (F := Ideal))) ⟨m, fun _ => 0, ρ⟩ (fun r => ∀ c : Dev nD,
      r.2.mem ((c.tc : Thread nD τ).loc main_v7) = Gen.V6 m (outs m) c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := Ideal)) Gen.adm (pdats m) () cellOf_inj emb₁ defs₀ Variants.none Lf lvf m ρ main
    (Gen.segs m (outs m) Variants.none Lf lvf Ef () (pdats m) (reg0 m) (reg1 m))
    (fun c Q => by
      rewrite [main_chain c, Pipeline.Seg.run_eq_chain,
        show (Gen.segs m (outs m) Variants.none Lf lvf Ef () (pdats m) (reg0 m) (reg1 m) c).map Pipeline.Seg.prog = [
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (Gen.V0 m c) ∗ R c))
    (Tₙ := fun c => StableHlo.held (c : Thread nD τ) (Pipeline.ucRefs τ sig) (Gen.V6 m (outs m) c))
    (hch := fun c => ⟨.rfl, .rfl, .rfl, .rfl, .rfl, .rfl, sep_mono .rfl (R_owes c)⟩)
    (hinit := ?_)
    (QY := fun c s => s.mem ((c.tc : Thread nD τ).loc main_v7) = Gen.V6 m (outs m) c main_v7
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
    (hfin := fun c s' => ?_) (hQ := fun _ h => h)
  · -- the launch element is the pipelines' own; no core is dealt a ghost resource
    have hnone : (BI.emp : sProp 𝕄) ⊢ bigSep Finset.univ (fun _ : Dev nD => (BI.emp : sProp 𝕄)) := by
      rw [BI.bigSep_emp_const]
    iintro Hu
    imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    · iapply hnone; iempintro
  · -- the launch, core by core: the unscoped buffers are held at the launch valuation, the register and the
    -- empty dues make the rest
    refine Pipeline.initEach Lf lvf fun c => ?_
    rw [show unscopedBufs c (fun b => m ((c : Thread nD τ).loc b))
        = StableHlo.held (c : Thread nD τ) (Pipeline.ucRefs τ sig) (Gen.V0 m c) from Pipeline.unscopedBufs_held c (Gen.V0 m c)]
    iintro ⟨⟨Hbufs, -, Howes, -, Hgen, -⟩, -⟩
    imodintro
    isplitl [Hbufs]; · iexact Hbufs
    isplitl [Hgen]; · iexists _; iexact Hgen
    iexists ∅; iexact Howes
  · -- the end: the result and each argument read off the last valuation
    unfold StableHlo.held
    iintro ⟨Hh, HSI⟩
    ihave Hr := (pointsTo_read_all (Pipeline.ucRefs τ sig) (fun b => ((c : Thread nD τ).1, b)) (Gen.V6 m (outs m) c) s') $$ [Hh HSI]
    · isplitl [Hh] <;> iassumption
    icases Hr with ⟨%h, HSI⟩
    imodintro
    isplitr
    · ipureintro
      exact ⟨h (Proc.devRef .tc main_v7) (mem_ucRefs main_v7 (by decide)),
        (h (Proc.devRef .tc main_arg0) (mem_ucRefs main_arg0 (by decide))).trans (Gen.V6_main_arg0 m (outs m) c),
        (h (Proc.devRef .tc main_arg1) (mem_ucRefs main_arg1 (by decide))).trans (Gen.V6_main_arg1 m (outs m) c),
        (h (Proc.devRef .tc main_arg2) (mem_ucRefs main_arg2 (by decide))).trans (Gen.V6_main_arg2 m (outs m) c),
        (h (Proc.devRef .tc main_arg3) (mem_ucRefs main_arg3 (by decide))).trans (Gen.V6_main_arg3 m (outs m) c)⟩
    · iexact HSI

end Cert.KernelIdeal.Hand

end
-- ==== Proof.KiGather.lean ====
/-
  The gather that reads the score table, at an index.

  The table is 5 x 500000 and the start indices are 5 x 1000000 x 1. Axis 0 of both is a batching axis; the
  table's axis 1 is collapsed and is the one the start index names; the index vector sits on axis 2 of the start
  indices and has one component; both slice sizes are 1. So the result at (d, q) is the table's row d at the
  column the start index at (d, q, 0) names: the word read as a signed integer and clamped into 0 .. 499999.
-/
import proofs.«410757_j8796093022645_3_alg».proof.Proof.Gen.KernelIdeal
import Idealize.ShloMosaic.Lib.ValueIdx
import Idealize.ShloMosaic.PureOps.Ideal

noncomputable section

namespace Cert.KernelIdeal.Hand

open Cert.KernelIdeal Cert.KernelIdeal.Gen Idealize.ShloMosaic Idealize.ShloMosaic.ValueIdx

/-- The gather at (d, q) reads the table at row d and at the column the start index at (d, q, 0) names, read signed
    and clamped into the table. -/
theorem take_gather_apply {e : EltTy} (tbl : (⟨S5x500000, e⟩ : BufTy).Contents (Elt Ideal))
    (idx : (⟨S5x1000000x1, .i32⟩ : BufTy).Contents (Elt Ideal)) (d : Fin 5) (q : Fin 1000000) :
    Host.gather gather_S5x500000_S5x1000000x1_S5x1000000_n_1_0_0_1_2_11 tbl idx (ValueIdx.ix2 d q)
      = tbl (ValueIdx.ix2 d (⟨min (idx (ValueIdx.ix3 d q (0 : Fin 1))).toInt.toNat 499999, by omega⟩ : Fin 500000)) := by
  unfold Host.gather
  refine congrArg tbl (funext fun a => Fin.ext ?_)
  match a with
  | ⟨0, _⟩ =>
    -- the batching axis: no start, no offset, the result's row
    show gather_S5x500000_S5x1000000x1_S5x1000000_n_1_0_0_1_2_11.start (ix2 d q) idx 0
        + gather_S5x500000_S5x1000000x1_S5x1000000_n_1_0_0_1_2_11.batchCoord (ix2 d q) 0
        + gather_S5x500000_S5x1000000x1_S5x1000000_n_1_0_0_1_2_11.offCoord (ix2 d q) 0 = d.val
    rw [GatherDims.start_batching _ _ _ _ (show (0 : Fin S5x500000.rank) ∈ gather_S5x500000_S5x1000000x1_S5x1000000_n_1_0_0_1_2_11.operandBatchingDims by decide),
      GatherDims.offCoord_eq_zero _ _ _ (fun h => ((GatherDims.mem_sKept _ _).mp h).2 (by decide))]
    simp only [Nat.zero_add, Nat.add_zero]
    unfold GatherDims.batchCoord
    rw [dif_pos (show (0 : Fin S5x500000.rank) ∈ gather_S5x500000_S5x1000000x1_S5x1000000_n_1_0_0_1_2_11.operandBatchingDims by decide)]
    rfl
  | ⟨1, _⟩ =>
    -- the collapsed axis: the clamped start, no batching coordinate, no offset
    show gather_S5x500000_S5x1000000x1_S5x1000000_n_1_0_0_1_2_11.start (ix2 d q) idx 1
        + gather_S5x500000_S5x1000000x1_S5x1000000_n_1_0_0_1_2_11.batchCoord (ix2 d q) 1
        + gather_S5x500000_S5x1000000x1_S5x1000000_n_1_0_0_1_2_11.offCoord (ix2 d q) 1
      = min (idx (ix3 d q (0 : Fin 1))).toInt.toNat 499999
    rw [GatherDims.batchCoord_eq_zero _ _ _ (show (1 : Fin S5x500000.rank) ∉ gather_S5x500000_S5x1000000x1_S5x1000000_n_1_0_0_1_2_11.operandBatchingDims by decide),
      GatherDims.offCoord_eq_zero _ _ _ (fun h => ((GatherDims.mem_sKept _ _).mp h).1 (by decide))]
    simp only [Nat.add_zero]
    unfold GatherDims.start
    rw [dif_pos (show (1 : Fin S5x500000.rank) ∈ gather_S5x500000_S5x1000000x1_S5x1000000_n_1_0_0_1_2_11.startIndexMap by decide)]
    have hsi : gather_S5x500000_S5x1000000x1_S5x1000000_n_1_0_0_1_2_11.siIdx (ix2 d q)
        ⟨List.idxOf (1 : Fin S5x500000.rank) gather_S5x500000_S5x1000000x1_S5x1000000_n_1_0_0_1_2_11.startIndexMap,
          List.idxOf_lt_length_iff.2 (by decide)⟩ = ix3 d q (0 : Fin 1) := by
      funext b; refine Fin.ext ?_
      match b with
      | ⟨0, _⟩ => rfl
      | ⟨1, _⟩ => rfl
      | ⟨2, _⟩ => rfl
    rw [hsi]
    rfl

end Cert.KernelIdeal.Hand

end
-- ==== Proof.KiWords.lean ====
/-
  The two index selects of the wrapper, on one path word.

  Before the gather the wrapper replaces a missing hop's word, -1, by 0, and then adds 500000 to a negative word, so
  that it counts rows from the table's end. Each step is a select on a comparison; on one word the two steps are the
  specification's safe word and normalised word, and the word the gather reads signed and clamps into the table is
  the row the specification gives the path word.
-/
import Idealize.ShloMosaic.PureOps.Ideal
import proofs.«410757_j8796093022645_3_alg».proof.Proof.Spec

noncomputable section

namespace Cert.KernelIdeal.Hand

open Idealize.ShloMosaic

/-! ## The two index selects, on one word -/

/-- A missing hop's word, -1, is replaced by 0: the select on "the word is not -1" is the safe word. -/
theorem safe_word (w : BitVec 32) :
    Scalar.select (IntOp.cmpi .ne w 4294967295#32) w 0#32 = Cert.Spec.safeW w := by
  unfold Cert.Spec.safeW Cert.Spec.pad
  show (if BitVec.ofBool (w != 4294967295#32) = 1#1 then w else 0#32) = _
  by_cases h : w = 4294967295#32
  · rw [if_pos h, h]; rfl
  · have hb : (w != 4294967295#32) = true := by simpa [bne_iff_ne] using h
    rw [if_neg h, hb]; rfl

/-- A negative word counts rows from the table's end: the select on "the word is below 0" adds 500000 to it. -/
theorem norm_word (v : BitVec 32) :
    Scalar.select (IntOp.cmpi .slt v 0#32) (IntOp.addi v 500000#32) v = Cert.Spec.normW v := by
  unfold Cert.Spec.normW
  show (if BitVec.ofBool (v.slt 0#32) = 1#1 then v + 500000#32 else v) = _
  cases hb : v.slt 0#32
  · rw [if_neg (by simp)]; rfl
  · rw [if_pos rfl]; rfl

/-- The two selects in turn: the word the gather's start index holds for the path word w. -/
theorem row_word (w : BitVec 32) :
    Scalar.select (IntOp.cmpi .slt (Scalar.select (IntOp.cmpi .ne w 4294967295#32) w 0#32) 0#32)
        (IntOp.addi (Scalar.select (IntOp.cmpi .ne w 4294967295#32) w 0#32) 500000#32)
        (Scalar.select (IntOp.cmpi .ne w 4294967295#32) w 0#32)
      = Cert.Spec.normW (Cert.Spec.safeW w) := by
  rw [safe_word, norm_word]

/-- Read signed and clamped into the table, that word is the row the path word reads. -/
theorem rowOf_val (w : BitVec 32) :
    min (Cert.Spec.normW (Cert.Spec.safeW w)).toInt.toNat 499999 = (Cert.Spec.rowOf w).val := rfl

/-- The same as an index of the table's columns. -/
theorem rowOf_eq (w : BitVec 32) :
    (⟨min (Cert.Spec.normW (Cert.Spec.safeW w)).toInt.toNat 499999, by omega⟩ : Fin 500000) = Cert.Spec.rowOf w := rfl

end Cert.KernelIdeal.Hand

end
-- ==== Proof.KiTable.lean ====
/-
  What the two buffers the second region reads hold when it is entered, read at an index.

  Region 0 writes the score table transposed, 32768 columns per grid point: point t writes back columns
  32768 t .. of the product of edge_vector with its rows of edge_embedding, cut at the table's end at the last point
  (column 32768 * 15 + e is inside the table only for e < 8480). Every block is the same whole-array function read
  through the block — entry (d, e) is the inner product of edge_vector's row d with edge_embedding's row e — and
  column e lies in point e / 32768's block, so after the region the table is that function.

  The operations between the two regions transpose the path words, replace the word -1 by 0, add 500000 to a
  negative word, and gather the table along its columns at the resulting words, read signed and clamped to the
  table: at hop d of path q that is the table's entry at row d and at the column the specification gives the path
  word.
-/
import proofs.«410757_j8796093022645_3_alg».proof.Proof.KiDat
import proofs.«410757_j8796093022645_3_alg».proof.Proof.KiPay
import proofs.«410757_j8796093022645_3_alg».proof.Proof.KiGather
import proofs.«410757_j8796093022645_3_alg».proof.Proof.KiWords
import proofs.«410757_j8796093022645_3_alg».proof.Proof.Spec
import proofs.«410757_j8796093022645_3_alg».proof.Proof.Gen.KernelIdeal.Regions
import Idealize.ShloMosaic.Lib.Pipeline.Value
import Idealize.ShloMosaic.Lib.ValueIdx
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ)

abbrev evOf (c : Dev nD) : Fin 5 → Fin 64 → EReal := fun d k => m ((c.tc : Thread nD τ).loc main_arg3) (ValueIdx.ix2 d k)
abbrev eeOf (c : Dev nD) : Fin 500000 → Fin 64 → EReal := fun e k => m ((c.tc : Thread nD τ).loc main_arg1) (ValueIdx.ix2 e k)
abbrev pathsOf (c : Dev nD) : Fin 1000000 → Fin 5 → BitVec 32 := fun q d => m ((c.tc : Thread nD τ).loc main_arg2) (ValueIdx.ix2 q d)

/-! ## The host stretches, one at a time, over any contents W

Each stretch's results at the buffers the next steps read, as the operations' terms over W; the buffers a stretch
does not write keep W's contents. -/

section Host
variable (W : Valuation τ sig (Elt Ideal))

/-- The first stretch writes the path words transposed into main_v1, -/
theorem h1_v1 : (StableHlo.after (Gen.hostOps1 (F := Ideal)) W (Proc.devRef .tc main_v1) : S5x1000000.Idx → BitVec 32)
    = transpose S5x1000000 [1, 0] (W (Proc.devRef .tc main_arg2) : S1000000x5.Idx → BitVec 32) transposes_S1000000x5_S5x1000000_1_0 := by
  simp only [Gen.hostOps1]; after_results <;> rfl

/-- "the word is not -1" into main_v3, -/
theorem h1_v3 : (StableHlo.after (Gen.hostOps1 (F := Ideal)) W (Proc.devRef .tc main_v3) : S5x1000000.Idx → BitVec 1)
    = cmpi .ne (transpose S5x1000000 [1, 0] (W (Proc.devRef .tc main_arg2) : S1000000x5.Idx → BitVec 32) transposes_S1000000x5_S5x1000000_1_0)
        (broadcastInDim S5x1000000 ![] bcast_S_S5x1000000 (constantI S_ 32 4294967295#32)) := by
  simp only [Gen.hostOps1]; after_results <;> rfl

/-- the word 0 into main_c_0, -/
theorem h1_c0 : (StableHlo.after (Gen.hostOps1 (F := Ideal)) W (Proc.devRef .tc main_c_0) : S_.Idx → BitVec 32)
    = constantI S_ 32 0#32 := by
  simp only [Gen.hostOps1]; after_results <;> rfl

/-- and leaves the score table. -/
theorem h1_v0 : (StableHlo.after (Gen.hostOps1 (F := Ideal)) W (Proc.devRef .tc main_v0) : S5x500000.Idx → EReal)
    = W (Proc.devRef .tc main_v0) := by
  simp only [Gen.hostOps1]; after_results <;> rfl

/-- The second stretch selects the word, or 0 where it is -1, into main_v4, -/
theorem h11_v4 : (StableHlo.after (Gen.hostOps1_1 (F := Ideal)) W (Proc.devRef .tc main_v4) : S5x1000000.Idx → BitVec 32)
    = select (W (Proc.devRef .tc main_v3) : S5x1000000.Idx → BitVec 1) (W (Proc.devRef .tc main_v1) : S5x1000000.Idx → BitVec 32)
        (broadcastInDim S5x1000000 ![] bcast_S_S5x1000000 (W (Proc.devRef .tc main_c_0) : S_.Idx → BitVec 32)) := by
  simp only [Gen.hostOps1_1]; after_results <;> rfl

/-- and leaves the transposed words -/
theorem h11_v1 : (StableHlo.after (Gen.hostOps1_1 (F := Ideal)) W (Proc.devRef .tc main_v1) : S5x1000000.Idx → BitVec 32)
    = W (Proc.devRef .tc main_v1) := by
  simp only [Gen.hostOps1_1]; after_results <;> rfl

/-- and the score table. -/
theorem h11_v0 : (StableHlo.after (Gen.hostOps1_1 (F := Ideal)) W (Proc.devRef .tc main_v0) : S5x500000.Idx → EReal)
    = W (Proc.devRef .tc main_v0) := by
  simp only [Gen.hostOps1_1]; after_results <;> rfl

/-- The third stretch leaves the transposed words, -/
theorem h12_v1 : (StableHlo.after (Gen.hostOps1_2 (F := Ideal)) W (Proc.devRef .tc main_v1) : S5x1000000.Idx → BitVec 32)
    = W (Proc.devRef .tc main_v1) := by
  simp only [Gen.hostOps1_2]; after_results <;> rfl

/-- and gathers the score table along its columns into main_v5, at the words of main_v4 with 500000 added to the
    negative ones. -/
theorem h12_v5 : (StableHlo.after (Gen.hostOps1_2 (F := Ideal)) W (Proc.devRef .tc main_v5) : S5x1000000.Idx → EReal)
    = Host.gather gather_S5x500000_S5x1000000x1_S5x1000000_n_1_0_0_1_2_11 (W (Proc.devRef .tc main_v0) : S5x500000.Idx → EReal)
        (shapeCast S5x1000000x1
          (select (cmpi .slt (W (Proc.devRef .tc main_v4) : S5x1000000.Idx → BitVec 32) (broadcastInDim S5x1000000 ![] bcast_S_S5x1000000 (constantI S_ 32 0#32)))
            (addi (W (Proc.devRef .tc main_v4) : S5x1000000.Idx → BitVec 32) (broadcastInDim S5x1000000 ![] bcast_S_S5x1000000 (constantI S_ 32 500000#32)))
            (W (Proc.devRef .tc main_v4) : S5x1000000.Idx → BitVec 32))
          shapeCasts_S5x1000000_S5x1000000x1) := by
  simp only [Gen.hostOps1_2]; after_results <;> rfl

end Host

/-! ## The buffers at an index -/

/-- When region 1 is entered main_v1 holds the path words transposed, whatever region 0 left in the table. -/
theorem v4_paths_any (outs : Gen.Outs (F := Ideal)) (c : Dev nD) (d : Fin 5) (q : Fin 1000000) :
    Gen.V4 m outs c main_v1 (ValueIdx.ix2 d q) = pathsOf m c q d := by
  show StableHlo.after (Gen.hostOps1_2 (F := Ideal)) (Gen.V3 m outs c) (Proc.devRef .tc main_v1) (ValueIdx.ix2 d q) = _
  refine (congrFun (h12_v1 (Gen.V3 m outs c)) _).trans ?_
  show StableHlo.after (Gen.hostOps1_1 (F := Ideal)) (Gen.V2 m outs c) (Proc.devRef .tc main_v1) (ValueIdx.ix2 d q) = _
  refine (congrFun (h11_v1 (Gen.V2 m outs c)) _).trans ?_
  show StableHlo.after (Gen.hostOps1 (F := Ideal)) (Gen.V1 m outs c) (Proc.devRef .tc main_v1) (ValueIdx.ix2 d q) = _
  refine (congrFun (h1_v1 (Gen.V1 m outs c)) _).trans ?_
  refine (transpose_apply _ _ _ (ValueIdx.ix2 d q) (ValueIdx.ix2 q d) (fun b => match b with | ⟨0, _⟩ => rfl | ⟨1, _⟩ => rfl)).trans ?_
  rfl

/-- When region 1 is entered main_v5 holds, at hop d of path q, the entry of what region 0 left in the table at row d
    and at the column the path word selects. -/
theorem v4_gathered_of (outs : Gen.Outs (F := Ideal)) (c : Dev nD) (G : S5x500000.Idx → EReal)
    (h1 : (outs 1 main_v0 c : S5x500000.Idx → EReal) = G) (d : Fin 5) (q : Fin 1000000) :
    Gen.V4 m outs c main_v5 (ValueIdx.ix2 d q) = G (ValueIdx.ix2 d (Cert.Spec.rowOf (pathsOf m c q d))) := by
  show StableHlo.after (Gen.hostOps1_2 (F := Ideal)) (Gen.V3 m outs c) (Proc.devRef .tc main_v5) (ValueIdx.ix2 d q) = _
  refine (congrFun (h12_v5 (Gen.V3 m outs c)) _).trans ?_
  refine (take_gather_apply _ _ d q).trans ?_
  -- the table the gather reads is what region 0 left
  have hT : (Gen.V3 m outs c (Proc.devRef .tc main_v0) : S5x500000.Idx → EReal) = G := by
    show StableHlo.after (Gen.hostOps1_1 (F := Ideal)) (Gen.V2 m outs c) (Proc.devRef .tc main_v0) = _
    refine (h11_v0 (Gen.V2 m outs c)).trans ?_
    show StableHlo.after (Gen.hostOps1 (F := Ideal)) (Gen.V1 m outs c) (Proc.devRef .tc main_v0) = _
    refine (h1_v0 (Gen.V1 m outs c)).trans ?_
    show Function.update (Gen.V0 m c) (Proc.devRef .tc main_v0) (outs 1 main_v0 c) (Proc.devRef .tc main_v0) = _
    rw [Function.update_self]; exact h1
  rw [hT]
  -- the path word, as the first stretch's transpose reads it
  have e1 : (Gen.V2 m outs c (Proc.devRef .tc main_v1) : S5x1000000.Idx → BitVec 32) (ValueIdx.ix2 d q) = pathsOf m c q d := by
    show StableHlo.after (Gen.hostOps1 (F := Ideal)) (Gen.V1 m outs c) (Proc.devRef .tc main_v1) (ValueIdx.ix2 d q) = _
    refine (congrFun (h1_v1 (Gen.V1 m outs c)) _).trans ?_
    refine (transpose_apply _ _ _ (ValueIdx.ix2 d q) (ValueIdx.ix2 q d) (fun b => match b with | ⟨0, _⟩ => rfl | ⟨1, _⟩ => rfl)).trans ?_
    rfl
  -- "the word is not -1", at the same index
  have e3 : (Gen.V2 m outs c (Proc.devRef .tc main_v3) : S5x1000000.Idx → BitVec 1) (ValueIdx.ix2 d q)
      = IntOp.cmpi .ne (pathsOf m c q d) 4294967295#32 := by
    show StableHlo.after (Gen.hostOps1 (F := Ideal)) (Gen.V1 m outs c) (Proc.devRef .tc main_v3) (ValueIdx.ix2 d q) = _
    refine (congrFun (h1_v3 (Gen.V1 m outs c)) _).trans ?_
    show IntOp.cmpi .ne (transpose S5x1000000 [1, 0] _ transposes_S1000000x5_S5x1000000_1_0 (ValueIdx.ix2 d q)) _ = _
    refine congrArg (fun x => IntOp.cmpi .ne x 4294967295#32) ?_
    refine (transpose_apply _ _ _ (ValueIdx.ix2 d q) (ValueIdx.ix2 q d) (fun b => match b with | ⟨0, _⟩ => rfl | ⟨1, _⟩ => rfl)).trans ?_
    rfl
  have e0 : (Gen.V2 m outs c (Proc.devRef .tc main_c_0) : S_.Idx → BitVec 32) = constantI S_ 32 0#32 := by
    show StableHlo.after (Gen.hostOps1 (F := Ideal)) (Gen.V1 m outs c) (Proc.devRef .tc main_c_0) = _
    exact h1_c0 (Gen.V1 m outs c)
  -- the word with 0 for a missing hop
  have hv4 : (Gen.V3 m outs c (Proc.devRef .tc main_v4) : S5x1000000.Idx → BitVec 32) (ValueIdx.ix2 d q)
      = Scalar.select (IntOp.cmpi .ne (pathsOf m c q d) 4294967295#32) (pathsOf m c q d) 0#32 := by
    show StableHlo.after (Gen.hostOps1_1 (F := Ideal)) (Gen.V2 m outs c) (Proc.devRef .tc main_v4) (ValueIdx.ix2 d q) = _
    refine (congrFun (h11_v4 (Gen.V2 m outs c)) _).trans ?_
    rw [e0]
    show Scalar.select ((Gen.V2 m outs c (Proc.devRef .tc main_v3) : S5x1000000.Idx → BitVec 1) (ValueIdx.ix2 d q))
      ((Gen.V2 m outs c (Proc.devRef .tc main_v1) : S5x1000000.Idx → BitVec 32) (ValueIdx.ix2 d q)) 0#32 = _
    rw [e1, e3]
  -- the start index the gather reads
  have hw : shapeCast S5x1000000x1
      (select (cmpi .slt (Gen.V3 m outs c (Proc.devRef .tc main_v4) : S5x1000000.Idx → BitVec 32) (broadcastInDim S5x1000000 ![] bcast_S_S5x1000000 (constantI S_ 32 0#32)))
        (addi (Gen.V3 m outs c (Proc.devRef .tc main_v4) : S5x1000000.Idx → BitVec 32) (broadcastInDim S5x1000000 ![] bcast_S_S5x1000000 (constantI S_ 32 500000#32)))
        (Gen.V3 m outs c (Proc.devRef .tc main_v4) : S5x1000000.Idx → BitVec 32))
      shapeCasts_S5x1000000_S5x1000000x1 (ValueIdx.ix3 d q (0 : Fin 1))
      = Cert.Spec.normW (Cert.Spec.safeW (pathsOf m c q d)) := by
    refine (shapeCast_apply _ _ (ValueIdx.ix3 d q (0 : Fin 1)) (ValueIdx.ix2 d q) ?_).trans ?_
    · rw [Shape.rowMajor_val_two, Shape.rowMajor_val_three]
      show d.val * 1000000 + q.val = (d.val * 1000000 + q.val) * 1 + 0
      omega
    · show Scalar.select (IntOp.cmpi .slt ((Gen.V3 m outs c (Proc.devRef .tc main_v4) : S5x1000000.Idx → BitVec 32) (ValueIdx.ix2 d q)) 0#32)
        (IntOp.addi ((Gen.V3 m outs c (Proc.devRef .tc main_v4) : S5x1000000.Idx → BitVec 32) (ValueIdx.ix2 d q)) 500000#32)
        ((Gen.V3 m outs c (Proc.devRef .tc main_v4) : S5x1000000.Idx → BitVec 32) (ValueIdx.ix2 d q)) = _
      rw [hv4]
      exact row_word (pathsOf m c q d)
  -- read signed and clamped, it is the row the path word selects
  have key : ∀ (x : BitVec 32) (hx : x = Cert.Spec.normW (Cert.Spec.safeW (pathsOf m c q d))) (p : min x.toInt.toNat 499999 < 500000),
      G (ValueIdx.ix2 d (⟨min x.toInt.toNat 499999, p⟩ : Fin 500000)) = G (ValueIdx.ix2 d (Cert.Spec.rowOf (pathsOf m c q d))) := by
    intro x hx p; subst hx; rfl
  exact key _ hw _

section Table
variable (V : (c : Dev nD) → (b : Ref sig .tc) → Buf (Elt Ideal) ((c : Thread nD τ).loc b))

/-- The index maps and the cut sizes of region 0's three windows, decided once over the grid. -/
theorem idx_facts0 : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_1.xsize (grid0.coords t) (0 : Fin 2) = min 32768 (500000 - 32768 * t.val)
    ∧ win0_1.xsize (grid0.coords t) (1 : Fin 2) = 64
    ∧ win0_2.xsize (grid0.coords t) (0 : Fin 2) = 5
    ∧ win0_2.xsize (grid0.coords t) (1 : Fin 2) = min 32768 (500000 - 32768 * t.val)
    ∧ t.val < 16 :=
  (by decide +kernel : ∀ t : Fin grid0.N, _)

/-- edge_vector's block at any point is edge_vector. -/
theorem evblk_apply (c : Dev nD) (t : Fin cfg0.N) (d : Fin 5) (k : Fin 64) :
    evblk V c t (ValueIdx.ix2 d k) = V c main_arg3 (ValueIdx.ix2 d k) := by
  obtain ⟨e0, e1, -⟩ := idx_facts0 t
  show V c main_arg3 ((win0_0.blk t).view.emb (ValueIdx.ix2 d k)) = _
  refine congrArg (V c main_arg3) (funext fun a => Fin.ext ?_)
  match a with
  | ⟨0, _⟩ => show win0_0.index t (0 : Fin 2) * 5 + 1 * d.val = d.val; omega
  | ⟨1, _⟩ => show win0_0.index t (1 : Fin 2) * 64 + 1 * k.val = k.val; omega

/-- edge_embedding's block at point t, at a row inside the array, is edge_embedding's row 32768 t + e. -/
theorem eeblk_apply (c : Dev nD) (t : Fin cfg0.N) (e : Fin 32768) (k : Fin 64) (he : 32768 * t.val + e.val < 500000) :
    eeblk V c t (ValueIdx.ix2 e k) = V c main_arg1 (ValueIdx.ix2 (⟨32768 * t.val + e.val, he⟩ : Fin 500000) k) := by
  obtain ⟨-, -, e2, e3, -, -, x0, x1, -⟩ := idx_facts0 t
  have hm : win0_1.moved (grid0.coords t) (ValueIdx.ix2 e k) = true :=
    (win0_1.moved_iff (grid0.coords t) _).mpr fun a => match a with
      | ⟨0, _⟩ => by show e.val < win0_1.xsize (grid0.coords t) (0 : Fin 2); omega
      | ⟨1, _⟩ => by show k.val < win0_1.xsize (grid0.coords t) (1 : Fin 2); have := k.isLt; omega
  unfold eeblk Window.fill
  rw [dif_pos hm]
  show V c main_arg1 ((win0_1.blk t).view.emb _) = _
  refine congrArg (V c main_arg1) (funext fun a => Fin.ext ?_)
  match a with
  | ⟨0, _⟩ => show win0_1.index t (0 : Fin 2) * 32768 + 1 * e.val = 32768 * t.val + e.val; omega
  | ⟨1, _⟩ => show win0_1.index t (1 : Fin 2) * 64 + 1 * k.val = k.val; omega

/-- The score table as one function of the two arrays: entry (d, e) is the score of row e at hop d. -/
abbrev G0 (c : Dev nD) : S5x500000.Idx → EReal := fun i =>
  Cert.Spec.score (fun d k => V c main_arg3 (ValueIdx.ix2 d k)) (fun e k => V c main_arg1 (ValueIdx.ix2 e k))
    ⟨(i 0).val, ValueIdx.idx2_lt0 i⟩ ⟨(i 1).val, ValueIdx.idx2_lt1 i⟩

/-- What point t writes back is block t of the score table. -/
theorem flushed_eq0 (c : Dev nD) (t : Fin cfg0.N) :
    (dat0 V c).flushed 2 t = ((cfg0.win 2).blk t).view.read (Elt Ideal) (G0 V c) := by
  show (cfg0.win 2).cut (grid0.coords t) ((dat0 V c).after 2 t) = _
  rw [after0_2]
  obtain ⟨-, -, -, -, e4, e5, -, -, x2, x3, ht⟩ := idx_facts0 t
  funext j
  have hj0 : (j 0).val < win0_2.xsize (grid0.coords t) (0 : Fin 2) := (j 0).isLt
  have hj1 : (j 1).val < win0_2.xsize (grid0.coords t) (1 : Fin 2) := (j 1).isLt
  have hd : (j 0).val < 5 := by omega
  have he : (j 1).val < 32768 := by omega
  have hin : 32768 * t.val + (j 1).val < 500000 := by omega
  have hx : win0_2.xinj (grid0.coords t) j = ValueIdx.ix2 (⟨(j 0).val, hd⟩ : Fin 5) (⟨(j 1).val, he⟩ : Fin 32768) :=
    funext fun a => match a with | ⟨0, _⟩ => rfl | ⟨1, _⟩ => rfl
  show scblk V c t (win0_2.xinj (grid0.coords t) j) = G0 V c ((win0_2.blk t).view.emb j)
  rw [hx]
  unfold scblk
  refine (k0_apply (evblk V c t) (eeblk V c t) ⟨(j 0).val, hd⟩ ⟨(j 1).val, he⟩).trans ?_
  have r0 : ((win0_2.blk t).view.emb j (0 : Fin 2)).val = (j 0).val := by
    show win0_2.index t (0 : Fin 2) * 5 + 1 * (j 0).val = (j 0).val; omega
  have r1 : ((win0_2.blk t).view.emb j (1 : Fin 2)).val = 32768 * t.val + (j 1).val := by
    show win0_2.index t (1 : Fin 2) * 32768 + 1 * (j 1).val = _; omega
  unfold G0 Cert.Spec.score
  refine Finset.sum_congr rfl fun k _ => ?_
  rw [evblk_apply V c t ⟨(j 0).val, hd⟩ k, eeblk_apply V c t ⟨(j 1).val, he⟩ k hin]
  have a0 : (⟨((win0_2.blk t).view.emb j (0 : Fin 2)).val, ValueIdx.idx2_lt0 _⟩ : Fin 5) = ⟨(j 0).val, hd⟩ := Fin.ext r0
  have a1 : (⟨((win0_2.blk t).view.emb j (1 : Fin 2)).val, ValueIdx.idx2_lt1 _⟩ : Fin 500000) = ⟨32768 * t.val + (j 1).val, hin⟩ := Fin.ext r1
  rw [a0, a1]

/-- An index of the table is in point t's block iff each coordinate is in the block's range inside the array. -/
theorem mem_blk0 (t : Fin cfg0.N) (i : S5x500000.Idx) :
    i ∈ ((cfg0.win 2).blk t).view.set ↔ ∀ a : Fin 2, win0_2.index t a * S5x32768.size a ≤ (i a).val ∧ (i a).val < win0_2.index t a * S5x32768.size a + win0_2.xsize (grid0.coords t) a := by
  show i ∈ ((View.whole main_v0).slice (win0_2.rect t)).set ↔ _
  rw [View.set_slice_whole, Rect.mem_set_unit]
  exact Iff.rfl

/-- Every entry of the table is in some point's block: column e is in point e / 32768's. -/
theorem cover0 (i : S5x500000.Idx) :
    ∃ t : Fin cfg0.N, (cfg0.win 2).flush t = true ∧ i ∈ ((cfg0.win 2).blk t).view.set := by
  have hi0 : (i 0).val < 5 := ValueIdx.idx2_lt0 i
  have hi1 : (i 1).val < 500000 := ValueIdx.idx2_lt1 i
  have hN : cfg0.N = 16 := N_0
  let t : Fin cfg0.N := ⟨(i 1).val / 32768, by rw [hN]; omega⟩
  have htv : t.val = (i 1).val / 32768 := rfl
  obtain ⟨-, -, -, -, e4, e5, -, -, x2, x3, -⟩ := idx_facts0 t
  refine ⟨t, flush0_2 t, ?_⟩
  rw [mem_blk0]
  intro a
  match a with
  | ⟨0, _⟩ => show win0_2.index t (0 : Fin 2) * 5 ≤ (i 0).val ∧ (i 0).val < win0_2.index t (0 : Fin 2) * 5 + win0_2.xsize (grid0.coords t) (0 : Fin 2); omega
  | ⟨1, _⟩ => show win0_2.index t (1 : Fin 2) * 32768 ≤ (i 1).val ∧ (i 1).val < win0_2.index t (1 : Fin 2) * 32768 + win0_2.xsize (grid0.coords t) (1 : Fin 2); omega

/-- After region 0 the table holds the scores. -/
theorem table0 (c : Dev nD) : (dat0 V c).arrAt 2 cfg0.N = G0 V c :=
  (dat0 V c).arrAt_eq_of_cover 2 (G0 V c) (fun t _ => flushed_eq0 V c t) cover0

end Table

/-! ## The two buffers region 1 reads -/

/-- When region 1 is entered, main_v1 holds the path words transposed. -/
theorem v4_paths (outs : Gen.Outs (F := Ideal))
    (h1 : ∀ c, outs 1 main_v0 c = (dat0 (fun c b => Gen.V0 m c b) c).arrAt 2 cfg0.N)
    (c : Dev nD) (d : Fin 5) (q : Fin 1000000) :
    Gen.V4 m outs c main_v1 (ValueIdx.ix2 d q) = pathsOf m c q d :=
  v4_paths_any m outs c d q

/-- When region 1 is entered, main_v5 holds, at hop d of path q, the score of the table row the path word selects. -/
theorem v4_gathered (outs : Gen.Outs (F := Ideal))
    (h1 : ∀ c, outs 1 main_v0 c = (dat0 (fun c b => Gen.V0 m c b) c).arrAt 2 cfg0.N)
    (c : Dev nD) (d : Fin 5) (q : Fin 1000000) :
    Gen.V4 m outs c main_v5 (ValueIdx.ix2 d q) = Cert.Spec.score (evOf m c) (eeOf m c) d (Cert.Spec.rowOf (pathsOf m c q d)) := by
  refine (v4_gathered_of m outs c (G0 (fun c b => Gen.V0 m c b) c)
    ((h1 c).trans (table0 (fun c b => Gen.V0 m c b) c)) d q).trans ?_
  rfl

end Cert.KernelIdeal.Hand

end
-- ==== Proof.KiValue.lean ====
/-
  The idealized kernel's result, read at a path.

  Region 1 runs over 16 points; point t stages columns 65536 t .. of the gathered scores (main_v5) and of the path
  words (main_v1), five rows each, and writes back columns 65536 t .. of the encodings (main_v6, one row). The last
  point's blocks overhang the arrays and are cut at column 1000000. A column of the encodings depends on the same
  column of the two inputs only, so what point t writes back is block t of ONE whole-array function: at column q the
  encoding of (main_v5 column q, main_v1 column q). Every column q lies in the block of point q / 65536, so main_v6
  ends holding that function. The closing reshape lays the one row out as a vector, and the two inputs at column q
  are the scores of the rows path q selects and path q's words: the result at q is the encoding of path q.
-/
import proofs.«410757_j8796093022645_3_alg».proof.Proof.KiDat
import proofs.«410757_j8796093022645_3_alg».proof.Proof.KiPay
import proofs.«410757_j8796093022645_3_alg».proof.Proof.KiTable
import proofs.«410757_j8796093022645_3_alg».proof.Proof.Spec
import proofs.«410757_j8796093022645_3_alg».proof.Proof.Gen.KernelIdeal.Regions
import Idealize.ShloMosaic.Lib.Pipeline.Value
import Idealize.ShloMosaic.Lib.ValueIdx
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable (m : (ℓ : Loc nD τ sig) → Buf (Elt Ideal) ℓ)

/-- The encoding of path q, from what main_v5 and main_v1 hold when region 1 is entered. -/
def encAt (outs : Gen.Outs (F := Ideal)) (c : Dev nD) (q : Fin 1000000) : EReal :=
  Cert.Spec.enc (fun d : Fin 5 => Gen.V4 m outs c main_v5 (ix2 d q)) (fun d : Fin 5 => Gen.V4 m outs c main_v1 (ix2 d q))

/-- The whole result array of region 1: at column q the encoding of path q. -/
def G1 (outs : Gen.Outs (F := Ideal)) (c : Dev nD) : S1x1000000.Idx → EReal :=
  fun i => encAt m outs c ⟨(i 1).val, idx2_lt1 i⟩

/-- The three windows move together: block index (0, t) at point t; the blocks of main_v5 and main_v1 keep their five
    rows and are cut on the columns where the block of main_v6 is, which ends at the array's end. -/
theorem grid_facts : ∀ t : Fin cfg1.N,
    win1_0.index t (0 : Fin 2) = 0 ∧ win1_0.index t (1 : Fin 2) = t.val
    ∧ win1_1.index t (0 : Fin 2) = 0 ∧ win1_1.index t (1 : Fin 2) = t.val
    ∧ win1_2.index t (0 : Fin 2) = 0 ∧ win1_2.index t (1 : Fin 2) = t.val
    ∧ win1_0.xsize (grid1.coords t) (0 : Fin 2) = 5 ∧ win1_1.xsize (grid1.coords t) (0 : Fin 2) = 5
    ∧ win1_2.xsize (grid1.coords t) (0 : Fin 2) = 1
    ∧ win1_0.xsize (grid1.coords t) (1 : Fin 2) = win1_2.xsize (grid1.coords t) (1 : Fin 2)
    ∧ win1_1.xsize (grid1.coords t) (1 : Fin 2) = win1_2.xsize (grid1.coords t) (1 : Fin 2)
    ∧ t.val * 65536 + win1_2.xsize (grid1.coords t) (1 : Fin 2) = min ((t.val + 1) * 65536) 1000000 :=
  (by decide +kernel : ∀ t : Fin grid1.N, _)

section Blocks
variable (outs : Gen.Outs (F := Ideal))

/-- Column j of point t's block of main_v5, for a column inside the array, is column 65536 t + j of main_v5. -/
theorem gblk_apply (c : Dev nD) (t : Fin cfg1.N) (d : Fin 5) (j : Fin 65536)
    (hj : j.val < win1_2.xsize (grid1.coords t) (1 : Fin 2)) (q : Fin 1000000) (hq : q.val = t.val * 65536 + j.val) :
    gblk (fun c b => Gen.V4 m outs c b) c t (ix2 d j) = Gen.V4 m outs c main_v5 (ix2 d q) := by
  obtain ⟨i00, i01, -, -, -, -, x00, -, -, x01, -, -⟩ := grid_facts t
  have hm : win1_0.moved (grid1.coords t) (ix2 d j) = true := (win1_0.moved_iff _ _).mpr fun a => by
    match a with
    | ⟨0, _⟩ => show d.val < win1_0.xsize (grid1.coords t) (0 : Fin 2); rw [x00]; exact d.isLt
    | ⟨1, _⟩ => show j.val < win1_0.xsize (grid1.coords t) (1 : Fin 2); rw [x01]; exact hj
  unfold gblk Window.fill
  rw [dif_pos hm]
  unfold iblk1
  show Gen.V4 m outs c main_v5 ((win1_0.blk t).view.emb _) = _
  congr 1
  funext a
  apply Fin.ext
  match a with
  | ⟨0, _⟩ => show win1_0.index t (0 : Fin 2) * 5 + 1 * d.val = d.val; rw [i00]; omega
  | ⟨1, _⟩ => show win1_0.index t (1 : Fin 2) * 65536 + 1 * j.val = q.val; rw [i01, hq]; omega

/-- Column j of point t's block of main_v1, for a column inside the array, is column 65536 t + j of main_v1. -/
theorem pblk_apply (c : Dev nD) (t : Fin cfg1.N) (d : Fin 5) (j : Fin 65536)
    (hj : j.val < win1_2.xsize (grid1.coords t) (1 : Fin 2)) (q : Fin 1000000) (hq : q.val = t.val * 65536 + j.val) :
    pblk (fun c b => Gen.V4 m outs c b) c t (ix2 d j) = Gen.V4 m outs c main_v1 (ix2 d q) := by
  obtain ⟨-, -, i10, i11, -, -, -, x10, -, -, x11, -⟩ := grid_facts t
  have hm : win1_1.moved (grid1.coords t) (ix2 d j) = true := (win1_1.moved_iff _ _).mpr fun a => by
    match a with
    | ⟨0, _⟩ => show d.val < win1_1.xsize (grid1.coords t) (0 : Fin 2); rw [x10]; exact d.isLt
    | ⟨1, _⟩ => show j.val < win1_1.xsize (grid1.coords t) (1 : Fin 2); rw [x11]; exact hj
  unfold pblk Window.fill
  rw [dif_pos hm]
  unfold iblk1
  show Gen.V4 m outs c main_v1 ((win1_1.blk t).view.emb _) = _
  congr 1
  funext a
  apply Fin.ext
  match a with
  | ⟨0, _⟩ => show win1_1.index t (0 : Fin 2) * 5 + 1 * d.val = d.val; rw [i10]; omega
  | ⟨1, _⟩ => show win1_1.index t (1 : Fin 2) * 65536 + 1 * j.val = q.val; rw [i11, hq]; omega

/-- Column j of the encodings point t computes, for a column inside the array, is the encoding of path 65536 t + j. -/
theorem encblk_apply (c : Dev nD) (t : Fin cfg1.N) (j : Fin 65536)
    (hj : j.val < win1_2.xsize (grid1.coords t) (1 : Fin 2)) (q : Fin 1000000) (hq : q.val = t.val * 65536 + j.val) :
    encblk (fun c b => Gen.V4 m outs c b) c t (ix2 (0 : Fin 1) j) = encAt m outs c q := by
  unfold encblk
  refine (k1_apply _ _ j).trans ?_
  unfold encAt
  congr 1
  · funext d; exact gblk_apply m outs c t d j hj q hq
  · funext d; exact pblk_apply m outs c t d j hj q hq

/-- What point t writes back is block t of the whole result array. -/
theorem flushed_eq (c : Dev nD) (t : Fin cfg1.N) :
    (dat1 (fun c b => Gen.V4 m outs c b) c).flushed 2 t
      = ((cfg1.win 2).blk t).view.read (Elt Ideal) (G1 m outs c) := by
  show (cfg1.win 2).cut (grid1.coords t) ((dat1 (fun c b => Gen.V4 m outs c b) c).after 2 t) = _
  rw [after1_2]
  obtain ⟨-, -, -, -, i20, i21, -, -, x20, -, -, x21⟩ := grid_facts t
  funext j
  have hj0 : (j 0).val < win1_2.xsize (grid1.coords t) (0 : Fin 2) := (j 0).isLt
  have hj1 : (j 1).val < win1_2.xsize (grid1.coords t) (1 : Fin 2) := (j 1).isLt
  have ht : t.val < 16 := lt_of_lt_of_eq t.isLt N_1
  show encblk (fun c b => Gen.V4 m outs c b) c t (win1_2.xinj (grid1.coords t) j) = G1 m outs c ((win1_2.blk t).view.emb j)
  have e1 : win1_2.xinj (grid1.coords t) j = ix2 (0 : Fin 1) (⟨(j 1).val, by omega⟩ : Fin 65536) := by
    funext a
    apply Fin.ext
    match a with
    | ⟨0, _⟩ => show (j 0).val = 0; omega
    | ⟨1, _⟩ => rfl
  refine (congrArg (encblk (fun c b => Gen.V4 m outs c b) c t) e1).trans ?_
  refine (encblk_apply m outs c t _ hj1 ⟨t.val * 65536 + (j 1).val, by omega⟩ rfl).trans ?_
  unfold G1
  refine congrArg (encAt m outs c) (Fin.ext ?_)
  show t.val * 65536 + (j 1).val = win1_2.index t (1 : Fin 2) * 65536 + 1 * (j 1).val
  rw [i21]; omega

/-- Column q of the result array is in the block of point q / 65536. -/
theorem cover (i : S1x1000000.Idx) : ∃ t : Fin cfg1.N, (cfg1.win 2).flush t = true ∧ i ∈ ((cfg1.win 2).blk t).view.set := by
  have hi0 : (i 0).val < 1 := idx2_lt0 i
  have hi1 : (i 1).val < 1000000 := idx2_lt1 i
  obtain ⟨t, htv⟩ : ∃ t : Fin cfg1.N, t.val = (i 1).val / 65536 :=
    ⟨⟨(i 1).val / 65536, by rw [show cfg1.N = 16 from N_1]; omega⟩, rfl⟩
  obtain ⟨-, -, -, -, i20, i21, -, -, x20, -, -, x21⟩ := grid_facts t
  refine ⟨t, flush1_2 t, ?_⟩
  show i ∈ ((View.whole main_v6).slice (win1_2.rect t)).set
  rw [View.set_slice_whole, Rect.mem_set_unit]
  intro a
  match a with
  | ⟨0, _⟩ =>
    show win1_2.index t (0 : Fin 2) * 1 ≤ (i 0).val ∧ (i 0).val < win1_2.index t (0 : Fin 2) * 1 + win1_2.xsize (grid1.coords t) (0 : Fin 2)
    rw [i20, x20]; omega
  | ⟨1, _⟩ =>
    show win1_2.index t (1 : Fin 2) * 65536 ≤ (i 1).val ∧ (i 1).val < win1_2.index t (1 : Fin 2) * 65536 + win1_2.xsize (grid1.coords t) (1 : Fin 2)
    rw [i21]
    clear hi0 i20 x20
    omega

/-- Region 1 leaves the whole result array in main_v6. -/
theorem final (c : Dev nD) :
    (dat1 (fun c b => Gen.V4 m outs c b) c).arrAt 2 cfg1.N = G1 m outs c :=
  (dat1 (fun c b => Gen.V4 m outs c b) c).arrAt_eq_of_cover 2 (G1 m outs c) (fun t _ => flushed_eq m outs c t) (cover)

/-- The last host operation reshapes main_v6 (1 x 1000000) into main_v7 (1000000). -/
theorem v6_eq (c : Dev nD) :
    (Gen.V6 m outs c main_v7 : S1000000.Idx → EReal)
      = shapeCast S1000000 (Gen.V5 m outs c main_v6 : S1x1000000.Idx → EReal) shapeCasts_S1x1000000_S1000000 := by
  show StableHlo.after Gen.hostOps2 _ _ = _
  after_results
  rfl

/-- So main_v7 at path q is what region 1 left in main_v6 at column q. -/
theorem v6_apply (c : Dev nD) (q : Fin 1000000) :
    Gen.V6 m outs c main_v7 (ix1 q) = outs 5 main_v6 c (ix2 (0 : Fin 1) q) := by
  rw [v6_eq]
  refine (shapeCast_apply _ _ (ix1 q) (ix2 (0 : Fin 1) q) ?_).trans ?_
  · rw [Shape.rowMajor_val_two, Shape.rowMajor_val_one]
    show 0 * 1000000 + q.val = q.val
    omega
  · show Function.update (Gen.V4 m outs c) main_v6 (outs 5 main_v6 c) main_v6 _ = _
    rw [Function.update_self]

end Blocks

/-- The result buffer after the run, at path q: the encoding of path q. -/
theorem value_at (outs : Gen.Outs (F := Ideal))
    (h1 : ∀ c, outs 1 main_v0 c = (dat0 (fun c b => Gen.V0 m c b) c).arrAt 2 cfg0.N)
    (h5 : ∀ c, outs 5 main_v6 c = (dat1 (fun c b => Gen.V4 m outs c b) c).arrAt 2 cfg1.N)
    (c : Dev nD) (q : Fin 1000000) :
    Gen.V6 m outs c main_v7 (ValueIdx.ix1 q) = Cert.Spec.result (evOf m c) (eeOf m c) (pathsOf m c) q := by
  refine (v6_apply m outs c q).trans ?_
  refine (congrFun (h5 c) _).trans ?_
  refine (congrFun (final m outs c) _).trans ?_
  show encAt m outs c q = _
  unfold encAt Cert.Spec.result
  congr 1
  · funext d; exact v4_gathered m outs h1 c d q
  · funext d; exact v4_paths m outs h1 c d q

end Cert.KernelIdeal.Hand

end
-- ==== Proof.RefValue.lean ====
/-
  The jnp reference's result, read at one path.

  The reference computes the table of scores (row e of edge_embedding against row d of edge_vector, for every row and
  hop), then for hop d of path q gathers the table at (row, column) start indices: the row index is the path word made
  safe (the missing-hop mark -1 read as 0) and normalised (a negative word counted from the table's end), the column
  index is d; the gather reads each start index signed and clamps it to the table. The gathered scores are multiplied by
  the 0/1 mask of present hops and summed along the path, and the sum is divided by the number of present hops when
  there is one. Read at path q this is `Cert.Spec.result`.
-/
import proofs.«410757_j8796093022645_3_alg».proof.Proof.RefRun
import proofs.«410757_j8796093022645_3_alg».proof.Proof.RefRead
import proofs.«410757_j8796093022645_3_alg».proof.Proof.Spec
import Idealize.ShloMosaic.Lib.ValueIdx
import Idealize.ShloMosaic.Lib.Pipeline.Value
import Idealize.ShloMosaic.PureOps.Ideal.Laws
import Idealize.ShloMosaic.Lib.StableHlo.Run
import Idealize.ShloMosaic.Lib.StableHlo.Predicate

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo
open Idealize.ShloMosaic.ValueIdx
open scoped BigOperators

/-! ## Indices by coordinates -/

theorem idx26_eq (q : Fin 1000000) (k : Fin 5) : idx_main_v26 (ix1 q) k = ix2 q k := by
  funext a; match a with | ⟨0, _⟩ => rfl | ⟨1, _⟩ => rfl
theorem lidx6_eq (e : Fin 500000) (d : Fin 5) (k : Fin 64) : lidx_main_v6 (ix2 e d) k = ix2 e k := by
  funext a; match a with | ⟨0, _⟩ => rfl | ⟨1, _⟩ => rfl
theorem ridx6_eq (e : Fin 500000) (d : Fin 5) (k : Fin 64) : ridx_main_v6 (ix2 e d) k = ix2 k d := by
  funext a; match a with | ⟨0, _⟩ => rfl | ⟨1, _⟩ => rfl
theorem idx5_eq (k : Fin 64) (d : Fin 5) : idx_main_v5 (ix2 k d) = ix2 d k := by
  funext a; match a with | ⟨0, _⟩ => rfl | ⟨1, _⟩ => rfl
theorem idx20_eq (q : Fin 1000000) (d : Fin 5) (z : Fin 1) : idx_main_v20 (ix3 q d z) = ix2 q d := by
  funext a; match a with | ⟨0, _⟩ => rfl | ⟨1, _⟩ => rfl
theorem idx21_eq (q : Fin 1000000) (d : Fin 5) (z : Fin 1) : idx_main_v21 (ix3 q d z) = ix2 q d := by
  funext a; match a with | ⟨0, _⟩ => rfl | ⟨1, _⟩ => rfl
theorem idx19_eq (q : Fin 1000000) (d : Fin 5) : idx_main_v19 (ix2 q d) = ix2 (0 : Fin 1) d := by
  funext a; match a with | ⟨0, _⟩ => rfl | ⟨1, _⟩ => rfl
theorem idx8_eq (z : Fin 1) (d : Fin 5) : idx_main_v8 (ix2 z d) = ix1 d := by
  funext a; match a with | ⟨0, _⟩ => rfl

/-! ## The scores: a row of the table against a row of edge_vector -/

theorem v6_at (x1 : (⟨S500000x64, .f32⟩ : BufTy).Contents (Elt Ideal)) (x3 : (⟨S5x64, .f32⟩ : BufTy).Contents (Elt Ideal))
    (e : Fin 500000) (d : Fin 5) :
    val_main_v6 (F := Ideal) x1 x3 (ix2 e d)
      = Cert.Spec.score (fun d k => x3 (ix2 d k)) (fun e k => x1 (ix2 e k)) d e := by
  rw [val_main_v6_apply]
  unfold Cert.Spec.score
  refine Finset.sum_congr rfl fun k _ => ?_
  rw [val_main_v5_apply, lidx6_eq, ridx6_eq, idx5_eq]
  exact mul_comm _ _

/-! ## Words -/

/-- A select on a decided comparison is the `if`. -/
theorem select_ofBool {α : Type} (b : Bool) (x y : α) : Scalar.select (BitVec.ofBool b) x y = if b then x else y := by
  cases b <;> rfl

/-- A one-bit word, read unsigned as a real, is 1 when the bit is set and 0 otherwise. -/
theorem toNat_ofBool_cast (b : Bool) : (((BitVec.ofBool b).toNat : ℝ) : EReal) = if b then 1 else 0 := by
  cases b <;> simp

/-- A hop's column index is never negative. -/
theorem col_not_neg : ∀ d : Fin 5, IntOp.cmpi .slt (BitVec.ofNat 32 d.val) 0#32 = 0#1 := by decide
/-- A hop's column index, read signed and clamped to the five columns, is itself. -/
theorem col_clamp : ∀ d : Fin 5, min (BitVec.ofNat 32 d.val).toInt.toNat 4 = d.val := by decide

theorem cmpi_ne_small (n : ℕ) (h1 : 1 ≤ n) (h5 : n ≤ 5) : IntOp.cmpi .ne (BitVec.ofNat 32 n) 0#32 = 1#1 := by
  interval_cases n <;> decide
theorem maxsi_small (n : ℕ) (h1 : 1 ≤ n) (h5 : n ≤ 5) : (IntOp.maxsi (BitVec.ofNat 32 n) 1#32).toInt = (n : ℤ) := by
  interval_cases n <;> decide

/-! ## The gather: a table of rows and columns read at a pair of start indices -/

/-- Result element (q, d) of the gather is the operand at (row, column), each the start index read signed and clamped
    to the operand's extent on its axis. -/
theorem gather_at {α : Type} (x : S500000x5.Idx → α) (idx : IVec S1000000x5x2 32) (q : Fin 1000000) (d : Fin 5) :
    Host.gather gather_S500000x5_S1000000x5x2_S1000000x5_n_01_n_n_01_2_11 x idx (ix2 q d)
      = x (ix2 (⟨min (idx (ix3 q d (0 : Fin 2))).toInt.toNat 499999, by omega⟩ : Fin 500000)
               (⟨min (idx (ix3 q d (1 : Fin 2))).toInt.toNat 4, by omega⟩ : Fin 5)) := by
  unfold Host.gather
  refine congrArg x (funext fun a => Fin.ext ?_)
  match a with
  | ⟨0, _⟩ =>
    show gather_S500000x5_S1000000x5x2_S1000000x5_n_01_n_n_01_2_11.start (ix2 q d) idx 0
      + gather_S500000x5_S1000000x5x2_S1000000x5_n_01_n_n_01_2_11.batchCoord (ix2 q d) 0
      + gather_S500000x5_S1000000x5x2_S1000000x5_n_01_n_n_01_2_11.offCoord (ix2 q d) 0 = _
    rw [GatherDims.batchCoord_eq_zero _ _ _ List.not_mem_nil,
      GatherDims.offCoord_eq_zero _ _ _ (fun h => ((GatherDims.mem_sKept _ _).mp h).1 List.mem_cons_self)]
    simp only [Nat.add_zero]
    unfold GatherDims.start
    rw [dif_pos (show (0 : Fin 2) ∈ gather_S500000x5_S1000000x5x2_S1000000x5_n_01_n_n_01_2_11.startIndexMap from List.mem_cons_self)]
    have hsi : gather_S500000x5_S1000000x5x2_S1000000x5_n_01_n_n_01_2_11.siIdx (ix2 q d)
        ⟨List.idxOf (0 : Fin 2) gather_S500000x5_S1000000x5x2_S1000000x5_n_01_n_n_01_2_11.startIndexMap,
          List.idxOf_lt_length_iff.2 List.mem_cons_self⟩ = ix3 q d (0 : Fin 2) := by
      funext b; refine Fin.ext ?_
      match b with
      | ⟨0, _⟩ => rfl
      | ⟨1, _⟩ => rfl
      | ⟨2, _⟩ => rfl
    rw [hsi]
    rfl
  | ⟨1, _⟩ =>
    show gather_S500000x5_S1000000x5x2_S1000000x5_n_01_n_n_01_2_11.start (ix2 q d) idx 1
      + gather_S500000x5_S1000000x5x2_S1000000x5_n_01_n_n_01_2_11.batchCoord (ix2 q d) 1
      + gather_S500000x5_S1000000x5x2_S1000000x5_n_01_n_n_01_2_11.offCoord (ix2 q d) 1 = _
    rw [GatherDims.batchCoord_eq_zero _ _ _ List.not_mem_nil,
      GatherDims.offCoord_eq_zero _ _ _ (fun h => ((GatherDims.mem_sKept _ _).mp h).1 (List.mem_cons_of_mem _ List.mem_cons_self))]
    simp only [Nat.add_zero]
    unfold GatherDims.start
    rw [dif_pos (show (1 : Fin 2) ∈ gather_S500000x5_S1000000x5x2_S1000000x5_n_01_n_n_01_2_11.startIndexMap from List.mem_cons_of_mem _ List.mem_cons_self)]
    have hsi : gather_S500000x5_S1000000x5x2_S1000000x5_n_01_n_n_01_2_11.siIdx (ix2 q d)
        ⟨List.idxOf (1 : Fin 2) gather_S500000x5_S1000000x5x2_S1000000x5_n_01_n_n_01_2_11.startIndexMap,
          List.idxOf_lt_length_iff.2 (List.mem_cons_of_mem _ List.mem_cons_self)⟩ = ix3 q d (1 : Fin 2) := by
      funext b; refine Fin.ext ?_
      match b with
      | ⟨0, _⟩ => rfl
      | ⟨1, _⟩ => rfl
      | ⟨2, _⟩ => rfl
    rw [hsi]
    rfl

/-! ## The start indices -/

theorem ij_eq_ix2 {n m : Nat} (a : Fin n) (b : Fin m) : Predicate.ij a b = ix2 a b := by
  funext c; match c with | ⟨0, _⟩ => rfl | ⟨1, _⟩ => rfl

/-- The mask bit of hop (q, d): set when the word is not the missing-hop mark. -/
theorem v1_at (x2 : (⟨S1000000x5, .i32⟩ : BufTy).Contents (Elt Ideal)) (q : Fin 1000000) (d : Fin 5) :
    val_main_v1 (F := Ideal) x2 (ix2 q d) = BitVec.ofBool (x2 (ix2 q d) != Cert.Spec.pad) := by
  rw [val_main_v1_apply, val_main_v0_apply, val_main_c_apply]
  rfl

/-- The safe word of hop (q, d): the word, or 0 for a missing hop. -/
theorem v4_at (x2 : (⟨S1000000x5, .i32⟩ : BufTy).Contents (Elt Ideal)) (q : Fin 1000000) (d : Fin 5) :
    val_main_v4 (F := Ideal) x2 (ix2 q d) = Cert.Spec.safeW (x2 (ix2 q d)) := by
  rw [val_main_v4_apply, v1_at, val_main_call0_v1_apply, val_main_call0_v0_apply, val_main_c_1_apply, select_ofBool]
  unfold Cert.Spec.safeW
  by_cases h : x2 (ix2 q d) = Cert.Spec.pad
  · rw [if_pos h, h]; rfl
  · rw [if_neg h, if_pos (by simpa using h)]

/-- The row word of hop (q, d): the safe word, a negative one counted from the table's end. -/
theorem v13_at (x2 : (⟨S1000000x5, .i32⟩ : BufTy).Contents (Elt Ideal)) (q : Fin 1000000) (d : Fin 5) :
    val_main_v13 (F := Ideal) x2 (ix2 q d) = Cert.Spec.normW (Cert.Spec.safeW (x2 (ix2 q d))) := by
  rw [val_main_v13_apply, val_main_v10_apply, val_main_v12_apply, val_main_v9_apply, val_main_c_2_apply,
    val_main_v11_apply, val_main_c_3_apply, v4_at]
  show Scalar.select (BitVec.ofBool ((Cert.Spec.safeW (x2 (ix2 q d))).slt 0#32)) _ _ = _
  rw [select_ofBool]
  rfl

/-- The column word of hop (q, d) is d. -/
theorem v19_at (q : Fin 1000000) (d : Fin 5) :
    val_main_v19 (F := Ideal) (ix2 q d) = BitVec.ofNat 32 d.val := by
  rw [val_main_v19_apply, idx19_eq, val_main_v18_apply, val_main_v15_apply, val_main_v8_apply, idx8_eq,
    val_main_v7_apply, val_main_v14_apply, val_main_c_4_apply]
  show Scalar.select (IntOp.cmpi .slt (BitVec.ofNat 32 d.val) 0#32) _ _ = _
  rw [col_not_neg, select_zero]

/-- The start indices of hop (q, d): the row word first … -/
theorem v22_at0 (x2 : (⟨S1000000x5, .i32⟩ : BufTy).Contents (Elt Ideal)) (q : Fin 1000000) (d : Fin 5) :
    val_main_v22 (F := Ideal) x2 (ix3 q d (0 : Fin 2)) = Cert.Spec.normW (Cert.Spec.safeW (x2 (ix2 q d))) := by
  unfold val_main_v22
  refine (concatenate_pair_apply_left (t := S1000000x5x2) (s₁ := S1000000x5x1) (s₂ := S1000000x5x1) (2 : Fin 3) _ _ concatenates_S1000000x5x1_S1000000x5x1_S1000000x5x2_d2
    (ix3 q d (0 : Fin 2)) rfl (ix3 q d (0 : Fin 1)) (fun b => ?_)).trans ?_
  · match b with
    | ⟨0, _⟩ => rfl
    | ⟨1, _⟩ => rfl
    | ⟨2, _⟩ => rfl
  · rw [val_main_v20_apply, idx20_eq, v13_at]

/-- … and the column word second. -/
theorem v22_at1 (x2 : (⟨S1000000x5, .i32⟩ : BufTy).Contents (Elt Ideal)) (q : Fin 1000000) (d : Fin 5) :
    val_main_v22 (F := Ideal) x2 (ix3 q d (1 : Fin 2)) = BitVec.ofNat 32 d.val := by
  unfold val_main_v22
  refine (concatenate_pair_apply_right (t := S1000000x5x2) (s₁ := S1000000x5x1) (s₂ := S1000000x5x1) (2 : Fin 3) _ _ concatenates_S1000000x5x1_S1000000x5x1_S1000000x5x2_d2
    (ix3 q d (1 : Fin 2)) rfl rfl (ix3 q d (0 : Fin 1)) (fun b hb => ?_) rfl).trans ?_
  · match b with
    | ⟨0, _⟩ => rfl
    | ⟨1, _⟩ => rfl
    | ⟨2, _⟩ => exact absurd rfl hb
  · rw [val_main_v21_apply, idx21_eq, v19_at]

/-- The gathered score of hop (q, d): the score of the row its word names, at hop d. -/
theorem v23_at (x1 : (⟨S500000x64, .f32⟩ : BufTy).Contents (Elt Ideal)) (x2 : (⟨S1000000x5, .i32⟩ : BufTy).Contents (Elt Ideal))
    (x3 : (⟨S5x64, .f32⟩ : BufTy).Contents (Elt Ideal)) (q : Fin 1000000) (d : Fin 5) :
    val_main_v23 (F := Ideal) x1 x2 x3 (ix2 q d)
      = Cert.Spec.score (fun d k => x3 (ix2 d k)) (fun e k => x1 (ix2 e k)) d (Cert.Spec.rowOf (x2 (ix2 q d))) := by
  unfold val_main_v23
  refine (gather_at _ _ q d).trans ?_
  refine Eq.trans ?_ (v6_at x1 x3 (Cert.Spec.rowOf (x2 (ix2 q d))) d)
  refine congrArg (val_main_v6 (F := Ideal) x1 x3) ?_
  funext a
  match a with
  | ⟨0, _⟩ => exact Fin.ext (by show min _ 499999 = min _ 499999; rw [v22_at0])
  | ⟨1, _⟩ => exact Fin.ext (by show min _ 4 = d.val; rw [v22_at1, col_clamp])

/-! ## The count of present hops -/

theorem hops_le (p : Fin 5 → BitVec 32) : Cert.Spec.hops p ≤ 5 := by
  unfold Cert.Spec.hops
  exact (Finset.card_le_univ _).trans (by simp)

/-- The integer reduce of the widened mask along a path counts its present hops. -/
theorem v3_at (x2 : (⟨S1000000x5, .i32⟩ : BufTy).Contents (Elt Ideal)) (q : Fin 1000000) :
    val_main_v3 (F := Ideal) x2 (ix1 q) = BitVec.ofNat 32 (Cert.Spec.hops fun d => x2 (ix2 q d)) := by
  have h := Predicate.toNat_reduce_count_cols (n := 1000000) (m := 5) (by decide) (val_main_v1 (F := Ideal) x2) natLt_1_32
    reducesTo_S1000000x5_S1000000_d1 h_S_ (ix1 q)
  have hc : (Finset.univ.filter fun d : Fin 5 => val_main_v1 (F := Ideal) x2 (Predicate.ij ((ix1 q) 0) d) = 1#1)
      = Finset.univ.filter fun d : Fin 5 => x2 (ix2 q d) ≠ Cert.Spec.pad := by
    refine Finset.filter_congr fun d _ => ?_
    show val_main_v1 (F := Ideal) x2 (Predicate.ij q d) = 1#1 ↔ _
    rw [ij_eq_ix2, v1_at, Predicate.ofBool_eq_one_iff]
    simp
  apply BitVec.eq_of_toNat_eq
  rw [BitVec.toNat_ofNat, Nat.mod_eq_of_lt (lt_of_le_of_lt (hops_le _) (by decide))]
  exact h.trans (congrArg Finset.card hc)

/-! ## The masked sum -/

/-- The float reduce of the masked scores along a path is the total over its present hops. -/
theorem v26_at (x1 : (⟨S500000x64, .f32⟩ : BufTy).Contents (Elt Ideal)) (x2 : (⟨S1000000x5, .i32⟩ : BufTy).Contents (Elt Ideal))
    (x3 : (⟨S5x64, .f32⟩ : BufTy).Contents (Elt Ideal)) (q : Fin 1000000) :
    val_main_v26 (F := Ideal) x1 x2 x3 (ix1 q)
      = Cert.Spec.total (fun d => Cert.Spec.score (fun d k => x3 (ix2 d k)) (fun e k => x1 (ix2 e k)) d (Cert.Spec.rowOf (x2 (ix2 q d))))
          (fun d => x2 (ix2 q d)) := by
  rw [val_main_v26_apply, val_main_cst_apply]
  show Ideal.ofBits .f32 0x00000000#32 + _ = _
  rw [Ideal.ofBits_zero_f32, zero_add]
  unfold Cert.Spec.total
  refine Finset.sum_congr rfl fun k _ => ?_
  rw [idx26_eq, val_main_v25_apply, val_main_v24_apply, v23_at, v1_at]
  show _ * (((BitVec.ofBool (x2 (ix2 q k) != Cert.Spec.pad)).toNat : ℝ) : EReal) = _
  rw [toNat_ofBool_cast]
  by_cases h : x2 (ix2 q k) = Cert.Spec.pad
  · rw [if_neg (by simpa using h), if_neg (by simpa using h), mul_zero]
  · rw [if_pos (by simpa using h), if_pos h, mul_one]

/-! ## The result -/

theorem ref_result (x1 : (⟨S500000x64, .f32⟩ : BufTy).Contents (Elt Ideal)) (x2 : (⟨S1000000x5, .i32⟩ : BufTy).Contents (Elt Ideal))
    (x3 : (⟨S5x64, .f32⟩ : BufTy).Contents (Elt Ideal)) (q : Fin 1000000) :
    val_main_v33 (F := Ideal) x1 x2 x3 (ix1 q)
      = Cert.Spec.result (fun d k => x3 (ix2 d k)) (fun e k => x1 (ix2 e k)) (fun q d => x2 (ix2 q d)) q := by
  unfold Cert.Spec.result Cert.Spec.enc
  rw [val_main_v33_apply, val_main_v31_apply, val_main_v32_apply, v26_at, val_main_v29_apply, val_main_v28_apply, v3_at,
    val_main_v30_apply, val_main_c_7_apply, val_main_v27_apply, val_main_c_6_apply]
  have hle := hops_le fun d => x2 (ix2 q d)
  generalize Cert.Spec.hops (fun d => x2 (ix2 q d)) = n at hle ⊢
  generalize Cert.Spec.total _ _ = T
  by_cases hn : n = 0
  · subst hn
    rw [if_pos rfl]
    rfl
  · have h1 : 1 ≤ n := Nat.one_le_iff_ne_zero.mpr hn
    rw [if_neg hn, cmpi_ne_small n h1 hle, select_one]
    show Ideal.div T ((((IntOp.maxsi (BitVec.ofNat 32 n) 1#32).toInt : ℝ)) : EReal) = _
    rw [maxsi_small n h1 hle, Int.cast_natCast]
    have hr : (n : ℝ) ≠ 0 := by exact_mod_cast hn
    unfold Ideal.div
    rw [if_neg (by exact_mod_cast hr)]
    rfl

/-! ## The run -/

/-- Every weakly fair execution of the reference terminates with the result buffer, read at each path, at
    `Cert.Spec.result` of the three arrays that matter, and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      (∀ q : Fin 1000000, r.2.mem ((c.tc : Thread nD τ).loc main_v33) (ValueIdx.ix1 q) = Cert.Spec.result (fun d k => m ((c.tc : Thread nD τ).loc main_arg3) (ValueIdx.ix2 d k)) (fun e k => m ((c.tc : Thread nD τ).loc main_arg1) (ValueIdx.ix2 e k)) (fun q d => m ((c.tc : Thread nD τ).loc main_arg2) (ValueIdx.ix2 q d)) q)
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3) :=
  (θ_run defs _ _).mono (fun _ h c => ⟨fun q => (congrFun ((h c).1.trans (val_main_v33_eq m c)) (ValueIdx.ix1 q)).trans (ref_result _ _ _ q),
      (h c).2⟩)
    (Cert.ReferenceIdeal.ValueP.run m ρ)

end Cert.ReferenceIdeal.RefValue

end
-- ==== Proof.Claims.lean ====
/-
  Three of the certificate's claims, assembled from the two runs.

  The idealized kernel's run ends with its result buffer at a named contents and its arguments as launched; the
  reference's run ends with its result, read at each path, equal to the specification's result of its own arguments,
  and its arguments as launched. Dropping the result from either gives that program's frame claim. For the algebraic
  claim the kernel's named contents is the common value: read at each path it is the specification's result of the
  kernel's arguments, the reference's result is the specification's result of the reference's arguments, and the two
  memories agree on the arguments, so the two result buffers are equal index by index.
-/
import proofs.«410757_j8796093022645_3_alg».proof.Defs
import proofs.«410757_j8796093022645_3_alg».proof.Proof.Gen.KernelIdeal
import proofs.«410757_j8796093022645_3_alg».proof.Proof.Gen.ReferenceIdeal
import proofs.«410757_j8796093022645_3_alg».proof.Proof.Gen.Pre_finite_inputs
import proofs.«410757_j8796093022645_3_alg».proof.Proof.KiRun
import proofs.«410757_j8796093022645_3_alg».proof.Proof.KiValue
import proofs.«410757_j8796093022645_3_alg».proof.Proof.RefValue
import Idealize.ShloMosaic.Lib.ValueIdx

noncomputable section

namespace Cert.Proof.Hand

open Idealize.ShloMosaic Idealize.ShloMosaic.TcCoe Idealize.SL.Sem

/-- The idealized kernel runs and leaves its arguments unchanged: its run, the result forgotten. -/
theorem frame_ki : Cert.frame_KernelIdeal := fun m ρ _ =>
  (θ_run Cert.KernelIdeal.defs _ _).mono (fun _ h c => (h c).2) (Cert.KernelIdeal.Hand.run_value m ρ)

/-- The reference runs and leaves its arguments unchanged: its run, the result forgotten. -/
theorem frame_ri : Cert.frame_ReferenceIdeal := fun m ρ _ =>
  (θ_run Cert.ReferenceIdeal.defs _ _).mono (fun _ h c => (h c).2) (Cert.ReferenceIdeal.RefValue.ref_run m ρ)

/-- From memories that agree on the arguments the two programs end with equal results: at each path both are the
    specification's result of the same three arrays. -/
theorem algebraic : Cert.algebraic_KernelIdeal_ReferenceIdeal := by
  intro m ρ m' ρ' _ hagree
  refine ⟨fun c => Cert.KernelIdeal.Gen.V6 m (Cert.KernelIdeal.Hand.outs m) c Cert.KernelIdeal.main_v7,
    Cert.KernelIdeal.Hand.run_value m ρ, ?_⟩
  refine (θ_run Cert.ReferenceIdeal.defs _ _).mono (fun r h c => ⟨?_, (h c).2⟩)
    (Cert.ReferenceIdeal.RefValue.ref_run m' ρ')
  funext i
  obtain ⟨q, rfl⟩ : ∃ q : Fin 1000000, i = ValueIdx.ix1 q := ⟨i 0, ValueIdx.eq_ix1 i⟩
  refine ((h c).1 q).trans ?_
  rw [(hagree c).2.1, (hagree c).2.2.1, (hagree c).2.2.2]
  exact (Cert.KernelIdeal.Hand.value_at m (Cert.KernelIdeal.Hand.outs m) (Cert.KernelIdeal.Hand.outs_1 m)
    (Cert.KernelIdeal.Hand.outs_5 m) c q).symm

end Cert.Proof.Hand

end
-- ==== Proof.lean ====
/-
  The certificate's five claims, assembled.

  The kernel computes, for each of a million node-pair paths of at most five hops, the mean over the path's present hops
  of a score: the inner product of the hop's row of edge_vector with the row of edge_embedding the path names. It does so
  in two pipelined calls — the whole score table first (a matrix product, 32768 table rows per grid point), then, after a
  host gather of the scores each path names, the masked sum and the division (65536 paths per grid point) —, where the
  reference gathers from the same table and reduces on the host. At the ideal instance both are the function
  `Cert.Spec.result` of the three arrays that matter (Proof/Spec.lean): the kernel's result buffer by the two pipelines'
  proof data and the cover of each output array by its flushed blocks, the reference's by reading its run one operation at a
  time. No float law beyond commutativity of the product is used, so the precondition is never opened.

  The word-level kernel's frame goes another road (Proof/KBase.lean): at bit patterns the matrix product is opaque and the
  last grid point's block overhangs its array, so nothing the regions leave is named.
-/
import proofs.«410757_j8796093022645_3_alg».proof.Defs
import proofs.«410757_j8796093022645_3_alg».proof.Proof.Gen.Kernel
import proofs.«410757_j8796093022645_3_alg».proof.Proof.Gen.KernelIdeal
import proofs.«410757_j8796093022645_3_alg».proof.Proof.Gen.ReferenceIdeal
import proofs.«410757_j8796093022645_3_alg».proof.Proof.Gen.Pre_finite_inputs
import proofs.«410757_j8796093022645_3_alg».proof.Proof.KLaunch
import proofs.«410757_j8796093022645_3_alg».proof.Proof.Claims

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame_run (F := Bits) m ρ,
  Cert.Proof.Hand.frame_ki, Cert.Proof.Hand.frame_ri, trivial, Cert.Proof.Hand.algebraic⟩

end Cert.Proof

end
